-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S4096x256 : Shape := ⟨2, ![4096, 256]⟩
abbrev S8192x4096 : Shape := ⟨2, ![8192, 4096]⟩
abbrev S256x256 : Shape := ⟨2, ![256, 256]⟩
abbrev S256 : Shape := ⟨1, ![256]⟩
abbrev S512x256 : Shape := ⟨2, ![512, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S8192x4096 : S_.BroadcastsInDim S8192x4096 (![] : Fin 0 → Fin S8192x4096.rank)
  reducesTo_S8192x4096_S_d0_1 : S8192x4096.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg7 : FVec F S512x256 .f32) (main_arg8 : FVec F S256 .f32) (main_arg9 : FVec F S512x256 .f32) (main_arg10 : FVec F S256 .f32) (main_v33 : IVec S_ 1) : IVec S_ 1 :=
  let main_v34 : FVec F S512x256 .f32 := Host.absf main_arg7
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S512x256 .f32 := Host.absf main_arg9
  let main_cst_16 : FVec F S_ .f32 := constant S_ .f32 0x7F800000#32
  let main_v45 : FVec F S512x256 .f32 := broadcastInDim S512x256 ![] bcast_S_S512x256 main_cst_16
  let main_v46 : IVec S512x256 1 := cmpf .olt main_v44 main_v45
  let main_c_17 : IVec S_ 1 := constantI S_ 1 1#1
  let main_v47 : IVec S_ 1 := (fun x v => Host.reduce IntOp.andi x v reducesTo_S512x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg4 : FVec F S256 .f32) (main_arg5 : FVec F S256x256 .f32) (main_arg6 : FVec F S256 .f32) (main_arg7 : FVec F S512x256 .f32) (main_arg8 : FVec F S256 .f32) (main_arg9 : FVec F S512x256 .f32) (main_arg10 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x256 .f32) (main_arg1 : FVec F S4096x256 .f32) (main_arg2 : FVec F S8192x4096 .f32) (main_arg3 : FVec F S256x256 .f32) (main_arg4 : FVec F S256 .f32) (main_arg5 : FVec F S256x256 .f32) (main_arg6 : FVec F S256 .f32) (main_arg7 : FVec F S512x256 .f32) (main_arg8 : FVec F S256 .f32) (main_arg9 : FVec F S512x256 .f32) (main_arg10 : FVec F S256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S8192x4096 .f32 := Host.absf main_arg2
  let main_cst_2 : FVec F S_ .f32 := constant S_ .f32 0x7F800000#32
  let main_v10 : FVec F S8192x4096 .f32 := broadcastInDim S8192x4096 ![] bcast_S_S8192x4096 main_cst_2
  let main_v11 : IVec S8192x4096 1 := cmpf .olt main_v9 main_v10
  let main_c_3 : IVec S_ 1 := constantI S_ 1 1#1
  let main_v12 : IVec S_ 1 := (fun x v => Host.reduce IntOp.andi x v reducesTo_S8192x4096_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_v13 main_v16
-- ==== Kernel.lean ====
abbrev S8192x256 : Shape := ⟨2, ![8192, 256]⟩
abbrev S4096x256 : Shape := ⟨2, ![4096, 256]⟩
abbrev S8192x4096 : Shape := ⟨2, ![8192, 4096]⟩
abbrev S256x256 : Shape := ⟨2, ![256, 256]⟩
abbrev S256 : Shape := ⟨1, ![256]⟩
abbrev S512x256 : Shape := ⟨2, ![512, 256]⟩
abbrev S1x256 : Shape := ⟨2, ![1, 256]⟩
abbrev S1024x4096 : Shape := ⟨2, ![1024, 4096]⟩
abbrev S1024x256 : Shape := ⟨2, ![1024, 256]⟩
abbrev S256x4096 : Shape := ⟨2, ![256, 4096]⟩
abbrev S256x1024 : Shape := ⟨2, ![256, 1024]⟩

abbrev nBuf : Space → Nat
  | .hbm => 27
  | .vmem => 20
  | .smem => 0
  | _ => 0

abbrev bufTy : (tb : Table) → Fin (tcTables nBuf tb) → BufTy
  | .hbm, ⟨0, _⟩ => ⟨S8192x256, .f32⟩
  | .hbm, ⟨1, _⟩ => ⟨S4096x256, .f32⟩
  | .hbm, ⟨2, _⟩ => ⟨S8192x4096, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S512x256, .f32⟩
  | .hbm, ⟨10, _⟩ => ⟨S256, .f32⟩
  | .hbm, ⟨11, _⟩ => ⟨S256x256, .bf16⟩
  | .hbm, ⟨12, _⟩ => ⟨S256x256, .bf16⟩
  | .hbm, ⟨13, _⟩ => ⟨S256x256, .f32⟩
  | .hbm, ⟨14, _⟩ => ⟨S256x256, .bf16⟩
  | .hbm, ⟨15, _⟩ => ⟨S256x256, .f32⟩
  | .hbm, ⟨16, _⟩ => ⟨S256x256, .bf16⟩
  | .hbm, ⟨17, _⟩ => ⟨S256x256, .f32⟩
  | .hbm, ⟨18, _⟩ => ⟨S256x256, .bf16⟩
  | .hbm, ⟨19, _⟩ => ⟨S256x256, .f32⟩
  | .hbm, ⟨20, _⟩ => ⟨S256x256, .bf16⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S1x256, .f32⟩
  | .hbm, ⟨25, _⟩ => ⟨S8192x256, .f32⟩
  | .hbm, ⟨26, _⟩ => ⟨S4096x256, .f32⟩
  | .local _ .vmem, ⟨0, _⟩ => ⟨S1024x4096, .f32⟩
  | .local _ .vmem, ⟨1, _⟩ => ⟨S1024x4096, .f32⟩
  | .local _ .vmem, ⟨2, _⟩ => ⟨S1024x256, .f32⟩
  | .local _ .vmem, ⟨3, _⟩ => ⟨S1024x256, .f32⟩
  | .local _ .vmem, ⟨4, _⟩ => ⟨S4096x256, .f32⟩
  | .local _ .vmem, ⟨5, _⟩ => ⟨S256x256, .bf16⟩
  | .local _ .vmem, ⟨6, _⟩ => ⟨S1x256, .f32⟩
  | .local _ .vmem, ⟨7, _⟩ => ⟨S256x256, .bf16⟩
  | .local _ .vmem, ⟨8, _⟩ => ⟨S1x256, .f32⟩
  | .local _ .vmem, ⟨9, _⟩ => ⟨S256x256, .bf16⟩
  | .local _ .vmem, ⟨10, _⟩ => ⟨S256x256, .bf16⟩
  | .local _ .vmem, ⟨11, _⟩ => ⟨S1x256, .f32⟩
  | .local _ .vmem, ⟨12, _⟩ => ⟨S256x256, .bf16⟩
  | .local _ .vmem, ⟨13, _⟩ => ⟨S256x256, .bf16⟩
  | .local _ .vmem, ⟨14, _⟩ => ⟨S1x256, .f32⟩
  | .local _ .vmem, ⟨15, _⟩ => ⟨S1024x256, .f32⟩
  | .local _ .vmem, ⟨16, _⟩ => ⟨S1024x256, .f32⟩
  | .local _ .vmem, ⟨17, _⟩ => ⟨S4096x256, .f32⟩
  | .local _ .vmem, ⟨18, _⟩ => ⟨S4096x256, .bf16⟩
  | .local _ .vmem, ⟨19, _⟩ => ⟨S256x4096, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v42 : BitVec 1 := Scalar.cmpi .eq arg0 c7_i32
  let v43 : BitVec 32 := Scalar.extui v42
  let c0_i32_28 : BitVec 32 := 0#32
  let v44 : BitVec 1 := Scalar.cmpi .ne v43 c0_i32_28
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S4096x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

class Facts₀ : Prop where
  bitsLt_bf16_f32 : FTy.bits .bf16 < FTy.bits .f32
  slices_S512x256_S256x256_0_0 : S512x256.Slices ![0, 0] S256x256
  slices_S512x256_S256x256_256_0 : S512x256.Slices ![256, 0] S256x256
  shapeCasts_S256_S1x256 : S256.ShapeCasts S1x256
  inb_S4096x256_S4096x256_0_0 : ∀ a, (![0, 0] : Fin 2 → Nat) a + S4096x256.size a ≤ S4096x256.size a
  h_S4096x256 : 0 < S4096x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  shapeCasts_S4096x256_S4096x256 : S4096x256.ShapeCasts S4096x256
  packedbf16_S4096x256_S4096x256_0_0 : (Rect.unit (s := S4096x256) ![0, 0] S4096x256.size inb_S4096x256_S4096x256_0_0).PackedRows (EltTy.packing .bf16)
  inb_S1024x256_S1024x256_0_0 : ∀ a, (![0, 0] : Fin 2 → Nat) a + S1024x256.size a ≤ S1024x256.size a
  h_S1024x256 : 0 < S1024x256.numel
  broadcasts_S1x256_S1024x256 : S1x256.Broadcasts S1024x256
  transposes_S1024x256_p1_0_S256x1024 : S1024x256.Transposes [1, 0] S256x1024
  inb_S1024x4096_S1024x4096_0_0 : ∀ a, (![0, 0] : Fin 2 → Nat) a + S1024x4096.size a ≤ S1024x4096.size a
  h_S1024x4096 : 0 < S1024x4096.numel
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S256x4096_S256x1024_0_0 : ∀ a, (![0, 0] : Fin 2 → Nat) a + S256x1024.size a ≤ S256x4096.size a
  h_S256x1024 : 0 < S256x1024.numel
  transposes_S256x1024_p1_0_S1024x256 : S256x1024.Transposes [1, 0] S1024x256
  inb_S4096x256_S1024x256_0_0 : ∀ a, (![0, 0] : Fin 2 → Nat) a + S1024x256.size a ≤ S4096x256.size a
  inb_S256x4096_S256x1024_0_1024 : ∀ a, (![0, 1024] : Fin 2 → Nat) a + S256x1024.size a ≤ S256x4096.size a
  inb_S4096x256_S1024x256_1024_0 : ∀ a, (![1024, 0] : Fin 2 → Nat) a + S1024x256.size a ≤ S4096x256.size a
  inb_S256x4096_S256x1024_0_2048 : ∀ a, (![0, 2048] : Fin 2 → Nat) a + S256x1024.size a ≤ S256x4096.size a
  inb_S4096x256_S1024x256_2048_0 : ∀ a, (![2048, 0] : Fin 2 → Nat) a + S1024x256.size a ≤ S4096x256.size a
  inb_S256x4096_S256x1024_0_3072 : ∀ a, (![0, 3072] : Fin 2 → Nat) a + S256x1024.size a ≤ S256x4096.size a
  inb_S4096x256_S1024x256_3072_0 : ∀ a, (![3072, 0] : Fin 2 → Nat) a + S1024x256.size a ≤ S4096x256.size a
  dot_S4096x256_S256x256_S4096x256_1_0_0_1_n_n_wf : DotDims.WF S4096x256 S256x256 S4096x256 [1] [0] [0] [1] [] []
  dot_S1024x256_S256x256_S1024x256_1_0_0_1_n_n_wf : DotDims.WF S1024x256 S256x256 S1024x256 [1] [0] [0] [1] [] []
  dot_S256x1024_S1024x4096_S256x4096_1_0_0_1_n_n_wf : DotDims.WF S256x1024 S1024x4096 S256x4096 [1] [0] [0] [1] [] []
  dot_S1024x4096_S4096x256_S1024x256_1_0_0_1_n_n_wf : DotDims.WF S1024x4096 S4096x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .f32 = 32 ∨ (Rect.block (s := S8192x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x256.size a
  hwx0_2 : ∀ i : grid0.Coords, EltTy.bits .f32 = 32 ∨ (Rect.block (s := S4096x256) S4096x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .bf16 = 32 ∨ (Rect.block (s := S256x256) S256x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .bf16 = 32 ∨ (Rect.block (s := S256x256) S256x256.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .bf16 = 32 ∨ (Rect.block (s := S256x256) S256x256.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1024x256.size a ≤ S8192x256.size a
  hwx0_13 : ∀ i : grid0.Coords, EltTy.bits .f32 = 32 ∨ (Rect.block (s := S8192x256) S1024x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S4096x256.size a ≤ S4096x256.size a
  hwx0_14 : ∀ i : grid0.Coords, EltTy.bits .f32 = 32 ∨ (Rect.block (s := S4096x256) S4096x256.size (cc0_transform_14 i) (hinb0_14 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S1024x4096_S4096x256_S1024x256_1_0_0_1_n_n : DotDims S1024x4096 S4096x256 S1024x256 where
  lhsContracting := [1]
  rhsContracting := [0]
  lhsNonContracting := [0]
  rhsNonContracting := [1]
  lhsBatch := []
  rhsBatch := []
  wf := dot_S1024x4096_S4096x256_S1024x256_1_0_0_1_n_n_wf

abbrev win0_0 : Pipeline.Window sig grid0 :=
  Pipeline.Window.ofSpec (Memref.whole main_arg2) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4096x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v13) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v14_0) S1024x256.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v14_1) S4096x256.size cc0_transform_14 reads0_14 true true 1 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev idle0 : Fin 15 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun i => !(k0_cond2 i == 1#1) | ⟨_ + 15, h⟩ => absurd h (Nat.not_lt.2 (Nat.le_add_left _ _))

class Facts : Prop extends Facts₀ where

variable [Facts]
-- ==== ReferenceIdeal.lean ====
abbrev S8192x256 : Shape := ⟨2, ![8192, 256]⟩
abbrev S4096x256 : Shape := ⟨2, ![4096, 256]⟩
abbrev S8192x4096 : Shape := ⟨2, ![8192, 4096]⟩
abbrev S256x256 : Shape := ⟨2, ![256, 256]⟩
abbrev S256 : Shape := ⟨1, ![256]⟩
abbrev S512x256 : Shape := ⟨2, ![512, 256]⟩
abbrev S1x256 : Shape := ⟨2, ![1, 256]⟩
abbrev S_ : Shape := ⟨0, ![]⟩
abbrev S4096x8192 : Shape := ⟨2, ![4096, 8192]⟩
abbrev S8192x512 : Shape := ⟨2, ![8192, 512]⟩
abbrev S4096x512 : Shape := ⟨2, ![4096, 512]⟩

abbrev nBuf : Space → Nat
  | .hbm => 44
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S4096x256, .f32⟩
  | .hbm, ⟨2, _⟩ => ⟨S8192x4096, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S512x256, .f32⟩
  | .hbm, ⟨10, _⟩ => ⟨S256, .f32⟩
  | .hbm, ⟨11, _⟩ => ⟨S8192x256, .f32⟩
  | .hbm, ⟨12, _⟩ => ⟨S1x256, .f32⟩
  | .hbm, ⟨13, _⟩ => ⟨S8192x256, .f32⟩
  | .hbm, ⟨14, _⟩ => ⟨S8192x256, .f32⟩
  | .hbm, ⟨15, _⟩ => ⟨S_, .f32⟩
  | .hbm, ⟨16, _⟩ => ⟨S8192x256, .f32⟩
  | .hbm, ⟨17, _⟩ => ⟨S8192x256, .f32⟩
  | .hbm, ⟨18, _⟩ => ⟨S4096x256, .f32⟩
  | .hbm, ⟨19, _⟩ => ⟨S1x256, .f32⟩
  | .hbm, ⟨20, _⟩ => ⟨S4096x256, .f32⟩
  | .hbm, ⟨21, _⟩ => ⟨S4096x256, .f32⟩
  | .hbm, ⟨22, _⟩ => ⟨S_, .f32⟩
  | .hbm, ⟨23, _⟩ => ⟨S4096x256, .f32⟩
  | .hbm, ⟨24, _⟩ => ⟨S4096x256, .f32⟩
  | .hbm, ⟨25, _⟩ => ⟨S8192x256, .f32⟩
  | .hbm, ⟨26, _⟩ => ⟨S4096x8192, .f32⟩
  | .hbm, ⟨27, _⟩ => ⟨S4096x256, .f32⟩
  | .hbm, ⟨28, _⟩ => ⟨S8192x512, .f32⟩
  | .hbm, ⟨29, _⟩ => ⟨S8192x256, .f32⟩
  | .hbm, ⟨30, _⟩ => ⟨S1x256, .f32⟩
  | .hbm, ⟨31, _⟩ => ⟨S8192x256, .f32⟩
  | .hbm, ⟨32, _⟩ => ⟨S8192x256, .f32⟩
  | .hbm, ⟨33, _⟩ => ⟨S_, .f32⟩
  | .hbm, ⟨34, _⟩ => ⟨S8192x256, .f32⟩
  | .hbm, ⟨35, _⟩ => ⟨S8192x256, .f32⟩
  | .hbm, ⟨36, _⟩ => ⟨S4096x512, .f32⟩
  | .hbm, ⟨37, _⟩ => ⟨S4096x256, .f32⟩
  | .hbm, ⟨38, _⟩ => ⟨S1x256, .f32⟩
  | .hbm, ⟨39, _⟩ => ⟨S4096x256, .f32⟩
  | .hbm, ⟨40, _⟩ => ⟨S4096x256, .f32⟩
  | .hbm, ⟨41, _⟩ => ⟨S_, .f32⟩
  | .hbm, ⟨42, _⟩ => ⟨S4096x256, .f32⟩
  | .hbm, ⟨43, _⟩ => ⟨S4096x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_call1_cst : Ref sig .tc := ⟨.hbm, 22, rfl⟩
abbrev main_call1_v0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_call2_cst : Ref sig .tc := ⟨.hbm, 33, rfl⟩
abbrev main_call2_v0 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call3_cst : Ref sig .tc := ⟨.hbm, 41, rfl⟩
abbrev main_call3_v0 : Ref sig .tc := ⟨.hbm, 42, rfl⟩
abbrev main_v24 : Ref sig .tc := ⟨.hbm, 43, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  transposes_S8192x4096_S4096x8192_1_0 : S8192x4096.Transposes [1, 0] S4096x8192
  concatenates_S8192x256_S8192x256_S8192x512_d1 : Shape.Concatenates [S8192x256, S8192x256] S8192x512 1
  concatenates_S4096x256_S4096x256_S4096x512_d1 : Shape.Concatenates [S4096x256, S4096x256] S4096x512 1
  dot_S8192x256_S256x256_S8192x256_1_0_0_1_n_n_wf : DotDims.WF S8192x256 S256x256 S8192x256 [1] [0] [0] [1] [] []
  dot_S4096x256_S256x256_S4096x256_1_0_0_1_n_n_wf : DotDims.WF S4096x256 S256x256 S4096x256 [1] [0] [0] [1] [] []
  dot_S8192x4096_S4096x256_S8192x256_1_0_0_1_n_n_wf : DotDims.WF S8192x4096 S4096x256 S8192x256 [1] [0] [0] [1] [] []
  dot_S4096x8192_S8192x256_S4096x256_1_0_0_1_n_n_wf : DotDims.WF S4096x8192 S8192x256 S4096x256 [1] [0] [0] [1] [] []
  dot_S8192x512_S512x256_S8192x256_1_0_0_1_n_n_wf : DotDims.WF S8192x512 S512x256 S8192x256 [1] [0] [0] [1] [] []
  dot_S4096x512_S512x256_S4096x256_1_0_0_1_n_n_wf : DotDims.WF S4096x512 S512x256 S4096x256 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S8192x4096_S4096x256_S8192x256_1_0_0_1_n_n : DotDims S8192x4096 S4096x256 S8192x256 where
  lhsContracting := [1]
  rhsContracting := [0]
  lhsNonContracting := [0]
  rhsNonContracting := [1]
  lhsBatch := []
  rhsBatch := []
  wf := dot_S8192x4096_S4096x256_S8192x256_1_0_0_1_n_n_wf
def dot_S4096x8192_S8192x256_S4096x256_1_0_0_1_n_n : DotDims S4096x8192 S8192x256 S4096x256 where
  lhsContracting := [1]
  rhsContracting := [0]
  lhsNonContracting := [0]
  rhsNonContracting := [1]
  lhsBatch := []
  rhsBatch := []
  wf := dot_S4096x8192_S8192x256_S4096x256_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf

class Facts : Prop extends Facts₀ where

variable [Facts]
-- ==== Proof.K.Body.lean ====
/-
  The kernel body at a grid point, run once for each of its three control cases — the first point (xg_pre is
  computed into its scratch), a middle point, the last point (the graph result's four tiles are written) —, on
  staging buffers, the two scratch buffers included, held at any contents. After it the surface result's buffer
  holds the strip's rows of xs, the transposed message accumulator holds what it held plus the strip's
  contribution (the contribution alone at the first point), and at the last point the graph result's buffer holds
  xg, tile by tile; every input buffer is as it was.
-/
import proofs.«118744_g87900800680619_cont_9to1_m_379_24_alg».proof.Proof.Gen.Kernel.Frame
import proofs.«118744_g87900800680619_cont_9to1_m_379_24_alg».proof.Proof.Gen.Kernel.Skeleton
import Idealize.ShloMosaic.Lib.Pipeline.Value
import Idealize.ShloMosaic.Lib.ValueIdx

set_option maxRecDepth 16384
set_option pp.maxSteps 8000
set_option pp.deepTerms false

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

/-- The first-step condition of the body, from the grid coordinate. -/
abbrev cond1 (i : grid0.Coords) : Prop :=
  (Scalar.cmpi .ne (Scalar.extui (Scalar.cmpi .eq (BitVec.ofNat 32 (i 0).val) 0#32)) 0#32) = 1#1

/-- The whole-buffer rectangle's offsets are zero. -/
theorem off0 : (![0, 0] : Fin 2 → ℕ) = fun _ => 0 := funext fun a => by fin_cases a <;> rfl

/-- What a strip leaves in the surface result's buffer: the strip's xs_pre against the upper half of the post
    weight, plus the strip's message (the weights' strip against xg_pre, `s0`) against the lower half, plus the
    bias, positive part. -/
def OUT13 (x1 : Vec F S1024x4096 .f32) (x2 : Vec F S1024x256 .f32) (x4 : Vec F S256x256 .bf16) (x5 : Vec F S1x256 .f32)
    (x8 x9 : Vec F S256x256 .bf16) (x10 : Vec F S1x256 .f32) (s0 : Vec F S4096x256 .bf16) : FVec F S1024x256 .f32 :=
  k0_pay1 (k0_pay15 x2 x4 x5 x8) (k0_pay16 x1 s0) x9 x10

/-- What the last grid point leaves in the graph result's buffer: four tiles of 1024 rows, tile k from columns
    [1024k, 1024k + 1024) of the finished transposed accumulator `a` and the same rows of xg_pre `s0`. -/
def OUT14 (x11 x12 : Vec F S256x256 .bf16) (x13 : Vec F S1x256 .f32) (s0 : Vec F S4096x256 .bf16)
    (a : Vec F S256x4096 .f32) : Vec F S4096x256 .f32 :=
  View.canon
    [⟨(Rect.unit (s := S4096x256) ![3072, 0] S1024x256.size inb_S4096x256_S1024x256_3072_0), k0_pay2 (k0_pay8 (View.ld a (Rect.unit (s := S256x4096) ![0, 3072] S256x1024.size inb_S256x4096_S256x1024_0_3072))) (k0_pay9 (View.ld s0 (Rect.unit (s := S4096x256) ![3072, 0] S1024x256.size inb_S4096x256_S1024x256_3072_0)) x11) (k0_pay10 x12) x13⟩,
     ⟨(Rect.unit (s := S4096x256) ![2048, 0] S1024x256.size inb_S4096x256_S1024x256_2048_0), k0_pay7 (View.ld a (Rect.unit (s := S256x4096) ![0, 2048] S256x1024.size inb_S256x4096_S256x1024_0_2048)) (View.ld s0 (Rect.unit (s := S4096x256) ![2048, 0] S1024x256.size inb_S4096x256_S1024x256_2048_0)) x11 x12 x13⟩,
     ⟨(Rect.unit (s := S4096x256) ![1024, 0] S1024x256.size inb_S4096x256_S1024x256_1024_0), k0_pay6 (k0_pay4 (View.ld a (Rect.unit (s := S256x4096) ![0, 1024] S256x1024.size inb_S256x4096_S256x1024_0_1024)) (View.ld s0 (Rect.unit (s := S4096x256) ![1024, 0] S1024x256.size inb_S4096x256_S1024x256_1024_0)) x11 x12) (k0_pay5 x13)⟩,
     ⟨(Rect.unit (s := S4096x256) ![0, 0] S1024x256.size inb_S4096x256_S1024x256_0_0), k0_pay3 (View.ld a (Rect.unit (s := S256x4096) ![0, 0] S256x1024.size inb_S256x4096_S256x1024_0_0)) (View.ld s0 (Rect.unit (s := S4096x256) ![0, 0] S1024x256.size inb_S4096x256_S1024x256_0_0)) x11 x12 x13⟩]

/-- At the first grid point what the accumulator held does not matter: the stored value is the strip's
    contribution alone. -/
theorem pay14_first (i : grid0.Coords) (hi : (i 0).val = 0) (v3 : Vec F S1024x256 .f32)
    (v5 : Vec F S256x256 .bf16) (v8 : Vec F S1x256 .f32) (v16 : Vec F S1024x4096 .f32) (J J' : Vec F S256x4096 .f32) :
    k0_pay14 i v3 v5 v8 v16 J = k0_pay14 i v3 v5 v8 v16 J' := by
  have hw : Scalar.cmpi .eq (BitVec.ofNat 32 (i 0).val) 0#32 = 1#1 := by rw [hi]; rfl
  unfold k0_pay14
  simp only [hw, ValueIdx.select_one]

/-- A load through any rectangle of a buffer just stored whole reads the stored value there. -/
theorem readCov_whole17 (v : View sig .tc .vmem S256x4096 .f32) (inb : ∀ a, (![0, 0] : Fin 2 → ℕ) a + S256x4096.size a ≤ S256x4096.size a)
    (w : Vec F S256x4096 .f32) (r : Rect S256x4096) :
    v.readCov [(⟨Rect.unit (s := S256x4096) ![0, 0] S256x4096.size inb, w⟩ : View.Piece (Elt F) S256x4096 .f32)] r.toLoadRect
      = View.ld w r := by
  rw [View.readCov_eq_canon_ld _ _ _ (fun y => View.cover_of_tiled [⟨_, _⟩] S256x4096.size (by rfl) y), View.canon_unit_zero off0]

/-- Four stores of 1024 rows each through the four row tiles of a [4096, 256] buffer leave, whatever it held,
    the tile payloads side by side. -/
theorem read_tiles (v : View sig .tc .vmem S4096x256 .f32) (f : v.ty.Contents (Elt F)) (p3 p2 p1 p0 : FVec F S1024x256 .f32) :
    v.read (Elt F) (v.writes (Elt F) f
      [(⟨(Rect.unit (s := S4096x256) ![3072, 0] S1024x256.size inb_S4096x256_S1024x256_3072_0), p3⟩ : View.Piece (Elt F) S4096x256 .f32), ⟨(Rect.unit (s := S4096x256) ![2048, 0] S1024x256.size inb_S4096x256_S1024x256_2048_0), p2⟩, ⟨(Rect.unit (s := S4096x256) ![1024, 0] S1024x256.size inb_S4096x256_S1024x256_1024_0), p1⟩, ⟨(Rect.unit (s := S4096x256) ![0, 0] S1024x256.size inb_S4096x256_S1024x256_0_0), p0⟩])
      = View.canon [(⟨(Rect.unit (s := S4096x256) ![3072, 0] S1024x256.size inb_S4096x256_S1024x256_3072_0), p3⟩ : View.Piece (Elt F) S4096x256 .f32), ⟨(Rect.unit (s := S4096x256) ![2048, 0] S1024x256.size inb_S4096x256_S1024x256_2048_0), p2⟩, ⟨(Rect.unit (s := S4096x256) ![1024, 0] S1024x256.size inb_S4096x256_S1024x256_1024_0), p1⟩, ⟨(Rect.unit (s := S4096x256) ![0, 0] S1024x256.size inb_S4096x256_S1024x256_0_0), p0⟩] :=
  View.read_writes_eq_canon _ _ _ (View.cover_of_tiled _ S1024x256.size (by rfl))

/-- The body at a middle grid point: neither branch is taken. -/
theorem runB (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (hc1 : ¬ cond1 i) (hc2 : ¬ k0_cond2 i = 1#1)
    (x1 : Vec F S1024x4096 .f32) (x2 : Vec F S1024x256 .f32) (x3 : Vec F S4096x256 .f32) (x4 : Vec F S256x256 .bf16) (x5 : Vec F S1x256 .f32) (x6 : Vec F S256x256 .bf16) (x7 : Vec F S1x256 .f32) (x8 : Vec F S256x256 .bf16) (x9 : Vec F S256x256 .bf16) (x10 : Vec F S1x256 .f32) (x11 : Vec F S256x256 .bf16) (x12 : Vec F S256x256 .bf16) (x13 : Vec F S1x256 .f32) (x15 : Vec F S4096x256 .f32) (s0 : Vec F S4096x256 .bf16) (s1 : Vec F S256x4096 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ owns (c : Thread nD τ) arg15 fullShare x15
        ∗ owns (c : Thread nD τ) arg16 fullShare s0 ∗ owns (c : Thread nD τ) arg17 fullShare s1
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (OUT13 x1 x2 x4 x5 x8 x9 x10 s0)
            ∗ owns (c : Thread nD τ) arg15 fullShare x15 ∗ owns (c : Thread nD τ) arg16 fullShare s0
            ∗ owns (c : Thread nD τ) arg17 fullShare (k0_pay14 i x2 x4 x5 x1 s1)) -∗ K ⟨⟩))
      ⊢ wp frame (wpE (defs₀ (F := F)) Variants.none c none) Set.univ (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__body_eq_skeleton]; unfold cc0__body_skel
  simp only [k0_part3_eq_skeleton, k0_part1_eq_skeleton, k0_part2_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%g16, %hg16, H16⟩, ⟨%g17, %hg17, H17⟩, Hk⟩
  subst hf1 hf2 hf3 hf4 hf5 hf6 hf7 hf8 hf9 hf10 hf11 hf12 hf13 hf15 hg16 hg17
  sl_exec (disch := first | exact hc1 | exact hc2)
  sl_step
  iapply Hk
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists f6; isplitr
    · ipureintro; rfl
    iexact H6
  isplitl [H7]
  · iexists f7; isplitr
    · ipureintro; rfl
    iexact H7
  isplitl [H8]
  · iexists f8; isplitr
    · ipureintro; rfl
    iexact H8
  isplitl [H9]
  · iexists f9; isplitr
    · ipureintro; rfl
    iexact H9
  isplitl [H10]
  · iexists f10; isplitr
    · ipureintro; rfl
    iexact H10
  isplitl [H11]
  · iexists f11; isplitr
    · ipureintro; rfl
    iexact H11
  isplitl [H12]
  · iexists f12; isplitr
    · ipureintro; rfl
    iexact H12
  isplitl [H13]
  · iexists f13; isplitr
    · ipureintro; rfl
    iexact H13
  isplitl [H14]
  · iexists _; isplitr
    swap; · iexact H14
    ipureintro
    rw [View.read_writes_eq_canon _ _ _ (fun y => View.cover_of_tiled [⟨_, _⟩] S1024x256.size (by rfl) y), View.canon_unit_zero off0]
    sl_unfold_words
    unfold OUT13
    simp only [View.readAt_eq_ld, View.ld_unit_zero (S := S1024x4096) off0, View.ld_unit_zero (S := S1024x256) off0, View.ld_unit_zero (S := S4096x256) off0, View.ld_unit_zero (S := S256x256) off0, View.ld_unit_zero (S := S1x256) off0, View.ld_unit_zero (S := S256x4096) off0, View.readCov_unit_zero (S := S4096x256) _ off0, readCov_whole17]
  isplitl [H15]
  · iexists f15; isplitr
    · ipureintro; rfl
    iexact H15
  isplitl [H16]
  · iexists g16; isplitr
    · ipureintro; rfl
    iexact H16
  iexists _; isplitr
  swap; · iexact H17
  ipureintro
  sl_unfold_words
  rw [View.read_writes_eq_canon _ _ _ (fun y => View.cover_of_tiled [⟨_, _⟩] S256x4096.size (by rfl) y), View.canon_unit_zero off0]
  simp only [View.readAt_eq_ld, View.ld_unit_zero (S := S1024x4096) off0, View.ld_unit_zero (S := S1024x256) off0, View.ld_unit_zero (S := S4096x256) off0, View.ld_unit_zero (S := S256x256) off0, View.ld_unit_zero (S := S1x256) off0, View.ld_unit_zero (S := S256x4096) off0, View.readCov_unit_zero (S := S4096x256) _ off0, readCov_whole17]

/-- The body at the first grid point: xg_pre is computed into its scratch first, and served from there. -/
theorem runA (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (hc1 : cond1 i) (hc2 : ¬ k0_cond2 i = 1#1)
    (x1 : Vec F S1024x4096 .f32) (x2 : Vec F S1024x256 .f32) (x3 : Vec F S4096x256 .f32) (x4 : Vec F S256x256 .bf16) (x5 : Vec F S1x256 .f32) (x6 : Vec F S256x256 .bf16) (x7 : Vec F S1x256 .f32) (x8 : Vec F S256x256 .bf16) (x9 : Vec F S256x256 .bf16) (x10 : Vec F S1x256 .f32) (x11 : Vec F S256x256 .bf16) (x12 : Vec F S256x256 .bf16) (x13 : Vec F S1x256 .f32) (x15 : Vec F S4096x256 .f32) (s0 : Vec F S4096x256 .bf16) (s1 : Vec F S256x4096 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ owns (c : Thread nD τ) arg15 fullShare x15
        ∗ owns (c : Thread nD τ) arg16 fullShare s0 ∗ owns (c : Thread nD τ) arg17 fullShare s1
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (OUT13 x1 x2 x4 x5 x8 x9 x10 (k0_pay11 x3 x6 x7))
            ∗ owns (c : Thread nD τ) arg15 fullShare x15 ∗ owns (c : Thread nD τ) arg16 fullShare (k0_pay11 x3 x6 x7)
            ∗ owns (c : Thread nD τ) arg17 fullShare (k0_pay14 i x2 x4 x5 x1 s1)) -∗ K ⟨⟩))
      ⊢ wp frame (wpE (defs₀ (F := F)) Variants.none c none) Set.univ (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__body_eq_skeleton]; unfold cc0__body_skel
  simp only [k0_part3_eq_skeleton, k0_part1_eq_skeleton, k0_part2_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%g16, %hg16, H16⟩, ⟨%g17, %hg17, H17⟩, Hk⟩
  subst hf1 hf2 hf3 hf4 hf5 hf6 hf7 hf8 hf9 hf10 hf11 hf12 hf13 hf15 hg16 hg17
  sl_exec (disch := first | exact hc1 | exact hc2)
  sl_step
  iapply Hk
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists f6; isplitr
    · ipureintro; rfl
    iexact H6
  isplitl [H7]
  · iexists f7; isplitr
    · ipureintro; rfl
    iexact H7
  isplitl [H8]
  · iexists f8; isplitr
    · ipureintro; rfl
    iexact H8
  isplitl [H9]
  · iexists f9; isplitr
    · ipureintro; rfl
    iexact H9
  isplitl [H10]
  · iexists f10; isplitr
    · ipureintro; rfl
    iexact H10
  isplitl [H11]
  · iexists f11; isplitr
    · ipureintro; rfl
    iexact H11
  isplitl [H12]
  · iexists f12; isplitr
    · ipureintro; rfl
    iexact H12
  isplitl [H13]
  · iexists f13; isplitr
    · ipureintro; rfl
    iexact H13
  isplitl [H14]
  · iexists _; isplitr
    swap; · iexact H14
    ipureintro
    rw [View.read_writes_eq_canon _ _ _ (fun y => View.cover_of_tiled [⟨_, _⟩] S1024x256.size (by rfl) y), View.canon_unit_zero off0]
    sl_unfold_words
    unfold OUT13
    simp only [View.readAt_eq_ld, View.ld_unit_zero (S := S1024x4096) off0, View.ld_unit_zero (S := S1024x256) off0, View.ld_unit_zero (S := S4096x256) off0, View.ld_unit_zero (S := S256x256) off0, View.ld_unit_zero (S := S1x256) off0, View.ld_unit_zero (S := S256x4096) off0, View.readCov_unit_zero (S := S4096x256) _ off0, readCov_whole17]
  isplitl [H15]
  · iexists f15; isplitr
    · ipureintro; rfl
    iexact H15
  isplitl [H16]
  · iexists _; isplitr
    swap; · iexact H16
    ipureintro
    sl_unfold_words
    rw [View.read_writes_eq_canon _ _ _ (fun y => View.cover_of_tiled [⟨_, _⟩] S4096x256.size (by rfl) y), View.canon_unit_zero off0]
    simp only [View.readAt_eq_ld, View.ld_unit_zero (S := S1024x4096) off0, View.ld_unit_zero (S := S1024x256) off0, View.ld_unit_zero (S := S4096x256) off0, View.ld_unit_zero (S := S256x256) off0, View.ld_unit_zero (S := S1x256) off0, View.ld_unit_zero (S := S256x4096) off0, View.readCov_unit_zero (S := S4096x256) _ off0, readCov_whole17]
  iexists _; isplitr
  swap; · iexact H17
  ipureintro
  sl_unfold_words
  rw [View.read_writes_eq_canon _ _ _ (fun y => View.cover_of_tiled [⟨_, _⟩] S256x4096.size (by rfl) y), View.canon_unit_zero off0]
  simp only [View.readAt_eq_ld, View.ld_unit_zero (S := S1024x4096) off0, View.ld_unit_zero (S := S1024x256) off0, View.ld_unit_zero (S := S4096x256) off0, View.ld_unit_zero (S := S256x256) off0, View.ld_unit_zero (S := S1x256) off0, View.ld_unit_zero (S := S256x4096) off0, View.readCov_unit_zero (S := S4096x256) _ off0, readCov_whole17]

/-- The body at the last grid point: after the strip's work, the graph result's four tiles. -/
theorem runC (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (hc1 : ¬ cond1 i) (hc2 : k0_cond2 i = 1#1)
    (x1 : Vec F S1024x4096 .f32) (x2 : Vec F S1024x256 .f32) (x3 : Vec F S4096x256 .f32) (x4 : Vec F S256x256 .bf16) (x5 : Vec F S1x256 .f32) (x6 : Vec F S256x256 .bf16) (x7 : Vec F S1x256 .f32) (x8 : Vec F S256x256 .bf16) (x9 : Vec F S256x256 .bf16) (x10 : Vec F S1x256 .f32) (x11 : Vec F S256x256 .bf16) (x12 : Vec F S256x256 .bf16) (x13 : Vec F S1x256 .f32) (s0 : Vec F S4096x256 .bf16) (s1 : Vec F S256x4096 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d)
        ∗ owns (c : Thread nD τ) arg16 fullShare s0 ∗ owns (c : Thread nD τ) arg17 fullShare s1
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (OUT13 x1 x2 x4 x5 x8 x9 x10 s0)
            ∗ owns (c : Thread nD τ) arg15 fullShare (OUT14 x11 x12 x13 s0 (k0_pay14 i x2 x4 x5 x1 s1)) ∗ owns (c : Thread nD τ) arg16 fullShare s0
            ∗ owns (c : Thread nD τ) arg17 fullShare (k0_pay14 i x2 x4 x5 x1 s1)) -∗ K ⟨⟩))
      ⊢ wp frame (wpE (defs₀ (F := F)) Variants.none c none) Set.univ (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__body_eq_skeleton]; unfold cc0__body_skel
  simp only [k0_part3_eq_skeleton, k0_part1_eq_skeleton, k0_part2_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%g16, %hg16, H16⟩, ⟨%g17, %hg17, H17⟩, Hk⟩
  subst hf1 hf2 hf3 hf4 hf5 hf6 hf7 hf8 hf9 hf10 hf11 hf12 hf13 hg16 hg17
  sl_exec (disch := first | exact hc1 | exact hc2)
  sl_step
  iapply Hk
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists f6; isplitr
    · ipureintro; rfl
    iexact H6
  isplitl [H7]
  · iexists f7; isplitr
    · ipureintro; rfl
    iexact H7
  isplitl [H8]
  · iexists f8; isplitr
    · ipureintro; rfl
    iexact H8
  isplitl [H9]
  · iexists f9; isplitr
    · ipureintro; rfl
    iexact H9
  isplitl [H10]
  · iexists f10; isplitr
    · ipureintro; rfl
    iexact H10
  isplitl [H11]
  · iexists f11; isplitr
    · ipureintro; rfl
    iexact H11
  isplitl [H12]
  · iexists f12; isplitr
    · ipureintro; rfl
    iexact H12
  isplitl [H13]
  · iexists f13; isplitr
    · ipureintro; rfl
    iexact H13
  isplitl [H14]
  · iexists _; isplitr
    swap; · iexact H14
    ipureintro
    rw [View.read_writes_eq_canon _ _ _ (fun y => View.cover_of_tiled [⟨_, _⟩] S1024x256.size (by rfl) y), View.canon_unit_zero off0]
    sl_unfold_words
    unfold OUT13
    simp only [View.readAt_eq_ld, View.ld_unit_zero (S := S1024x4096) off0, View.ld_unit_zero (S := S1024x256) off0, View.ld_unit_zero (S := S4096x256) off0, View.ld_unit_zero (S := S256x256) off0, View.ld_unit_zero (S := S1x256) off0, View.ld_unit_zero (S := S256x4096) off0, View.readCov_unit_zero (S := S4096x256) _ off0, readCov_whole17]
  isplitl [H15]
  · iexists _; isplitr
    swap; · iexact H15
    ipureintro
    sl_unfold_words
    rw [read_tiles, readCov_whole17, readCov_whole17, readCov_whole17, readCov_whole17]
    unfold OUT14
    simp only [View.readAt_eq_ld, View.ld_unit_zero (S := S1024x4096) off0, View.ld_unit_zero (S := S1024x256) off0, View.ld_unit_zero (S := S4096x256) off0, View.ld_unit_zero (S := S256x256) off0, View.ld_unit_zero (S := S1x256) off0, View.ld_unit_zero (S := S256x4096) off0, View.readCov_unit_zero (S := S4096x256) _ off0, readCov_whole17]
  isplitl [H16]
  · iexists g16; isplitr
    · ipureintro; rfl
    iexact H16
  iexists _; isplitr
  swap; · iexact H17
  ipureintro
  sl_unfold_words
  rw [View.read_writes_eq_canon _ _ _ (fun y => View.cover_of_tiled [⟨_, _⟩] S256x4096.size (by rfl) y), View.canon_unit_zero off0]
  simp only [View.readAt_eq_ld, View.ld_unit_zero (S := S1024x4096) off0, View.ld_unit_zero (S := S1024x256) off0, View.ld_unit_zero (S := S4096x256) off0, View.ld_unit_zero (S := S256x256) off0, View.ld_unit_zero (S := S1x256) off0, View.ld_unit_zero (S := S256x4096) off0, View.readCov_unit_zero (S := S4096x256) _ off0, readCov_whole17]

end Cert.Proof.K

end
-- ==== Proof.K.Data.lean ====
/-
  The pipeline's proof data for the kernel, the body obligation and the run. Between grid points the kernel
  keeps two things in scratch: xg_pre, computed at the first point and only read afterwards, and the transposed
  message accumulator, to which every point adds its strip's contribution. What the two hold after each point is a
  recursion on the point; the region's invariant names them from the first point on, and says nothing of them
  before it (there the accumulator is read, but what is stored does not depend on what was read). The surface
  result's strip is written back at every point; the graph result's buffer is written whole at the last point
  only and is left as it was found at the others.
-/
import proofs.«118744_g87900800680619_cont_9to1_m_379_24_alg».proof.Proof.K.Body

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

variable (m : (ℓ : Loc nD τ sig) → Buf (Elt F) ℓ) (ρ : Dev nD → PrngReg)

/-! ## The two branch conditions over the grid, and where the windows are idle -/

/-- The first-step branch is taken at point 0 only. -/
theorem hcond1 : ∀ t : Fin cfg0.N, cond1 (grid0.coords t) ↔ t.val % 8 = 0 :=
  (by decide +kernel : ∀ t : Fin grid0.N, cond1 (grid0.coords t) ↔ t.val % 8 = 0)
/-- The last-step branch is taken at point 7 only. -/
theorem hcond2 : ∀ t : Fin cfg0.N, k0_cond2 (grid0.coords t) = 1#1 ↔ t.val % 8 = 7 :=
  (by decide +kernel : ∀ t : Fin grid0.N, k0_cond2 (grid0.coords t) = 1#1 ↔ t.val % 8 = 7)
/-- The grid coordinate of point 0 is 0. -/
theorem coord_first : ∀ t : Fin cfg0.N, t.val = 0 → ((grid0.coords t) 0).val = 0 :=
  (by decide +kernel : ∀ t : Fin grid0.N, t.val = 0 → ((grid0.coords t) 0).val = 0)
theorem coord0 (h : 0 < cfg0.N) : ((grid0.coords ⟨0, h⟩) 0).val = 0 := coord_first ⟨0, h⟩ rfl

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel
theorem live9 : ∀ t : Fin cfg0.N, cfg0.idle 9 (grid0.coords t) = false := by decide +kernel
theorem live10 : ∀ t : Fin cfg0.N, cfg0.idle 10 (grid0.coords t) = false := by decide +kernel
theorem live11 : ∀ t : Fin cfg0.N, cfg0.idle 11 (grid0.coords t) = false := by decide +kernel
theorem live12 : ∀ t : Fin cfg0.N, cfg0.idle 12 (grid0.coords t) = false := by decide +kernel
theorem live13 : ∀ t : Fin cfg0.N, cfg0.idle 13 (grid0.coords t) = false := by decide +kernel
/-- Away from the last point the graph result's buffer is idle and not written back; at it, live. -/
theorem idle14 : ∀ t : Fin cfg0.N, ¬ k0_cond2 (grid0.coords t) = 1#1 → cfg0.idle 14 (grid0.coords t) = true := by decide +kernel
theorem noFlush14 : ∀ t : Fin cfg0.N, ¬ k0_cond2 (grid0.coords t) = 1#1 → (cfg0.win 14).flush t = false := by decide +kernel
theorem live14 : ∀ t : Fin cfg0.N, k0_cond2 (grid0.coords t) = 1#1 → cfg0.idle 14 (grid0.coords t) = false := by decide +kernel

/-! ## The memrefs the body is called with -/

abbrev ms0 (t : Fin cfg0.N) : Memref sig .tc .vmem S1024x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x256 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x256 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S256x256 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x256 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S256x256 .bf16 := win0_10.stage (cfg0.slots t 10)
abbrev hs10 (t : Fin cfg0.N) : (ms10 t).IsWhole := hstage0_10 ((cfg0.slots t 10).cast nbuf0_10)
abbrev ms11 (t : Fin cfg0.N) : Memref sig .tc .vmem S256x256 .bf16 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x256 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S1024x256 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S4096x256 .f32 := win0_14.stage (cfg0.slots t 14)
abbrev hs14 (t : Fin cfg0.N) : (ms14 t).IsWhole := hstage0_14 ((cfg0.slots t 14).cast nbuf0_14)
abbrev scM0 : Memref sig .tc .vmem S4096x256 .bf16 := Memref.whole cc0_scratch0
abbrev scM1 : Memref sig .tc .vmem S256x4096 .f32 := Memref.whole cc0_scratch1

/-- The class invariant with the two scratch buffers as memrefs owned at some contents. -/
theorem PhiA_eq (c : Dev nD) :
    (ΦA spec0 c : sProp 𝕄)
      = iprop(iprop((∃ d, owns (c : Thread nD τ) scM0 fullShare d) ∗ (∃ d, owns (c : Thread nD τ) scM1 fullShare d)) ∗ (∃ r, prngReg c r)) := by
  unfold ΦA; rw [scopedRest0_eq]; simp only [scM0, scM1, owns_whole]; try rfl

/-! ## What the scratch buffers hold after each point -/

/-- After point n: xg_pre (from point 0 on) and the transposed accumulator — the strip's contribution alone after
    point 0 (whatever the accumulator was read as there: zeros stand for it), and after a later point what the point
    before left plus the strip's contribution. -/
def SC (c : Dev nD) : (n : ℕ) → n < cfg0.N → Vec F S4096x256 .bf16 × Vec F S256x4096 .f32
  | 0, h => (k0_pay11 (iblk m c 2 ⟨0, h⟩) (iblk m c 5 ⟨0, h⟩) (iblk m c 6 ⟨0, h⟩),
      k0_pay14 (grid0.coords ⟨0, h⟩) (iblk m c 1 ⟨0, h⟩) (iblk m c 3 ⟨0, h⟩) (iblk m c 4 ⟨0, h⟩) (iblk m c 0 ⟨0, h⟩) (constant S256x4096 .f32 0x00000000#32))
  | n + 1, h => ((SC c n (Nat.lt_of_succ_lt h)).1,
      k0_pay14 (grid0.coords ⟨n + 1, h⟩) (iblk m c 1 ⟨n + 1, h⟩) (iblk m c 3 ⟨n + 1, h⟩) (iblk m c 4 ⟨n + 1, h⟩) (iblk m c 0 ⟨n + 1, h⟩) (SC c n (Nat.lt_of_succ_lt h)).2)

theorem SC_zero (c : Dev nD) (h : 0 < cfg0.N) :
    SC m c 0 h = (k0_pay11 (iblk m c 2 ⟨0, h⟩) (iblk m c 5 ⟨0, h⟩) (iblk m c 6 ⟨0, h⟩),
      k0_pay14 (grid0.coords ⟨0, h⟩) (iblk m c 1 ⟨0, h⟩) (iblk m c 3 ⟨0, h⟩) (iblk m c 4 ⟨0, h⟩) (iblk m c 0 ⟨0, h⟩) (constant S256x4096 .f32 0x00000000#32)) := rfl

theorem SC_pos (c : Dev nD) (t : Fin cfg0.N) (ht : t.val ≠ 0) :
    SC m c t.val t.isLt = ((SC m c (t.val - 1) (Nat.lt_of_le_of_lt (Nat.sub_le _ _) t.isLt)).1,
      k0_pay14 (grid0.coords t) (iblk m c 1 t) (iblk m c 3 t) (iblk m c 4 t) (iblk m c 0 t) (SC m c (t.val - 1) (Nat.lt_of_le_of_lt (Nat.sub_le _ _) t.isLt)).2) := by
  obtain ⟨n, hn⟩ := t
  cases n with
  | zero => exact absurd rfl ht
  | succ n => rfl

/-- The region's invariant before point n: before the first point the class's (the scratch at anything); afterwards
    the two scratch buffers at what the point before left and the generator register at some state. -/
def PhiS (c : Dev nD) : (n : ℕ) → n ≤ cfg0.N → sProp 𝕄
  | 0, _ => ΦA spec0 c
  | n + 1, hn => iprop(iprop(owns (c : Thread nD τ) scM0 fullShare (SC m c n hn).1 ∗ owns (c : Thread nD τ) scM1 fullShare (SC m c n hn).2) ∗ (∃ r, prngReg c r))

theorem PhiS_zero (c : Dev nD) (n : ℕ) (h : n ≤ cfg0.N) (hz : n = 0) : PhiS m c n h = ΦA spec0 c := by
  subst hz; rfl
theorem PhiS_succ (c : Dev nD) (n : ℕ) (hn : n < cfg0.N) :
    PhiS m c (n + 1) hn = iprop(iprop(owns (c : Thread nD τ) scM0 fullShare (SC m c n hn).1 ∗ owns (c : Thread nD τ) scM1 fullShare (SC m c n hn).2) ∗ (∃ r, prngReg c r)) := rfl
theorem PhiS_pos (c : Dev nD) (n : ℕ) (h : n ≤ cfg0.N) (hz : n ≠ 0) :
    PhiS m c n h = iprop(iprop(owns (c : Thread nD τ) scM0 fullShare (SC m c (n - 1) (by omega)).1 ∗ owns (c : Thread nD τ) scM1 fullShare (SC m c (n - 1) (by omega)).2) ∗ (∃ r, prngReg c r)) := by
  cases n with
  | zero => exact absurd rfl hz
  | succ n => rfl

/-! ## The pipeline's proof data -/

/-- The arrays as the region finds them; after the body each input's buffer at its block, the surface result's at
    the strip's rows of xs, the graph result's (consulted at the last point only) at xg; the invariant above;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => OUT13 (iblk m c 0 t) (iblk m c 1 t) (iblk m c 3 t) (iblk m c 4 t) (iblk m c 7 t) (iblk m c 8 t) (iblk m c 9 t) (SC m c t.val t.isLt).1
    | ⟨14, _⟩ => OUT14 (iblk m c 10 t) (iblk m c 11 t) (iblk m c 12 t) (SC m c t.val t.isLt).1 (SC m c t.val t.isLt).2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = OUT13 (iblk m c 0 t) (iblk m c 1 t) (iblk m c 3 t) (iblk m c 4 t) (iblk m c 7 t) (iblk m c 8 t) (iblk m c 9 t) (SC m c t.val t.isLt).1 := by dsimp only [dats]
theorem after14 (c : Dev nD) (t : Fin cfg0.N) : (dats m 0 c).after 14 t = OUT14 (iblk m c 10 t) (iblk m c 11 t) (iblk m c 12 t) (SC m c t.val t.isLt).1 (SC m c t.val t.isLt).2 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  rw [show (dats m 0 c).leavesExact 8 t = owns (c : Thread nD τ) (ms8 t) fullShare ((dats m 0 c).after 8 t) from by
    unfold Dat.leavesExact; rw [live8 t], after8]
  rw [show (dats m 0 c).leavesExact 9 t = owns (c : Thread nD τ) (ms9 t) fullShare ((dats m 0 c).after 9 t) from by
    unfold Dat.leavesExact; rw [live9 t], after9]
  rw [show (dats m 0 c).leavesExact 10 t = owns (c : Thread nD τ) (ms10 t) fullShare ((dats m 0 c).after 10 t) from by
    unfold Dat.leavesExact; rw [live10 t], after10]
  rw [show (dats m 0 c).leavesExact 11 t = owns (c : Thread nD τ) (ms11 t) fullShare ((dats m 0 c).after 11 t) from by
    unfold Dat.leavesExact; rw [live11 t], after11]
  rw [show (dats m 0 c).leavesExact 12 t = owns (c : Thread nD τ) (ms12 t) fullShare ((dats m 0 c).after 12 t) from by
    unfold Dat.leavesExact; rw [live12 t], after12]
  rw [show (dats m 0 c).leavesExact 13 t = owns (c : Thread nD τ) (ms13 t) fullShare ((dats m 0 c).after 13 t) from by
    unfold Dat.leavesExact; rw [live13 t], after13]
  have hN : t.val < 8 := lt_of_lt_of_eq t.isLt (show cfg0.N = 8 from N_0)
  by_cases h0 : t.val % 8 = 0
  · -- the first point
    have h7 : ¬ t.val % 8 = 7 := by omega
    have hz : t.val = 0 := by omega
    rw [Dat.leavesExact_idle (dats m 0 c) 14 t (idle14 t (fun h => h7 ((hcond2 t).mp h))) (noFlush14 t (fun h => h7 ((hcond2 t).mp h)))]
    rw [PhiS_castSucc m c t, PhiS_zero m c _ _ hz, PhiA_eq]
    obtain ⟨n, hn⟩ := t
    obtain rfl : n = 0 := hz
    rw [SC_zero]; dsimp only
    iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (runA c (grid0.coords ⟨0, hn⟩) _ _ _ _ _ _ _ _ _ _ _ _ _ _ _ _ _ _ _ _ _ _ _ _ _ _ _ _ _ _ _ _ _ _ ((hcond1 ⟨0, hn⟩).mpr h0) (fun h => h7 ((hcond2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) ((dats m 0 c).before 14 ⟨0, hn⟩ d14) s0 s1 _)
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexists _; iexact H13
    isplitl [H14]
    · iexact H14
    isplitl [HS0]
    · iexact HS0
    isplitl [HS1]
    · iexact HS1
    iintro ⟨H0, H1, H2, H3, H4, H5, H6, H7, H8, H9, H10, H11, H12, H13, H14, HS0, HS1⟩
    isplitl [HS0 HS1 Hg]
    · isplitl [HS0 HS1]
      · isplitl [HS0]
        · iexact HS0
        rw [pay14_first (grid0.coords ⟨0, hn⟩) (coord0 hn) _ _ _ _ (constant S256x4096 .f32 0x00000000#32) s1]
        iexact HS1
      iexact Hg
    isplitl [Ho]
    · iexact Ho
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    iexists d14; iexact H14
  · have hz : t.val ≠ 0 := fun h => h0 (by rw [h])
    by_cases h7 : t.val % 8 = 7
    · -- the last point
      rw [show (dats m 0 c).leavesExact 14 t = owns (c : Thread nD τ) (ms14 t) fullShare ((dats m 0 c).after 14 t) from by
        unfold Dat.leavesExact; rw [live14 t ((hcond2 t).mpr h7)], after14]
      rw [PhiS_castSucc m c t, PhiS_pos m c _ _ hz, SC_pos m c t hz]; dsimp only
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply (runC c (grid0.coords t) _ _ _ _ _ _ _ _ _ _ _ _ _ _ _ _ _ _ _ _ _ _ _ _ _ _ _ _ _ _ _ _ _ _ (fun h => h0 ((hcond1 t).mp h)) ((hcond2 t).mpr h7) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (SC m c (t.val - 1) (Nat.lt_of_le_of_lt (Nat.sub_le _ _) t.isLt)).1 (SC m c (t.val - 1) (Nat.lt_of_le_of_lt (Nat.sub_le _ _) t.isLt)).2 _)
      isplitl [H0]
      · iexact H0
      isplitl [H1]
      · iexact H1
      isplitl [H2]
      · iexact H2
      isplitl [H3]
      · iexact H3
      isplitl [H4]
      · iexact H4
      isplitl [H5]
      · iexact H5
      isplitl [H6]
      · iexact H6
      isplitl [H7]
      · iexact H7
      isplitl [H8]
      · iexact H8
      isplitl [H9]
      · iexact H9
      isplitl [H10]
      · iexact H10
      isplitl [H11]
      · iexact H11
      isplitl [H12]
      · iexact H12
      isplitl [H13]
      · iexists _; iexact H13
      isplitl [H14]
      · iexists _; iexact H14
      isplitl [HS0]
      · iexact HS0
      isplitl [HS1]
      · iexact HS1
      iintro ⟨H0, H1, H2, H3, H4, H5, H6, H7, H8, H9, H10, H11, H12, H13, H14, HS0, HS1⟩
      isplitl [HS0 HS1 Hg]
      · isplitl [HS0 HS1]
        · isplitl [HS0]
          · iexact HS0
          iexact HS1
        iexact Hg
      isplitl [Ho]
      · iexact Ho
      isplitl [H0]
      · iexact H0
      isplitl [H1]
      · iexact H1
      isplitl [H2]
      · iexact H2
      isplitl [H3]
      · iexact H3
      isplitl [H4]
      · iexact H4
      isplitl [H5]
      · iexact H5
      isplitl [H6]
      · iexact H6
      isplitl [H7]
      · iexact H7
      isplitl [H8]
      · iexact H8
      isplitl [H9]
      · iexact H9
      isplitl [H10]
      · iexact H10
      isplitl [H11]
      · iexact H11
      isplitl [H12]
      · iexact H12
      isplitl [H13]
      · iexact H13
      iexact H14
    · -- a middle point
      rw [Dat.leavesExact_idle (dats m 0 c) 14 t (idle14 t (fun h => h7 ((hcond2 t).mp h))) (noFlush14 t (fun h => h7 ((hcond2 t).mp h)))]
      rw [PhiS_castSucc m c t, PhiS_pos m c _ _ hz, SC_pos m c t hz]; dsimp only
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply (runB c (grid0.coords t) _ _ _ _ _ _ _ _ _ _ _ _ _ _ _ _ _ _ _ _ _ _ _ _ _ _ _ _ _ _ _ _ _ _ (fun h => h0 ((hcond1 t).mp h)) (fun h => h7 ((hcond2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((dats m 0 c).before 14 t d14) (SC m c (t.val - 1) (Nat.lt_of_le_of_lt (Nat.sub_le _ _) t.isLt)).1 (SC m c (t.val - 1) (Nat.lt_of_le_of_lt (Nat.sub_le _ _) t.isLt)).2 _)
      isplitl [H0]
      · iexact H0
      isplitl [H1]
      · iexact H1
      isplitl [H2]
      · iexact H2
      isplitl [H3]
      · iexact H3
      isplitl [H4]
      · iexact H4
      isplitl [H5]
      · iexact H5
      isplitl [H6]
      · iexact H6
      isplitl [H7]
      · iexact H7
      isplitl [H8]
      · iexact H8
      isplitl [H9]
      · iexact H9
      isplitl [H10]
      · iexact H10
      isplitl [H11]
      · iexact H11
      isplitl [H12]
      · iexact H12
      isplitl [H13]
      · iexists _; iexact H13
      isplitl [H14]
      · iexact H14
      isplitl [HS0]
      · iexact HS0
      isplitl [HS1]
      · iexact HS1
      iintro ⟨H0, H1, H2, H3, H4, H5, H6, H7, H8, H9, H10, H11, H12, H13, H14, HS0, HS1⟩
      isplitl [HS0 HS1 Hg]
      · isplitl [HS0 HS1]
        · isplitl [HS0]
          · iexact HS0
          iexact HS1
        iexact Hg
      isplitl [Ho]
      · iexact Ho
      isplitl [H0]
      · iexact H0
      isplitl [H1]
      · iexact H1
      isplitl [H2]
      · iexact H2
      isplitl [H3]
      · iexact H3
      isplitl [H4]
      · iexact H4
      isplitl [H5]
      · iexact H5
      isplitl [H6]
      · iexact H6
      isplitl [H7]
      · iexact H7
      isplitl [H8]
      · iexact H8
      isplitl [H9]
      · iexact H9
      isplitl [H10]
      · iexact H10
      isplitl [H11]
      · iexact H11
      isplitl [H12]
      · iexact H12
      isplitl [H13]
      · iexact H13
      iexists d14; iexact H14

theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: what the scratch holds is forgotten. -/
theorem Phi_out (c : Dev nD) (t : Fin (cfg0.N + 1)) (ht : t.val ≠ 0) : (dats m 0 c).Φ t ⊢ ΦA spec0 c := by
  rw [show (dats m 0 c).Φ t = PhiS m c t.val (Nat.le_of_lt_succ t.isLt) from rfl, PhiS_pos m c _ _ ht, PhiA_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ ΦA spec0 c :=
  Phi_out m c _ (by rw [Fin.val_last]; have : cfg0.N = 8 := N_0; omega)

/-! ## The run and the frame -/

set_option backward.isDefEq.respectTransparency.types false in
/-- Every weakly fair execution of @main terminates, and every final state has every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun c w => A_eq m c w)
    (hin := hin m) (hout := hout m)

/-- The frame: @main terminates without a fault and leaves its eleven argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Proof.K

end
-- ==== Proof.KI.Body.lean ====
/-
  The kernel body at a grid point, run once for each of its three control cases — the first point (xg_pre is
  computed into its scratch), a middle point, the last point (the graph result's four tiles are written) —, on
  staging buffers, the two scratch buffers included, held at any contents. After it the surface result's buffer
  holds the strip's rows of xs, the transposed message accumulator holds what it held plus the strip's
  contribution (the contribution alone at the first point), and at the last point the graph result's buffer holds
  xg, tile by tile; every input buffer is as it was.
-/
import proofs.«118744_g87900800680619_cont_9to1_m_379_24_alg».proof.Proof.Gen.KernelIdeal.Frame
import proofs.«118744_g87900800680619_cont_9to1_m_379_24_alg».proof.Proof.Gen.KernelIdeal.Skeleton
import Idealize.ShloMosaic.Lib.Pipeline.Value
import Idealize.ShloMosaic.Lib.ValueIdx

set_option maxRecDepth 16384
set_option pp.maxSteps 8000
set_option pp.deepTerms false

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

/-- The first-step condition of the body, from the grid coordinate. -/
abbrev cond1 (i : grid0.Coords) : Prop :=
  (Scalar.cmpi .ne (Scalar.extui (Scalar.cmpi .eq (BitVec.ofNat 32 (i 0).val) 0#32)) 0#32) = 1#1

/-- The whole-buffer rectangle's offsets are zero. -/
theorem off0 : (![0, 0] : Fin 2 → ℕ) = fun _ => 0 := funext fun a => by fin_cases a <;> rfl

/-- What a strip leaves in the surface result's buffer: the strip's xs_pre against the upper half of the post
    weight, plus the strip's message (the weights' strip against xg_pre, `s0`) against the lower half, plus the
    bias, positive part. -/
def OUT13 (x1 : Vec F S1024x4096 .f32) (x2 : Vec F S1024x256 .f32) (x4 : Vec F S256x256 .bf16) (x5 : Vec F S1x256 .f32)
    (x8 x9 : Vec F S256x256 .bf16) (x10 : Vec F S1x256 .f32) (s0 : Vec F S4096x256 .bf16) : FVec F S1024x256 .f32 :=
  k0_pay1 (k0_pay15 x2 x4 x5 x8) (k0_pay16 x1 s0) x9 x10

/-- What the last grid point leaves in the graph result's buffer: four tiles of 1024 rows, tile k from columns
    [1024k, 1024k + 1024) of the finished transposed accumulator `a` and the same rows of xg_pre `s0`. -/
def OUT14 (x11 x12 : Vec F S256x256 .bf16) (x13 : Vec F S1x256 .f32) (s0 : Vec F S4096x256 .bf16)
    (a : Vec F S256x4096 .f32) : Vec F S4096x256 .f32 :=
  View.canon
    [⟨(Rect.unit (s := S4096x256) ![3072, 0] S1024x256.size inb_S4096x256_S1024x256_3072_0), k0_pay2 (k0_pay8 (View.ld a (Rect.unit (s := S256x4096) ![0, 3072] S256x1024.size inb_S256x4096_S256x1024_0_3072))) (k0_pay9 (View.ld s0 (Rect.unit (s := S4096x256) ![3072, 0] S1024x256.size inb_S4096x256_S1024x256_3072_0)) x11) (k0_pay10 x12) x13⟩,
     ⟨(Rect.unit (s := S4096x256) ![2048, 0] S1024x256.size inb_S4096x256_S1024x256_2048_0), k0_pay7 (View.ld a (Rect.unit (s := S256x4096) ![0, 2048] S256x1024.size inb_S256x4096_S256x1024_0_2048)) (View.ld s0 (Rect.unit (s := S4096x256) ![2048, 0] S1024x256.size inb_S4096x256_S1024x256_2048_0)) x11 x12 x13⟩,
     ⟨(Rect.unit (s := S4096x256) ![1024, 0] S1024x256.size inb_S4096x256_S1024x256_1024_0), k0_pay6 (k0_pay4 (View.ld a (Rect.unit (s := S256x4096) ![0, 1024] S256x1024.size inb_S256x4096_S256x1024_0_1024)) (View.ld s0 (Rect.unit (s := S4096x256) ![1024, 0] S1024x256.size inb_S4096x256_S1024x256_1024_0)) x11 x12) (k0_pay5 x13)⟩,
     ⟨(Rect.unit (s := S4096x256) ![0, 0] S1024x256.size inb_S4096x256_S1024x256_0_0), k0_pay3 (View.ld a (Rect.unit (s := S256x4096) ![0, 0] S256x1024.size inb_S256x4096_S256x1024_0_0)) (View.ld s0 (Rect.unit (s := S4096x256) ![0, 0] S1024x256.size inb_S4096x256_S1024x256_0_0)) x11 x12 x13⟩]

/-- At the first grid point what the accumulator held does not matter: the stored value is the strip's
    contribution alone. -/
theorem pay14_first (i : grid0.Coords) (hi : (i 0).val = 0) (v3 : Vec F S1024x256 .f32)
    (v5 : Vec F S256x256 .bf16) (v8 : Vec F S1x256 .f32) (v16 : Vec F S1024x4096 .f32) (J J' : Vec F S256x4096 .f32) :
    k0_pay14 i v3 v5 v8 v16 J = k0_pay14 i v3 v5 v8 v16 J' := by
  have hw : Scalar.cmpi .eq (BitVec.ofNat 32 (i 0).val) 0#32 = 1#1 := by rw [hi]; rfl
  unfold k0_pay14
  simp only [hw, ValueIdx.select_one]

/-- A load through any rectangle of a buffer just stored whole reads the stored value there. -/
theorem readCov_whole17 (v : View sig .tc .vmem S256x4096 .f32) (inb : ∀ a, (![0, 0] : Fin 2 → ℕ) a + S256x4096.size a ≤ S256x4096.size a)
    (w : Vec F S256x4096 .f32) (r : Rect S256x4096) :
    v.readCov [(⟨Rect.unit (s := S256x4096) ![0, 0] S256x4096.size inb, w⟩ : View.Piece (Elt F) S256x4096 .f32)] r.toLoadRect
      = View.ld w r := by
  rw [View.readCov_eq_canon_ld _ _ _ (fun y => View.cover_of_tiled [⟨_, _⟩] S256x4096.size (by rfl) y), View.canon_unit_zero off0]

/-- Four stores of 1024 rows each through the four row tiles of a [4096, 256] buffer leave, whatever it held,
    the tile payloads side by side. -/
theorem read_tiles (v : View sig .tc .vmem S4096x256 .f32) (f : v.ty.Contents (Elt F)) (p3 p2 p1 p0 : FVec F S1024x256 .f32) :
    v.read (Elt F) (v.writes (Elt F) f
      [(⟨(Rect.unit (s := S4096x256) ![3072, 0] S1024x256.size inb_S4096x256_S1024x256_3072_0), p3⟩ : View.Piece (Elt F) S4096x256 .f32), ⟨(Rect.unit (s := S4096x256) ![2048, 0] S1024x256.size inb_S4096x256_S1024x256_2048_0), p2⟩, ⟨(Rect.unit (s := S4096x256) ![1024, 0] S1024x256.size inb_S4096x256_S1024x256_1024_0), p1⟩, ⟨(Rect.unit (s := S4096x256) ![0, 0] S1024x256.size inb_S4096x256_S1024x256_0_0), p0⟩])
      = View.canon [(⟨(Rect.unit (s := S4096x256) ![3072, 0] S1024x256.size inb_S4096x256_S1024x256_3072_0), p3⟩ : View.Piece (Elt F) S4096x256 .f32), ⟨(Rect.unit (s := S4096x256) ![2048, 0] S1024x256.size inb_S4096x256_S1024x256_2048_0), p2⟩, ⟨(Rect.unit (s := S4096x256) ![1024, 0] S1024x256.size inb_S4096x256_S1024x256_1024_0), p1⟩, ⟨(Rect.unit (s := S4096x256) ![0, 0] S1024x256.size inb_S4096x256_S1024x256_0_0), p0⟩] :=
  View.read_writes_eq_canon _ _ _ (View.cover_of_tiled _ S1024x256.size (by rfl))

/-- The body at a middle grid point: neither branch is taken. -/
theorem runB (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (hc1 : ¬ cond1 i) (hc2 : ¬ k0_cond2 i = 1#1)
    (x1 : Vec F S1024x4096 .f32) (x2 : Vec F S1024x256 .f32) (x3 : Vec F S4096x256 .f32) (x4 : Vec F S256x256 .bf16) (x5 : Vec F S1x256 .f32) (x6 : Vec F S256x256 .bf16) (x7 : Vec F S1x256 .f32) (x8 : Vec F S256x256 .bf16) (x9 : Vec F S256x256 .bf16) (x10 : Vec F S1x256 .f32) (x11 : Vec F S256x256 .bf16) (x12 : Vec F S256x256 .bf16) (x13 : Vec F S1x256 .f32) (x15 : Vec F S4096x256 .f32) (s0 : Vec F S4096x256 .bf16) (s1 : Vec F S256x4096 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ owns (c : Thread nD τ) arg15 fullShare x15
        ∗ owns (c : Thread nD τ) arg16 fullShare s0 ∗ owns (c : Thread nD τ) arg17 fullShare s1
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (OUT13 x1 x2 x4 x5 x8 x9 x10 s0)
            ∗ owns (c : Thread nD τ) arg15 fullShare x15 ∗ owns (c : Thread nD τ) arg16 fullShare s0
            ∗ owns (c : Thread nD τ) arg17 fullShare (k0_pay14 i x2 x4 x5 x1 s1)) -∗ K ⟨⟩))
      ⊢ wp frame (wpE (defs₀ (F := F)) Variants.none c none) Set.univ (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__body_eq_skeleton]; unfold cc0__body_skel
  simp only [k0_part3_eq_skeleton, k0_part1_eq_skeleton, k0_part2_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%g16, %hg16, H16⟩, ⟨%g17, %hg17, H17⟩, Hk⟩
  subst hf1 hf2 hf3 hf4 hf5 hf6 hf7 hf8 hf9 hf10 hf11 hf12 hf13 hf15 hg16 hg17
  sl_exec (disch := first | exact hc1 | exact hc2)
  sl_step
  iapply Hk
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists f6; isplitr
    · ipureintro; rfl
    iexact H6
  isplitl [H7]
  · iexists f7; isplitr
    · ipureintro; rfl
    iexact H7
  isplitl [H8]
  · iexists f8; isplitr
    · ipureintro; rfl
    iexact H8
  isplitl [H9]
  · iexists f9; isplitr
    · ipureintro; rfl
    iexact H9
  isplitl [H10]
  · iexists f10; isplitr
    · ipureintro; rfl
    iexact H10
  isplitl [H11]
  · iexists f11; isplitr
    · ipureintro; rfl
    iexact H11
  isplitl [H12]
  · iexists f12; isplitr
    · ipureintro; rfl
    iexact H12
  isplitl [H13]
  · iexists f13; isplitr
    · ipureintro; rfl
    iexact H13
  isplitl [H14]
  · iexists _; isplitr
    swap; · iexact H14
    ipureintro
    rw [View.read_writes_eq_canon _ _ _ (fun y => View.cover_of_tiled [⟨_, _⟩] S1024x256.size (by rfl) y), View.canon_unit_zero off0]
    sl_unfold_words
    unfold OUT13
    simp only [View.readAt_eq_ld, View.ld_unit_zero (S := S1024x4096) off0, View.ld_unit_zero (S := S1024x256) off0, View.ld_unit_zero (S := S4096x256) off0, View.ld_unit_zero (S := S256x256) off0, View.ld_unit_zero (S := S1x256) off0, View.ld_unit_zero (S := S256x4096) off0, View.readCov_unit_zero (S := S4096x256) _ off0, readCov_whole17]
  isplitl [H15]
  · iexists f15; isplitr
    · ipureintro; rfl
    iexact H15
  isplitl [H16]
  · iexists g16; isplitr
    · ipureintro; rfl
    iexact H16
  iexists _; isplitr
  swap; · iexact H17
  ipureintro
  sl_unfold_words
  rw [View.read_writes_eq_canon _ _ _ (fun y => View.cover_of_tiled [⟨_, _⟩] S256x4096.size (by rfl) y), View.canon_unit_zero off0]
  simp only [View.readAt_eq_ld, View.ld_unit_zero (S := S1024x4096) off0, View.ld_unit_zero (S := S1024x256) off0, View.ld_unit_zero (S := S4096x256) off0, View.ld_unit_zero (S := S256x256) off0, View.ld_unit_zero (S := S1x256) off0, View.ld_unit_zero (S := S256x4096) off0, View.readCov_unit_zero (S := S4096x256) _ off0, readCov_whole17]

/-- The body at the first grid point: xg_pre is computed into its scratch first, and served from there. -/
theorem runA (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (hc1 : cond1 i) (hc2 : ¬ k0_cond2 i = 1#1)
    (x1 : Vec F S1024x4096 .f32) (x2 : Vec F S1024x256 .f32) (x3 : Vec F S4096x256 .f32) (x4 : Vec F S256x256 .bf16) (x5 : Vec F S1x256 .f32) (x6 : Vec F S256x256 .bf16) (x7 : Vec F S1x256 .f32) (x8 : Vec F S256x256 .bf16) (x9 : Vec F S256x256 .bf16) (x10 : Vec F S1x256 .f32) (x11 : Vec F S256x256 .bf16) (x12 : Vec F S256x256 .bf16) (x13 : Vec F S1x256 .f32) (x15 : Vec F S4096x256 .f32) (s0 : Vec F S4096x256 .bf16) (s1 : Vec F S256x4096 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ owns (c : Thread nD τ) arg15 fullShare x15
        ∗ owns (c : Thread nD τ) arg16 fullShare s0 ∗ owns (c : Thread nD τ) arg17 fullShare s1
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (OUT13 x1 x2 x4 x5 x8 x9 x10 (k0_pay11 x3 x6 x7))
            ∗ owns (c : Thread nD τ) arg15 fullShare x15 ∗ owns (c : Thread nD τ) arg16 fullShare (k0_pay11 x3 x6 x7)
            ∗ owns (c : Thread nD τ) arg17 fullShare (k0_pay14 i x2 x4 x5 x1 s1)) -∗ K ⟨⟩))
      ⊢ wp frame (wpE (defs₀ (F := F)) Variants.none c none) Set.univ (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__body_eq_skeleton]; unfold cc0__body_skel
  simp only [k0_part3_eq_skeleton, k0_part1_eq_skeleton, k0_part2_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%g16, %hg16, H16⟩, ⟨%g17, %hg17, H17⟩, Hk⟩
  subst hf1 hf2 hf3 hf4 hf5 hf6 hf7 hf8 hf9 hf10 hf11 hf12 hf13 hf15 hg16 hg17
  sl_exec (disch := first | exact hc1 | exact hc2)
  sl_step
  iapply Hk
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists f6; isplitr
    · ipureintro; rfl
    iexact H6
  isplitl [H7]
  · iexists f7; isplitr
    · ipureintro; rfl
    iexact H7
  isplitl [H8]
  · iexists f8; isplitr
    · ipureintro; rfl
    iexact H8
  isplitl [H9]
  · iexists f9; isplitr
    · ipureintro; rfl
    iexact H9
  isplitl [H10]
  · iexists f10; isplitr
    · ipureintro; rfl
    iexact H10
  isplitl [H11]
  · iexists f11; isplitr
    · ipureintro; rfl
    iexact H11
  isplitl [H12]
  · iexists f12; isplitr
    · ipureintro; rfl
    iexact H12
  isplitl [H13]
  · iexists f13; isplitr
    · ipureintro; rfl
    iexact H13
  isplitl [H14]
  · iexists _; isplitr
    swap; · iexact H14
    ipureintro
    rw [View.read_writes_eq_canon _ _ _ (fun y => View.cover_of_tiled [⟨_, _⟩] S1024x256.size (by rfl) y), View.canon_unit_zero off0]
    sl_unfold_words
    unfold OUT13
    simp only [View.readAt_eq_ld, View.ld_unit_zero (S := S1024x4096) off0, View.ld_unit_zero (S := S1024x256) off0, View.ld_unit_zero (S := S4096x256) off0, View.ld_unit_zero (S := S256x256) off0, View.ld_unit_zero (S := S1x256) off0, View.ld_unit_zero (S := S256x4096) off0, View.readCov_unit_zero (S := S4096x256) _ off0, readCov_whole17]
  isplitl [H15]
  · iexists f15; isplitr
    · ipureintro; rfl
    iexact H15
  isplitl [H16]
  · iexists _; isplitr
    swap; · iexact H16
    ipureintro
    sl_unfold_words
    rw [View.read_writes_eq_canon _ _ _ (fun y => View.cover_of_tiled [⟨_, _⟩] S4096x256.size (by rfl) y), View.canon_unit_zero off0]
    simp only [View.readAt_eq_ld, View.ld_unit_zero (S := S1024x4096) off0, View.ld_unit_zero (S := S1024x256) off0, View.ld_unit_zero (S := S4096x256) off0, View.ld_unit_zero (S := S256x256) off0, View.ld_unit_zero (S := S1x256) off0, View.ld_unit_zero (S := S256x4096) off0, View.readCov_unit_zero (S := S4096x256) _ off0, readCov_whole17]
  iexists _; isplitr
  swap; · iexact H17
  ipureintro
  sl_unfold_words
  rw [View.read_writes_eq_canon _ _ _ (fun y => View.cover_of_tiled [⟨_, _⟩] S256x4096.size (by rfl) y), View.canon_unit_zero off0]
  simp only [View.readAt_eq_ld, View.ld_unit_zero (S := S1024x4096) off0, View.ld_unit_zero (S := S1024x256) off0, View.ld_unit_zero (S := S4096x256) off0, View.ld_unit_zero (S := S256x256) off0, View.ld_unit_zero (S := S1x256) off0, View.ld_unit_zero (S := S256x4096) off0, View.readCov_unit_zero (S := S4096x256) _ off0, readCov_whole17]

/-- The body at the last grid point: after the strip's work, the graph result's four tiles. -/
theorem runC (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (hc1 : ¬ cond1 i) (hc2 : k0_cond2 i = 1#1)
    (x1 : Vec F S1024x4096 .f32) (x2 : Vec F S1024x256 .f32) (x3 : Vec F S4096x256 .f32) (x4 : Vec F S256x256 .bf16) (x5 : Vec F S1x256 .f32) (x6 : Vec F S256x256 .bf16) (x7 : Vec F S1x256 .f32) (x8 : Vec F S256x256 .bf16) (x9 : Vec F S256x256 .bf16) (x10 : Vec F S1x256 .f32) (x11 : Vec F S256x256 .bf16) (x12 : Vec F S256x256 .bf16) (x13 : Vec F S1x256 .f32) (s0 : Vec F S4096x256 .bf16) (s1 : Vec F S256x4096 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d)
        ∗ owns (c : Thread nD τ) arg16 fullShare s0 ∗ owns (c : Thread nD τ) arg17 fullShare s1
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (OUT13 x1 x2 x4 x5 x8 x9 x10 s0)
            ∗ owns (c : Thread nD τ) arg15 fullShare (OUT14 x11 x12 x13 s0 (k0_pay14 i x2 x4 x5 x1 s1)) ∗ owns (c : Thread nD τ) arg16 fullShare s0
            ∗ owns (c : Thread nD τ) arg17 fullShare (k0_pay14 i x2 x4 x5 x1 s1)) -∗ K ⟨⟩))
      ⊢ wp frame (wpE (defs₀ (F := F)) Variants.none c none) Set.univ (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__body_eq_skeleton]; unfold cc0__body_skel
  simp only [k0_part3_eq_skeleton, k0_part1_eq_skeleton, k0_part2_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%g16, %hg16, H16⟩, ⟨%g17, %hg17, H17⟩, Hk⟩
  subst hf1 hf2 hf3 hf4 hf5 hf6 hf7 hf8 hf9 hf10 hf11 hf12 hf13 hg16 hg17
  sl_exec (disch := first | exact hc1 | exact hc2)
  sl_step
  iapply Hk
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists f6; isplitr
    · ipureintro; rfl
    iexact H6
  isplitl [H7]
  · iexists f7; isplitr
    · ipureintro; rfl
    iexact H7
  isplitl [H8]
  · iexists f8; isplitr
    · ipureintro; rfl
    iexact H8
  isplitl [H9]
  · iexists f9; isplitr
    · ipureintro; rfl
    iexact H9
  isplitl [H10]
  · iexists f10; isplitr
    · ipureintro; rfl
    iexact H10
  isplitl [H11]
  · iexists f11; isplitr
    · ipureintro; rfl
    iexact H11
  isplitl [H12]
  · iexists f12; isplitr
    · ipureintro; rfl
    iexact H12
  isplitl [H13]
  · iexists f13; isplitr
    · ipureintro; rfl
    iexact H13
  isplitl [H14]
  · iexists _; isplitr
    swap; · iexact H14
    ipureintro
    rw [View.read_writes_eq_canon _ _ _ (fun y => View.cover_of_tiled [⟨_, _⟩] S1024x256.size (by rfl) y), View.canon_unit_zero off0]
    sl_unfold_words
    unfold OUT13
    simp only [View.readAt_eq_ld, View.ld_unit_zero (S := S1024x4096) off0, View.ld_unit_zero (S := S1024x256) off0, View.ld_unit_zero (S := S4096x256) off0, View.ld_unit_zero (S := S256x256) off0, View.ld_unit_zero (S := S1x256) off0, View.ld_unit_zero (S := S256x4096) off0, View.readCov_unit_zero (S := S4096x256) _ off0, readCov_whole17]
  isplitl [H15]
  · iexists _; isplitr
    swap; · iexact H15
    ipureintro
    sl_unfold_words
    rw [read_tiles, readCov_whole17, readCov_whole17, readCov_whole17, readCov_whole17]
    unfold OUT14
    simp only [View.readAt_eq_ld, View.ld_unit_zero (S := S1024x4096) off0, View.ld_unit_zero (S := S1024x256) off0, View.ld_unit_zero (S := S4096x256) off0, View.ld_unit_zero (S := S256x256) off0, View.ld_unit_zero (S := S1x256) off0, View.ld_unit_zero (S := S256x4096) off0, View.readCov_unit_zero (S := S4096x256) _ off0, readCov_whole17]
  isplitl [H16]
  · iexists g16; isplitr
    · ipureintro; rfl
    iexact H16
  iexists _; isplitr
  swap; · iexact H17
  ipureintro
  sl_unfold_words
  rw [View.read_writes_eq_canon _ _ _ (fun y => View.cover_of_tiled [⟨_, _⟩] S256x4096.size (by rfl) y), View.canon_unit_zero off0]
  simp only [View.readAt_eq_ld, View.ld_unit_zero (S := S1024x4096) off0, View.ld_unit_zero (S := S1024x256) off0, View.ld_unit_zero (S := S4096x256) off0, View.ld_unit_zero (S := S256x256) off0, View.ld_unit_zero (S := S1x256) off0, View.ld_unit_zero (S := S256x4096) off0, View.readCov_unit_zero (S := S4096x256) _ off0, readCov_whole17]

end Cert.Proof.KI

end
-- ==== Proof.KI.Data.lean ====
/-
  The pipeline's proof data for the kernel, the body obligation and the run. Between grid points the kernel
  keeps two things in scratch: xg_pre, computed at the first point and only read afterwards, and the transposed
  message accumulator, to which every point adds its strip's contribution. What the two hold after each point is a
  recursion on the point; the region's invariant names them from the first point on, and says nothing of them
  before it (there the accumulator is read, but what is stored does not depend on what was read). The surface
  result's strip is written back at every point; the graph result's buffer is written whole at the last point
  only and is left as it was found at the others.
-/
import proofs.«118744_g87900800680619_cont_9to1_m_379_24_alg».proof.Proof.KI.Body

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

variable (m : (ℓ : Loc nD τ sig) → Buf (Elt F) ℓ) (ρ : Dev nD → PrngReg)

/-! ## The two branch conditions over the grid, and where the windows are idle -/

/-- The first-step branch is taken at point 0 only. -/
theorem hcond1 : ∀ t : Fin cfg0.N, cond1 (grid0.coords t) ↔ t.val % 8 = 0 :=
  (by decide +kernel : ∀ t : Fin grid0.N, cond1 (grid0.coords t) ↔ t.val % 8 = 0)
/-- The last-step branch is taken at point 7 only. -/
theorem hcond2 : ∀ t : Fin cfg0.N, k0_cond2 (grid0.coords t) = 1#1 ↔ t.val % 8 = 7 :=
  (by decide +kernel : ∀ t : Fin grid0.N, k0_cond2 (grid0.coords t) = 1#1 ↔ t.val % 8 = 7)
/-- The grid coordinate of point 0 is 0. -/
theorem coord_first : ∀ t : Fin cfg0.N, t.val = 0 → ((grid0.coords t) 0).val = 0 :=
  (by decide +kernel : ∀ t : Fin grid0.N, t.val = 0 → ((grid0.coords t) 0).val = 0)
theorem coord0 (h : 0 < cfg0.N) : ((grid0.coords ⟨0, h⟩) 0).val = 0 := coord_first ⟨0, h⟩ rfl

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel
theorem live9 : ∀ t : Fin cfg0.N, cfg0.idle 9 (grid0.coords t) = false := by decide +kernel
theorem live10 : ∀ t : Fin cfg0.N, cfg0.idle 10 (grid0.coords t) = false := by decide +kernel
theorem live11 : ∀ t : Fin cfg0.N, cfg0.idle 11 (grid0.coords t) = false := by decide +kernel
theorem live12 : ∀ t : Fin cfg0.N, cfg0.idle 12 (grid0.coords t) = false := by decide +kernel
theorem live13 : ∀ t : Fin cfg0.N, cfg0.idle 13 (grid0.coords t) = false := by decide +kernel
/-- Away from the last point the graph result's buffer is idle and not written back; at it, live. -/
theorem idle14 : ∀ t : Fin cfg0.N, ¬ k0_cond2 (grid0.coords t) = 1#1 → cfg0.idle 14 (grid0.coords t) = true := by decide +kernel
theorem noFlush14 : ∀ t : Fin cfg0.N, ¬ k0_cond2 (grid0.coords t) = 1#1 → (cfg0.win 14).flush t = false := by decide +kernel
theorem live14 : ∀ t : Fin cfg0.N, k0_cond2 (grid0.coords t) = 1#1 → cfg0.idle 14 (grid0.coords t) = false := by decide +kernel

/-! ## The memrefs the body is called with -/

abbrev ms0 (t : Fin cfg0.N) : Memref sig .tc .vmem S1024x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x256 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x256 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S256x256 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x256 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S256x256 .bf16 := win0_10.stage (cfg0.slots t 10)
abbrev hs10 (t : Fin cfg0.N) : (ms10 t).IsWhole := hstage0_10 ((cfg0.slots t 10).cast nbuf0_10)
abbrev ms11 (t : Fin cfg0.N) : Memref sig .tc .vmem S256x256 .bf16 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x256 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S1024x256 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S4096x256 .f32 := win0_14.stage (cfg0.slots t 14)
abbrev hs14 (t : Fin cfg0.N) : (ms14 t).IsWhole := hstage0_14 ((cfg0.slots t 14).cast nbuf0_14)
abbrev scM0 : Memref sig .tc .vmem S4096x256 .bf16 := Memref.whole cc0_scratch0
abbrev scM1 : Memref sig .tc .vmem S256x4096 .f32 := Memref.whole cc0_scratch1

/-- The class invariant with the two scratch buffers as memrefs owned at some contents. -/
theorem PhiA_eq (c : Dev nD) :
    (ΦA spec0 c : sProp 𝕄)
      = iprop(iprop((∃ d, owns (c : Thread nD τ) scM0 fullShare d) ∗ (∃ d, owns (c : Thread nD τ) scM1 fullShare d)) ∗ (∃ r, prngReg c r)) := by
  unfold ΦA; rw [scopedRest0_eq]; simp only [scM0, scM1, owns_whole]; try rfl

/-! ## What the scratch buffers hold after each point -/

/-- After point n: xg_pre (from point 0 on) and the transposed accumulator — the strip's contribution alone after
    point 0 (whatever the accumulator was read as there: zeros stand for it), and after a later point what the point
    before left plus the strip's contribution. -/
def SC (c : Dev nD) : (n : ℕ) → n < cfg0.N → Vec F S4096x256 .bf16 × Vec F S256x4096 .f32
  | 0, h => (k0_pay11 (iblk m c 2 ⟨0, h⟩) (iblk m c 5 ⟨0, h⟩) (iblk m c 6 ⟨0, h⟩),
      k0_pay14 (grid0.coords ⟨0, h⟩) (iblk m c 1 ⟨0, h⟩) (iblk m c 3 ⟨0, h⟩) (iblk m c 4 ⟨0, h⟩) (iblk m c 0 ⟨0, h⟩) (constant S256x4096 .f32 0x00000000#32))
  | n + 1, h => ((SC c n (Nat.lt_of_succ_lt h)).1,
      k0_pay14 (grid0.coords ⟨n + 1, h⟩) (iblk m c 1 ⟨n + 1, h⟩) (iblk m c 3 ⟨n + 1, h⟩) (iblk m c 4 ⟨n + 1, h⟩) (iblk m c 0 ⟨n + 1, h⟩) (SC c n (Nat.lt_of_succ_lt h)).2)

theorem SC_zero (c : Dev nD) (h : 0 < cfg0.N) :
    SC m c 0 h = (k0_pay11 (iblk m c 2 ⟨0, h⟩) (iblk m c 5 ⟨0, h⟩) (iblk m c 6 ⟨0, h⟩),
      k0_pay14 (grid0.coords ⟨0, h⟩) (iblk m c 1 ⟨0, h⟩) (iblk m c 3 ⟨0, h⟩) (iblk m c 4 ⟨0, h⟩) (iblk m c 0 ⟨0, h⟩) (constant S256x4096 .f32 0x00000000#32)) := rfl

theorem SC_pos (c : Dev nD) (t : Fin cfg0.N) (ht : t.val ≠ 0) :
    SC m c t.val t.isLt = ((SC m c (t.val - 1) (Nat.lt_of_le_of_lt (Nat.sub_le _ _) t.isLt)).1,
      k0_pay14 (grid0.coords t) (iblk m c 1 t) (iblk m c 3 t) (iblk m c 4 t) (iblk m c 0 t) (SC m c (t.val - 1) (Nat.lt_of_le_of_lt (Nat.sub_le _ _) t.isLt)).2) := by
  obtain ⟨n, hn⟩ := t
  cases n with
  | zero => exact absurd rfl ht
  | succ n => rfl

/-- The region's invariant before point n: before the first point the class's (the scratch at anything); afterwards
    the two scratch buffers at what the point before left and the generator register at some state. -/
def PhiS (c : Dev nD) : (n : ℕ) → n ≤ cfg0.N → sProp 𝕄
  | 0, _ => ΦA spec0 c
  | n + 1, hn => iprop(iprop(owns (c : Thread nD τ) scM0 fullShare (SC m c n hn).1 ∗ owns (c : Thread nD τ) scM1 fullShare (SC m c n hn).2) ∗ (∃ r, prngReg c r))

theorem PhiS_zero (c : Dev nD) (n : ℕ) (h : n ≤ cfg0.N) (hz : n = 0) : PhiS m c n h = ΦA spec0 c := by
  subst hz; rfl
theorem PhiS_succ (c : Dev nD) (n : ℕ) (hn : n < cfg0.N) :
    PhiS m c (n + 1) hn = iprop(iprop(owns (c : Thread nD τ) scM0 fullShare (SC m c n hn).1 ∗ owns (c : Thread nD τ) scM1 fullShare (SC m c n hn).2) ∗ (∃ r, prngReg c r)) := rfl
theorem PhiS_pos (c : Dev nD) (n : ℕ) (h : n ≤ cfg0.N) (hz : n ≠ 0) :
    PhiS m c n h = iprop(iprop(owns (c : Thread nD τ) scM0 fullShare (SC m c (n - 1) (by omega)).1 ∗ owns (c : Thread nD τ) scM1 fullShare (SC m c (n - 1) (by omega)).2) ∗ (∃ r, prngReg c r)) := by
  cases n with
  | zero => exact absurd rfl hz
  | succ n => rfl

/-! ## The pipeline's proof data -/

/-- The arrays as the region finds them; after the body each input's buffer at its block, the surface result's at
    the strip's rows of xs, the graph result's (consulted at the last point only) at xg; the invariant above;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => OUT13 (iblk m c 0 t) (iblk m c 1 t) (iblk m c 3 t) (iblk m c 4 t) (iblk m c 7 t) (iblk m c 8 t) (iblk m c 9 t) (SC m c t.val t.isLt).1
    | ⟨14, _⟩ => OUT14 (iblk m c 10 t) (iblk m c 11 t) (iblk m c 12 t) (SC m c t.val t.isLt).1 (SC m c t.val t.isLt).2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = OUT13 (iblk m c 0 t) (iblk m c 1 t) (iblk m c 3 t) (iblk m c 4 t) (iblk m c 7 t) (iblk m c 8 t) (iblk m c 9 t) (SC m c t.val t.isLt).1 := by dsimp only [dats]
theorem after14 (c : Dev nD) (t : Fin cfg0.N) : (dats m 0 c).after 14 t = OUT14 (iblk m c 10 t) (iblk m c 11 t) (iblk m c 12 t) (SC m c t.val t.isLt).1 (SC m c t.val t.isLt).2 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  rw [show (dats m 0 c).leavesExact 8 t = owns (c : Thread nD τ) (ms8 t) fullShare ((dats m 0 c).after 8 t) from by
    unfold Dat.leavesExact; rw [live8 t], after8]
  rw [show (dats m 0 c).leavesExact 9 t = owns (c : Thread nD τ) (ms9 t) fullShare ((dats m 0 c).after 9 t) from by
    unfold Dat.leavesExact; rw [live9 t], after9]
  rw [show (dats m 0 c).leavesExact 10 t = owns (c : Thread nD τ) (ms10 t) fullShare ((dats m 0 c).after 10 t) from by
    unfold Dat.leavesExact; rw [live10 t], after10]
  rw [show (dats m 0 c).leavesExact 11 t = owns (c : Thread nD τ) (ms11 t) fullShare ((dats m 0 c).after 11 t) from by
    unfold Dat.leavesExact; rw [live11 t], after11]
  rw [show (dats m 0 c).leavesExact 12 t = owns (c : Thread nD τ) (ms12 t) fullShare ((dats m 0 c).after 12 t) from by
    unfold Dat.leavesExact; rw [live12 t], after12]
  rw [show (dats m 0 c).leavesExact 13 t = owns (c : Thread nD τ) (ms13 t) fullShare ((dats m 0 c).after 13 t) from by
    unfold Dat.leavesExact; rw [live13 t], after13]
  have hN : t.val < 8 := lt_of_lt_of_eq t.isLt (show cfg0.N = 8 from N_0)
  by_cases h0 : t.val % 8 = 0
  · -- the first point
    have h7 : ¬ t.val % 8 = 7 := by omega
    have hz : t.val = 0 := by omega
    rw [Dat.leavesExact_idle (dats m 0 c) 14 t (idle14 t (fun h => h7 ((hcond2 t).mp h))) (noFlush14 t (fun h => h7 ((hcond2 t).mp h)))]
    rw [PhiS_castSucc m c t, PhiS_zero m c _ _ hz, PhiA_eq]
    obtain ⟨n, hn⟩ := t
    obtain rfl : n = 0 := hz
    rw [SC_zero]; dsimp only
    iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (runA c (grid0.coords ⟨0, hn⟩) _ _ _ _ _ _ _ _ _ _ _ _ _ _ _ _ _ _ _ _ _ _ _ _ _ _ _ _ _ _ _ _ _ _ ((hcond1 ⟨0, hn⟩).mpr h0) (fun h => h7 ((hcond2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) ((dats m 0 c).before 14 ⟨0, hn⟩ d14) s0 s1 _)
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexists _; iexact H13
    isplitl [H14]
    · iexact H14
    isplitl [HS0]
    · iexact HS0
    isplitl [HS1]
    · iexact HS1
    iintro ⟨H0, H1, H2, H3, H4, H5, H6, H7, H8, H9, H10, H11, H12, H13, H14, HS0, HS1⟩
    isplitl [HS0 HS1 Hg]
    · isplitl [HS0 HS1]
      · isplitl [HS0]
        · iexact HS0
        rw [pay14_first (grid0.coords ⟨0, hn⟩) (coord0 hn) _ _ _ _ (constant S256x4096 .f32 0x00000000#32) s1]
        iexact HS1
      iexact Hg
    isplitl [Ho]
    · iexact Ho
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    iexists d14; iexact H14
  · have hz : t.val ≠ 0 := fun h => h0 (by rw [h])
    by_cases h7 : t.val % 8 = 7
    · -- the last point
      rw [show (dats m 0 c).leavesExact 14 t = owns (c : Thread nD τ) (ms14 t) fullShare ((dats m 0 c).after 14 t) from by
        unfold Dat.leavesExact; rw [live14 t ((hcond2 t).mpr h7)], after14]
      rw [PhiS_castSucc m c t, PhiS_pos m c _ _ hz, SC_pos m c t hz]; dsimp only
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply (runC c (grid0.coords t) _ _ _ _ _ _ _ _ _ _ _ _ _ _ _ _ _ _ _ _ _ _ _ _ _ _ _ _ _ _ _ _ _ _ (fun h => h0 ((hcond1 t).mp h)) ((hcond2 t).mpr h7) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (SC m c (t.val - 1) (Nat.lt_of_le_of_lt (Nat.sub_le _ _) t.isLt)).1 (SC m c (t.val - 1) (Nat.lt_of_le_of_lt (Nat.sub_le _ _) t.isLt)).2 _)
      isplitl [H0]
      · iexact H0
      isplitl [H1]
      · iexact H1
      isplitl [H2]
      · iexact H2
      isplitl [H3]
      · iexact H3
      isplitl [H4]
      · iexact H4
      isplitl [H5]
      · iexact H5
      isplitl [H6]
      · iexact H6
      isplitl [H7]
      · iexact H7
      isplitl [H8]
      · iexact H8
      isplitl [H9]
      · iexact H9
      isplitl [H10]
      · iexact H10
      isplitl [H11]
      · iexact H11
      isplitl [H12]
      · iexact H12
      isplitl [H13]
      · iexists _; iexact H13
      isplitl [H14]
      · iexists _; iexact H14
      isplitl [HS0]
      · iexact HS0
      isplitl [HS1]
      · iexact HS1
      iintro ⟨H0, H1, H2, H3, H4, H5, H6, H7, H8, H9, H10, H11, H12, H13, H14, HS0, HS1⟩
      isplitl [HS0 HS1 Hg]
      · isplitl [HS0 HS1]
        · isplitl [HS0]
          · iexact HS0
          iexact HS1
        iexact Hg
      isplitl [Ho]
      · iexact Ho
      isplitl [H0]
      · iexact H0
      isplitl [H1]
      · iexact H1
      isplitl [H2]
      · iexact H2
      isplitl [H3]
      · iexact H3
      isplitl [H4]
      · iexact H4
      isplitl [H5]
      · iexact H5
      isplitl [H6]
      · iexact H6
      isplitl [H7]
      · iexact H7
      isplitl [H8]
      · iexact H8
      isplitl [H9]
      · iexact H9
      isplitl [H10]
      · iexact H10
      isplitl [H11]
      · iexact H11
      isplitl [H12]
      · iexact H12
      isplitl [H13]
      · iexact H13
      iexact H14
    · -- a middle point
      rw [Dat.leavesExact_idle (dats m 0 c) 14 t (idle14 t (fun h => h7 ((hcond2 t).mp h))) (noFlush14 t (fun h => h7 ((hcond2 t).mp h)))]
      rw [PhiS_castSucc m c t, PhiS_pos m c _ _ hz, SC_pos m c t hz]; dsimp only
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply (runB c (grid0.coords t) _ _ _ _ _ _ _ _ _ _ _ _ _ _ _ _ _ _ _ _ _ _ _ _ _ _ _ _ _ _ _ _ _ _ (fun h => h0 ((hcond1 t).mp h)) (fun h => h7 ((hcond2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((dats m 0 c).before 14 t d14) (SC m c (t.val - 1) (Nat.lt_of_le_of_lt (Nat.sub_le _ _) t.isLt)).1 (SC m c (t.val - 1) (Nat.lt_of_le_of_lt (Nat.sub_le _ _) t.isLt)).2 _)
      isplitl [H0]
      · iexact H0
      isplitl [H1]
      · iexact H1
      isplitl [H2]
      · iexact H2
      isplitl [H3]
      · iexact H3
      isplitl [H4]
      · iexact H4
      isplitl [H5]
      · iexact H5
      isplitl [H6]
      · iexact H6
      isplitl [H7]
      · iexact H7
      isplitl [H8]
      · iexact H8
      isplitl [H9]
      · iexact H9
      isplitl [H10]
      · iexact H10
      isplitl [H11]
      · iexact H11
      isplitl [H12]
      · iexact H12
      isplitl [H13]
      · iexists _; iexact H13
      isplitl [H14]
      · iexact H14
      isplitl [HS0]
      · iexact HS0
      isplitl [HS1]
      · iexact HS1
      iintro ⟨H0, H1, H2, H3, H4, H5, H6, H7, H8, H9, H10, H11, H12, H13, H14, HS0, HS1⟩
      isplitl [HS0 HS1 Hg]
      · isplitl [HS0 HS1]
        · isplitl [HS0]
          · iexact HS0
          iexact HS1
        iexact Hg
      isplitl [Ho]
      · iexact Ho
      isplitl [H0]
      · iexact H0
      isplitl [H1]
      · iexact H1
      isplitl [H2]
      · iexact H2
      isplitl [H3]
      · iexact H3
      isplitl [H4]
      · iexact H4
      isplitl [H5]
      · iexact H5
      isplitl [H6]
      · iexact H6
      isplitl [H7]
      · iexact H7
      isplitl [H8]
      · iexact H8
      isplitl [H9]
      · iexact H9
      isplitl [H10]
      · iexact H10
      isplitl [H11]
      · iexact H11
      isplitl [H12]
      · iexact H12
      isplitl [H13]
      · iexact H13
      iexists d14; iexact H14

theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: what the scratch holds is forgotten. -/
theorem Phi_out (c : Dev nD) (t : Fin (cfg0.N + 1)) (ht : t.val ≠ 0) : (dats m 0 c).Φ t ⊢ ΦA spec0 c := by
  rw [show (dats m 0 c).Φ t = PhiS m c t.val (Nat.le_of_lt_succ t.isLt) from rfl, PhiS_pos m c _ _ ht, PhiA_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ ΦA spec0 c :=
  Phi_out m c _ (by rw [Fin.val_last]; have : cfg0.N = 8 := N_0; omega)

/-! ## The run and the frame -/

set_option backward.isDefEq.respectTransparency.types false in
/-- Every weakly fair execution of @main terminates, and every final state has every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun c w => A_eq m c w)
    (hin := hin m) (hout := hout m)

/-- The frame: @main terminates without a fault and leaves its eleven argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Proof.KI

end
-- ==== Proof.KI.Blocks.lean ====
/-
  Each window's block at a grid point, read off the array the region finds. The weights and the surface
  features are staged a strip of 1024 rows at a time: strip t holds rows 1024·t + r. Every other input window
  stages its whole array at every point.
-/
import proofs.«118744_g87900800680619_cont_9to1_m_379_24_alg».proof.Proof.Gen.KernelIdeal.Frame
import Idealize.ShloMosaic.Lib.ValueIdx
import Idealize.ShloMosaic.Lib.Pipeline.Value

set_option maxRecDepth 16384

noncomputable section

namespace Cert.Proof.KI.Blocks

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ) (c : Dev nD)

/-- The grid has eight points. -/
theorem lt8 (t : Fin cfg0.N) : t.val < 8 := lt_of_lt_of_eq t.isLt (show cfg0.N = 8 from N_0)

/-- Row r of strip t of an array of 8192 rows. -/
def rowOf (t : Fin cfg0.N) (r : Fin 1024) : Fin 8192 := ⟨1024 * t.val + r.val, by have := lt8 t; have := r.isLt; omega⟩

/-! ### The two strip windows -/

/-- The strip windows' block index at point t is (t, 0). -/
theorem strip_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Strip t of the weights. -/
theorem blk0_apply (t : Fin cfg0.N) (r : Fin 1024) (j : Fin 4096) :
    (iblk m c 0 t : S1024x4096.Idx → Elt F .f32) (ix2 r j)
      = (V m c main_arg2 : S8192x4096.Idx → Elt F .f32) (ix2 (rowOf t r) j) := by
  obtain ⟨e0, e1, -, -⟩ := strip_index t
  show V m c main_arg2 (((cfg0.win 0).blk t).view.emb (ix2 r j)) = V m c main_arg2 (ix2 (rowOf t r) j)
  refine congrArg _ (funext fun a => Fin.ext ?_)
  match a with
  | ⟨0, _⟩ => show win0_0.index t (0 : Fin 2) * 1024 + 1 * r.val = 1024 * t.val + r.val; omega
  | ⟨1, _⟩ => show win0_0.index t (1 : Fin 2) * 4096 + 1 * j.val = j.val; omega
/-- Strip t of the surface features. -/
theorem blk1_apply (t : Fin cfg0.N) (r : Fin 1024) (l : Fin 256) :
    (iblk m c 1 t : S1024x256.Idx → Elt F .f32) (ix2 r l)
      = (V m c main_arg0 : S8192x256.Idx → Elt F .f32) (ix2 (rowOf t r) l) := by
  obtain ⟨-, -, e0, e1⟩ := strip_index t
  show V m c main_arg0 (((cfg0.win 1).blk t).view.emb (ix2 r l)) = V m c main_arg0 (ix2 (rowOf t r) l)
  refine congrArg _ (funext fun a => Fin.ext ?_)
  match a with
  | ⟨0, _⟩ => show win0_1.index t (0 : Fin 2) * 1024 + 1 * r.val = 1024 * t.val + r.val; omega
  | ⟨1, _⟩ => show win0_1.index t (1 : Fin 2) * 256 + 1 * l.val = l.val; omega

/-! ### The windows over a whole array: block index (0, 0) at every point, so the block is the array -/

theorem whole_index_2 : ∀ t : Fin cfg0.N, win0_2.index t (0 : Fin 2) = 0 ∧ win0_2.index t (1 : Fin 2) = 0 :=
  (by decide +kernel : ∀ t : Fin grid0.N, _)
theorem blk2_eq (t : Fin cfg0.N) : (iblk m c 2 t : S4096x256.Idx → Elt F .f32) = V m c main_arg1 := by
  obtain ⟨e0, e1⟩ := whole_index_2 t
  have hz : (fun a => (win0_2.index t) a * main_arg1.ty.shape.size a) = fun _ => 0 := funext fun a => by
    match a with
    | ⟨0, _⟩ => show win0_2.index t (0 : Fin 2) * 4096 = 0; omega
    | ⟨1, _⟩ => show win0_2.index t (1 : Fin 2) * 256 = 0; omega
  exact Memref.read_access_unit_zero (Elt F) main_arg1 hz _ _

theorem whole_index_3 : ∀ t : Fin cfg0.N, win0_3.index t (0 : Fin 2) = 0 ∧ win0_3.index t (1 : Fin 2) = 0 :=
  (by decide +kernel : ∀ t : Fin grid0.N, _)
theorem blk3_eq (t : Fin cfg0.N) : (iblk m c 3 t : S256x256.Idx → Elt F .bf16) = V m c main_v0 := by
  obtain ⟨e0, e1⟩ := whole_index_3 t
  have hz : (fun a => (win0_3.index t) a * main_v0.ty.shape.size a) = fun _ => 0 := funext fun a => by
    match a with
    | ⟨0, _⟩ => show win0_3.index t (0 : Fin 2) * 256 = 0; omega
    | ⟨1, _⟩ => show win0_3.index t (1 : Fin 2) * 256 = 0; omega
  exact Memref.read_access_unit_zero (Elt F) main_v0 hz _ _

theorem whole_index_4 : ∀ t : Fin cfg0.N, win0_4.index t (0 : Fin 2) = 0 ∧ win0_4.index t (1 : Fin 2) = 0 :=
  (by decide +kernel : ∀ t : Fin grid0.N, _)
theorem blk4_eq (t : Fin cfg0.N) : (iblk m c 4 t : S1x256.Idx → Elt F .f32) = V m c main_v10 := by
  obtain ⟨e0, e1⟩ := whole_index_4 t
  have hz : (fun a => (win0_4.index t) a * main_v10.ty.shape.size a) = fun _ => 0 := funext fun a => by
    match a with
    | ⟨0, _⟩ => show win0_4.index t (0 : Fin 2) * 1 = 0; omega
    | ⟨1, _⟩ => show win0_4.index t (1 : Fin 2) * 256 = 0; omega
  exact Memref.read_access_unit_zero (Elt F) main_v10 hz _ _

theorem whole_index_5 : ∀ t : Fin cfg0.N, win0_5.index t (0 : Fin 2) = 0 ∧ win0_5.index t (1 : Fin 2) = 0 :=
  (by decide +kernel : ∀ t : Fin grid0.N, _)
theorem blk5_eq (t : Fin cfg0.N) : (iblk m c 5 t : S256x256.Idx → Elt F .bf16) = V m c main_v1 := by
  obtain ⟨e0, e1⟩ := whole_index_5 t
  have hz : (fun a => (win0_5.index t) a * main_v1.ty.shape.size a) = fun _ => 0 := funext fun a => by
    match a with
    | ⟨0, _⟩ => show win0_5.index t (0 : Fin 2) * 256 = 0; omega
    | ⟨1, _⟩ => show win0_5.index t (1 : Fin 2) * 256 = 0; omega
  exact Memref.read_access_unit_zero (Elt F) main_v1 hz _ _

theorem whole_index_6 : ∀ t : Fin cfg0.N, win0_6.index t (0 : Fin 2) = 0 ∧ win0_6.index t (1 : Fin 2) = 0 :=
  (by decide +kernel : ∀ t : Fin grid0.N, _)
theorem blk6_eq (t : Fin cfg0.N) : (iblk m c 6 t : S1x256.Idx → Elt F .f32) = V m c main_v11 := by
  obtain ⟨e0, e1⟩ := whole_index_6 t
  have hz : (fun a => (win0_6.index t) a * main_v11.ty.shape.size a) = fun _ => 0 := funext fun a => by
    match a with
    | ⟨0, _⟩ => show win0_6.index t (0 : Fin 2) * 1 = 0; omega
    | ⟨1, _⟩ => show win0_6.index t (1 : Fin 2) * 256 = 0; omega
  exact Memref.read_access_unit_zero (Elt F) main_v11 hz _ _

theorem whole_index_7 : ∀ t : Fin cfg0.N, win0_7.index t (0 : Fin 2) = 0 ∧ win0_7.index t (1 : Fin 2) = 0 :=
  (by decide +kernel : ∀ t : Fin grid0.N, _)
theorem blk7_eq (t : Fin cfg0.N) : (iblk m c 7 t : S256x256.Idx → Elt F .bf16) = V m c main_v3 := by
  obtain ⟨e0, e1⟩ := whole_index_7 t
  have hz : (fun a => (win0_7.index t) a * main_v3.ty.shape.size a) = fun _ => 0 := funext fun a => by
    match a with
    | ⟨0, _⟩ => show win0_7.index t (0 : Fin 2) * 256 = 0; omega
    | ⟨1, _⟩ => show win0_7.index t (1 : Fin 2) * 256 = 0; omega
  exact Memref.read_access_unit_zero (Elt F) main_v3 hz _ _

theorem whole_index_8 : ∀ t : Fin cfg0.N, win0_8.index t (0 : Fin 2) = 0 ∧ win0_8.index t (1 : Fin 2) = 0 :=
  (by decide +kernel : ∀ t : Fin grid0.N, _)
theorem blk8_eq (t : Fin cfg0.N) : (iblk m c 8 t : S256x256.Idx → Elt F .bf16) = V m c main_v5 := by
  obtain ⟨e0, e1⟩ := whole_index_8 t
  have hz : (fun a => (win0_8.index t) a * main_v5.ty.shape.size a) = fun _ => 0 := funext fun a => by
    match a with
    | ⟨0, _⟩ => show win0_8.index t (0 : Fin 2) * 256 = 0; omega
    | ⟨1, _⟩ => show win0_8.index t (1 : Fin 2) * 256 = 0; omega
  exact Memref.read_access_unit_zero (Elt F) main_v5 hz _ _

theorem whole_index_9 : ∀ t : Fin cfg0.N, win0_9.index t (0 : Fin 2) = 0 ∧ win0_9.index t (1 : Fin 2) = 0 :=
  (by decide +kernel : ∀ t : Fin grid0.N, _)
theorem blk9_eq (t : Fin cfg0.N) : (iblk m c 9 t : S1x256.Idx → Elt F .f32) = V m c main_v12 := by
  obtain ⟨e0, e1⟩ := whole_index_9 t
  have hz : (fun a => (win0_9.index t) a * main_v12.ty.shape.size a) = fun _ => 0 := funext fun a => by
    match a with
    | ⟨0, _⟩ => show win0_9.index t (0 : Fin 2) * 1 = 0; omega
    | ⟨1, _⟩ => show win0_9.index t (1 : Fin 2) * 256 = 0; omega
  exact Memref.read_access_unit_zero (Elt F) main_v12 hz _ _

theorem whole_index_10 : ∀ t : Fin cfg0.N, win0_10.index t (0 : Fin 2) = 0 ∧ win0_10.index t (1 : Fin 2) = 0 :=
  (by decide +kernel : ∀ t : Fin grid0.N, _)
theorem blk10_eq (t : Fin cfg0.N) : (iblk m c 10 t : S256x256.Idx → Elt F .bf16) = V m c main_v7 := by
  obtain ⟨e0, e1⟩ := whole_index_10 t
  have hz : (fun a => (win0_10.index t) a * main_v7.ty.shape.size a) = fun _ => 0 := funext fun a => by
    match a with
    | ⟨0, _⟩ => show win0_10.index t (0 : Fin 2) * 256 = 0; omega
    | ⟨1, _⟩ => show win0_10.index t (1 : Fin 2) * 256 = 0; omega
  exact Memref.read_access_unit_zero (Elt F) main_v7 hz _ _

theorem whole_index_11 : ∀ t : Fin cfg0.N, win0_11.index t (0 : Fin 2) = 0 ∧ win0_11.index t (1 : Fin 2) = 0 :=
  (by decide +kernel : ∀ t : Fin grid0.N, _)
theorem blk11_eq (t : Fin cfg0.N) : (iblk m c 11 t : S256x256.Idx → Elt F .bf16) = V m c main_v9 := by
  obtain ⟨e0, e1⟩ := whole_index_11 t
  have hz : (fun a => (win0_11.index t) a * main_v9.ty.shape.size a) = fun _ => 0 := funext fun a => by
    match a with
    | ⟨0, _⟩ => show win0_11.index t (0 : Fin 2) * 256 = 0; omega
    | ⟨1, _⟩ => show win0_11.index t (1 : Fin 2) * 256 = 0; omega
  exact Memref.read_access_unit_zero (Elt F) main_v9 hz _ _

theorem whole_index_12 : ∀ t : Fin cfg0.N, win0_12.index t (0 : Fin 2) = 0 ∧ win0_12.index t (1 : Fin 2) = 0 :=
  (by decide +kernel : ∀ t : Fin grid0.N, _)
theorem blk12_eq (t : Fin cfg0.N) : (iblk m c 12 t : S1x256.Idx → Elt F .f32) = V m c main_v13 := by
  obtain ⟨e0, e1⟩ := whole_index_12 t
  have hz : (fun a => (win0_12.index t) a * main_v13.ty.shape.size a) = fun _ => 0 := funext fun a => by
    match a with
    | ⟨0, _⟩ => show win0_12.index t (0 : Fin 2) * 1 = 0; omega
    | ⟨1, _⟩ => show win0_12.index t (1 : Fin 2) * 256 = 0; omega
  exact Memref.read_access_unit_zero (Elt F) main_v13 hz _ _

end Cert.Proof.KI.Blocks

end
-- ==== Proof.Spec.lean ====
/-
  The mathematical content of the claim, on the extended reals, as functions of the eleven argument arrays:
  surface features x0 [8192,256], graph features x1 [4096,256], the bipartite weights x2 [8192,4096], and the four
  affine layers (x3,x4), (x5,x6), (x7,x8), (x9,x10). Both programs compute

    xs_pre = relu(x0·x3 + x4)            xg_pre = relu(x1·x5 + x6)
    xs = relu(xs_pre·x7[0:256] + (x2·xg_pre)·x7[256:512] + x8)
    xg = relu(xg_pre·x9[0:256] + (x2ᵀ·xs_pre)·x9[256:512] + x10)

  entry by entry, every product of matrices a finite sum of products of extended reals. The two post layers are
  written with the contraction over the 512 rows of the weight already split into its two halves of 256, which is
  how one side computes it; the other contracts over all 512 rows of a concatenation, the same sum regrouped.
-/
import Idealize.ShloMosaic.Lib.ValueIdx
import Idealize.ShloMosaic.PureOps.Ideal.Laws

noncomputable section

open scoped BigOperators

namespace Cert.Proof.Spec

open Idealize.ShloMosaic Idealize.ShloMosaic.ValueIdx

/-- Entry (i, k) of relu(X·W + b): the positive part of row i of X against column k of W, plus the bias at k. -/
def pre {n : Nat} (X : FVec Ideal ⟨2, ![n, 256]⟩ .f32) (W : FVec Ideal ⟨2, ![256, 256]⟩ .f32)
    (b : FVec Ideal ⟨1, ![256]⟩ .f32) (i : Fin n) (k : Fin 256) : EReal :=
  max ((∑ l : Fin 256, X (ix2 i l) * W (ix2 l k)) + b (ix1 k)) 0

/-- Row k of the upper half of a [512, 256] weight. -/
def lo (k : Fin 256) : Fin 512 := ⟨k.val, by omega⟩
/-- Row k of the lower half of a [512, 256] weight. -/
def hi (k : Fin 256) : Fin 512 := ⟨256 + k.val, by omega⟩

/-- The message a surface point i receives, feature k: the weights' row i against column k of xg_pre. -/
def msgS (x1 : FVec Ideal ⟨2, ![4096, 256]⟩ .f32) (x2 : FVec Ideal ⟨2, ![8192, 4096]⟩ .f32)
    (x5 : FVec Ideal ⟨2, ![256, 256]⟩ .f32) (x6 : FVec Ideal ⟨1, ![256]⟩ .f32) (i : Fin 8192) (k : Fin 256) : EReal :=
  ∑ j : Fin 4096, x2 (ix2 i j) * pre x1 x5 x6 j k

/-- The message a graph node j receives, feature k: the weights' column j against column k of xs_pre. -/
def msgG (x0 : FVec Ideal ⟨2, ![8192, 256]⟩ .f32) (x2 : FVec Ideal ⟨2, ![8192, 4096]⟩ .f32)
    (x3 : FVec Ideal ⟨2, ![256, 256]⟩ .f32) (x4 : FVec Ideal ⟨1, ![256]⟩ .f32) (j : Fin 4096) (k : Fin 256) : EReal :=
  ∑ i : Fin 8192, x2 (ix2 i j) * pre x0 x3 x4 i k

/-- Entry (i, d) of the surface result. -/
def xs (x0 : FVec Ideal ⟨2, ![8192, 256]⟩ .f32) (x1 : FVec Ideal ⟨2, ![4096, 256]⟩ .f32)
    (x2 : FVec Ideal ⟨2, ![8192, 4096]⟩ .f32) (x3 : FVec Ideal ⟨2, ![256, 256]⟩ .f32) (x4 : FVec Ideal ⟨1, ![256]⟩ .f32)
    (x5 : FVec Ideal ⟨2, ![256, 256]⟩ .f32) (x6 : FVec Ideal ⟨1, ![256]⟩ .f32) (x7 : FVec Ideal ⟨2, ![512, 256]⟩ .f32)
    (x8 : FVec Ideal ⟨1, ![256]⟩ .f32) (i : Fin 8192) (d : Fin 256) : EReal :=
  max (((∑ k : Fin 256, pre x0 x3 x4 i k * x7 (ix2 (lo k) d))
      + (∑ k : Fin 256, msgS x1 x2 x5 x6 i k * x7 (ix2 (hi k) d))) + x8 (ix1 d)) 0

/-- Entry (j, d) of the graph result. -/
def xg (x0 : FVec Ideal ⟨2, ![8192, 256]⟩ .f32) (x1 : FVec Ideal ⟨2, ![4096, 256]⟩ .f32)
    (x2 : FVec Ideal ⟨2, ![8192, 4096]⟩ .f32) (x3 : FVec Ideal ⟨2, ![256, 256]⟩ .f32) (x4 : FVec Ideal ⟨1, ![256]⟩ .f32)
    (x5 : FVec Ideal ⟨2, ![256, 256]⟩ .f32) (x6 : FVec Ideal ⟨1, ![256]⟩ .f32) (x9 : FVec Ideal ⟨2, ![512, 256]⟩ .f32)
    (x10 : FVec Ideal ⟨1, ![256]⟩ .f32) (j : Fin 4096) (d : Fin 256) : EReal :=
  max (((∑ k : Fin 256, pre x1 x5 x6 j k * x9 (ix2 (lo k) d))
      + (∑ k : Fin 256, msgG x0 x2 x3 x4 j k * x9 (ix2 (hi k) d))) + x10 (ix1 d)) 0

/-- The surface result as an array. -/
def xsArr (x0 : FVec Ideal ⟨2, ![8192, 256]⟩ .f32) (x1 : FVec Ideal ⟨2, ![4096, 256]⟩ .f32)
    (x2 : FVec Ideal ⟨2, ![8192, 4096]⟩ .f32) (x3 : FVec Ideal ⟨2, ![256, 256]⟩ .f32) (x4 : FVec Ideal ⟨1, ![256]⟩ .f32)
    (x5 : FVec Ideal ⟨2, ![256, 256]⟩ .f32) (x6 : FVec Ideal ⟨1, ![256]⟩ .f32) (x7 : FVec Ideal ⟨2, ![512, 256]⟩ .f32)
    (x8 : FVec Ideal ⟨1, ![256]⟩ .f32) : FVec Ideal ⟨2, ![8192, 256]⟩ .f32 :=
  fun idx => xs x0 x1 x2 x3 x4 x5 x6 x7 x8 ⟨(idx 0).val, (idx 0).isLt⟩ ⟨(idx 1).val, (idx 1).isLt⟩

/-- The graph result as an array. -/
def xgArr (x0 : FVec Ideal ⟨2, ![8192, 256]⟩ .f32) (x1 : FVec Ideal ⟨2, ![4096, 256]⟩ .f32)
    (x2 : FVec Ideal ⟨2, ![8192, 4096]⟩ .f32) (x3 : FVec Ideal ⟨2, ![256, 256]⟩ .f32) (x4 : FVec Ideal ⟨1, ![256]⟩ .f32)
    (x5 : FVec Ideal ⟨2, ![256, 256]⟩ .f32) (x6 : FVec Ideal ⟨1, ![256]⟩ .f32) (x9 : FVec Ideal ⟨2, ![512, 256]⟩ .f32)
    (x10 : FVec Ideal ⟨1, ![256]⟩ .f32) : FVec Ideal ⟨2, ![4096, 256]⟩ .f32 :=
  fun idx => xg x0 x1 x2 x3 x4 x5 x6 x9 x10 ⟨(idx 0).val, (idx 0).isLt⟩ ⟨(idx 1).val, (idx 1).isLt⟩

theorem xsArr_apply (x0 : FVec Ideal ⟨2, ![8192, 256]⟩ .f32) (x1 : FVec Ideal ⟨2, ![4096, 256]⟩ .f32)
    (x2 : FVec Ideal ⟨2, ![8192, 4096]⟩ .f32) (x3 : FVec Ideal ⟨2, ![256, 256]⟩ .f32) (x4 : FVec Ideal ⟨1, ![256]⟩ .f32)
    (x5 : FVec Ideal ⟨2, ![256, 256]⟩ .f32) (x6 : FVec Ideal ⟨1, ![256]⟩ .f32) (x7 : FVec Ideal ⟨2, ![512, 256]⟩ .f32)
    (x8 : FVec Ideal ⟨1, ![256]⟩ .f32) (i : Fin 8192) (d : Fin 256) :
    xsArr x0 x1 x2 x3 x4 x5 x6 x7 x8 (ix2 i d) = xs x0 x1 x2 x3 x4 x5 x6 x7 x8 i d := rfl

theorem xgArr_apply (x0 : FVec Ideal ⟨2, ![8192, 256]⟩ .f32) (x1 : FVec Ideal ⟨2, ![4096, 256]⟩ .f32)
    (x2 : FVec Ideal ⟨2, ![8192, 4096]⟩ .f32) (x3 : FVec Ideal ⟨2, ![256, 256]⟩ .f32) (x4 : FVec Ideal ⟨1, ![256]⟩ .f32)
    (x5 : FVec Ideal ⟨2, ![256, 256]⟩ .f32) (x6 : FVec Ideal ⟨1, ![256]⟩ .f32) (x9 : FVec Ideal ⟨2, ![512, 256]⟩ .f32)
    (x10 : FVec Ideal ⟨1, ![256]⟩ .f32) (j : Fin 4096) (d : Fin 256) :
    xgArr x0 x1 x2 x3 x4 x5 x6 x9 x10 (ix2 j d) = xg x0 x1 x2 x3 x4 x5 x6 x9 x10 j d := rfl

end Cert.Proof.Spec

end
-- ==== Proof.KI.Host.lean ====
/-
  What the kernel program's host operations before the region leave in the arrays the region stages, read one
  entry at a time on the extended reals: a change of float format is the identity, a slice of rows [0, 256) or
  [256, 512) of a [512, 256] weight reads the weight at row k or 256 + k, and a reshape of a [256] bias to a
  [1, 256] row reads the bias at the column.
-/
import proofs.«118744_g87900800680619_cont_9to1_m_379_24_alg».proof.Proof.Gen.KernelIdeal.Frame
import proofs.«118744_g87900800680619_cont_9to1_m_379_24_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.Proof.KI.Host

open Cert.KernelIdeal Cert.KernelIdeal.Gen
open Idealize.ShloMosaic Idealize.ShloMosaic.TcCoe Idealize.ShloMosaic.ValueIdx Idealize.SL.Sem
open Cert.Proof.Spec (lo hi)

variable (m : (ℓ : Loc nD τ sig) → Buf (Elt Ideal) ℓ) (c : Dev nD)

/-- The surface pre weight as staged (cast to bf16): the argument's entries. -/
theorem v0_apply (l k : Fin 256) :
    (V m c main_v0 : S256x256.Idx → EReal) (ix2 l k) = (m ((c : Thread nD τ).loc main_arg3) : S256x256.Idx → EReal) (ix2 l k) := by
  dsimp only [Gen.V, Gen.hostOps0]
  after_results
  exact truncf_apply _ _ _
/-- The graph pre weight as staged. -/
theorem v1_apply (l k : Fin 256) :
    (V m c main_v1 : S256x256.Idx → EReal) (ix2 l k) = (m ((c : Thread nD τ).loc main_arg5) : S256x256.Idx → EReal) (ix2 l k) := by
  dsimp only [Gen.V, Gen.hostOps0]
  after_results
  exact truncf_apply _ _ _
/-- The upper half of the surface post weight as staged. -/
theorem v3_apply (k d : Fin 256) :
    (V m c main_v3 : S256x256.Idx → EReal) (ix2 k d) = (m ((c : Thread nD τ).loc main_arg7) : S512x256.Idx → EReal) (ix2 (lo k) d) := by
  dsimp only [Gen.V, Gen.hostOps0]
  after_results
  refine (truncf_apply (φ := .f32) (ψ := .bf16) _ bitsLt_bf16_f32 (ix2 k d)).trans ?_
  exact slice2_axis0_apply 0 _ slices_S512x256_S256x256_0_0 k d (lo k) (Nat.zero_add _).symm
/-- The lower half of the surface post weight as staged. -/
theorem v5_apply (k d : Fin 256) :
    (V m c main_v5 : S256x256.Idx → EReal) (ix2 k d) = (m ((c : Thread nD τ).loc main_arg7) : S512x256.Idx → EReal) (ix2 (hi k) d) := by
  dsimp only [Gen.V, Gen.hostOps0]
  after_results
  refine (truncf_apply (φ := .f32) (ψ := .bf16) _ bitsLt_bf16_f32 (ix2 k d)).trans ?_
  exact slice2_axis0_apply 256 _ slices_S512x256_S256x256_256_0 k d (hi k) rfl
/-- The upper half of the graph post weight as staged. -/
theorem v7_apply (k d : Fin 256) :
    (V m c main_v7 : S256x256.Idx → EReal) (ix2 k d) = (m ((c : Thread nD τ).loc main_arg9) : S512x256.Idx → EReal) (ix2 (lo k) d) := by
  dsimp only [Gen.V, Gen.hostOps0]
  after_results
  refine (truncf_apply (φ := .f32) (ψ := .bf16) _ bitsLt_bf16_f32 (ix2 k d)).trans ?_
  exact slice2_axis0_apply 0 _ slices_S512x256_S256x256_0_0 k d (lo k) (Nat.zero_add _).symm
/-- The lower half of the graph post weight as staged. -/
theorem v9_apply (k d : Fin 256) :
    (V m c main_v9 : S256x256.Idx → EReal) (ix2 k d) = (m ((c : Thread nD τ).loc main_arg9) : S512x256.Idx → EReal) (ix2 (hi k) d) := by
  dsimp only [Gen.V, Gen.hostOps0]
  after_results
  refine (truncf_apply (φ := .f32) (ψ := .bf16) _ bitsLt_bf16_f32 (ix2 k d)).trans ?_
  exact slice2_axis0_apply 256 _ slices_S512x256_S256x256_256_0 k d (hi k) rfl
/-- The surface pre bias as a row. -/
theorem v10_apply (k : Fin 256) :
    (V m c main_v10 : S1x256.Idx → EReal) (ix2 (0 : Fin 1) k) = (m ((c : Thread nD τ).loc main_arg4) : S256.Idx → EReal) (ix1 k) := by
  dsimp only [Gen.V, Gen.hostOps0]
  after_results
  show shapeCast S1x256 (m (c, Proc.devRef .tc main_arg4) : S256.Idx → EReal) shapeCasts_S256_S1x256 (ix2 (0 : Fin 1) k) = _
  exact shapeCast_apply _ _ _ (ix1 k) (by
    rw [Shape.rowMajor_val_two, Shape.rowMajor_val_one]; show k.val = 0 * 256 + k.val; omega)
/-- The graph pre bias as a row. -/
theorem v11_apply (k : Fin 256) :
    (V m c main_v11 : S1x256.Idx → EReal) (ix2 (0 : Fin 1) k) = (m ((c : Thread nD τ).loc main_arg6) : S256.Idx → EReal) (ix1 k) := by
  dsimp only [Gen.V, Gen.hostOps0]
  after_results
  show shapeCast S1x256 (m (c, Proc.devRef .tc main_arg6) : S256.Idx → EReal) shapeCasts_S256_S1x256 (ix2 (0 : Fin 1) k) = _
  exact shapeCast_apply _ _ _ (ix1 k) (by
    rw [Shape.rowMajor_val_two, Shape.rowMajor_val_one]; show k.val = 0 * 256 + k.val; omega)
/-- The surface post bias as a row. -/
theorem v12_apply (k : Fin 256) :
    (V m c main_v12 : S1x256.Idx → EReal) (ix2 (0 : Fin 1) k) = (m ((c : Thread nD τ).loc main_arg8) : S256.Idx → EReal) (ix1 k) := by
  dsimp only [Gen.V, Gen.hostOps0]
  after_results
  show shapeCast S1x256 (m (c, Proc.devRef .tc main_arg8) : S256.Idx → EReal) shapeCasts_S256_S1x256 (ix2 (0 : Fin 1) k) = _
  exact shapeCast_apply _ _ _ (ix1 k) (by
    rw [Shape.rowMajor_val_two, Shape.rowMajor_val_one]; show k.val = 0 * 256 + k.val; omega)
/-- The graph post bias as a row. -/
theorem v13_apply (k : Fin 256) :
    (V m c main_v13 : S1x256.Idx → EReal) (ix2 (0 : Fin 1) k) = (m ((c : Thread nD τ).loc main_arg10) : S256.Idx → EReal) (ix1 k) := by
  dsimp only [Gen.V, Gen.hostOps0]
  after_results
  show shapeCast S1x256 (m (c, Proc.devRef .tc main_arg10) : S256.Idx → EReal) shapeCasts_S256_S1x256 (ix2 (0 : Fin 1) k) = _
  exact shapeCast_apply _ _ _ (ix1 k) (by
    rw [Shape.rowMajor_val_two, Shape.rowMajor_val_one]; show k.val = 0 * 256 + k.val; omega)

end Cert.Proof.KI.Host

end
-- ==== Proof.KI.Args.lean ====
/-
  The eleven argument arrays of @main, as core c's memory holds them, under the names the specification uses.
-/
import proofs.«118744_g87900800680619_cont_9to1_m_379_24_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

open scoped BigOperators

namespace Cert.Proof.KI.Args

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD)

/-- Argument 0 of @main as core c's memory holds it. -/
abbrev A0 : FVec Ideal ⟨2, ![8192, 256]⟩ .f32 := m ((c : Thread nD τ).loc main_arg0)
/-- Argument 1 of @main as core c's memory holds it. -/
abbrev A1 : FVec Ideal ⟨2, ![4096, 256]⟩ .f32 := m ((c : Thread nD τ).loc main_arg1)
/-- Argument 2 of @main as core c's memory holds it. -/
abbrev A2 : FVec Ideal ⟨2, ![8192, 4096]⟩ .f32 := m ((c : Thread nD τ).loc main_arg2)
/-- Argument 3 of @main as core c's memory holds it. -/
abbrev A3 : FVec Ideal ⟨2, ![256, 256]⟩ .f32 := m ((c : Thread nD τ).loc main_arg3)
/-- Argument 4 of @main as core c's memory holds it. -/
abbrev A4 : FVec Ideal ⟨1, ![256]⟩ .f32 := m ((c : Thread nD τ).loc main_arg4)
/-- Argument 5 of @main as core c's memory holds it. -/
abbrev A5 : FVec Ideal ⟨2, ![256, 256]⟩ .f32 := m ((c : Thread nD τ).loc main_arg5)
/-- Argument 6 of @main as core c's memory holds it. -/
abbrev A6 : FVec Ideal ⟨1, ![256]⟩ .f32 := m ((c : Thread nD τ).loc main_arg6)
/-- Argument 7 of @main as core c's memory holds it. -/
abbrev A7 : FVec Ideal ⟨2, ![512, 256]⟩ .f32 := m ((c : Thread nD τ).loc main_arg7)
/-- Argument 8 of @main as core c's memory holds it. -/
abbrev A8 : FVec Ideal ⟨1, ![256]⟩ .f32 := m ((c : Thread nD τ).loc main_arg8)
/-- Argument 9 of @main as core c's memory holds it. -/
abbrev A9 : FVec Ideal ⟨2, ![512, 256]⟩ .f32 := m ((c : Thread nD τ).loc main_arg9)
/-- Argument 10 of @main as core c's memory holds it. -/
abbrev A10 : FVec Ideal ⟨1, ![256]⟩ .f32 := m ((c : Thread nD τ).loc main_arg10)

end Cert.Proof.KI.Args

end
-- ==== Proof.Pay.lean ====
/-
  The kernel body's arithmetic read one entry at a time on the extended reals. Each named value of the body is
  a composition of changes of float format (the identity here), re-layouts, matrix products into a zero
  accumulator (finite sums of products), sums, a bias row broadcast down the rows, and the positive part.
-/
import proofs.«118744_g87900800680619_cont_9to1_m_379_24_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Proof.Pay

open Cert.KernelIdeal Cert.KernelIdeal.Gen
open Idealize.ShloMosaic Idealize.ShloMosaic.ValueIdx

/-! ### The product of a [1024, 256] by a [256, 256] matrix: which entries of the two factors an output entry multiplies -/

theorem lhsA_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem lhsA_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem rhsA_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem rhsA_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- Into a zero accumulator the product's entry (p, q) is the sum over k of l (p, k) · r (k, q). -/
theorem mmA_apply {φ₁ φ₂ : FTy} (l : FVec Ideal S1024x256 φ₁) (r : FVec Ideal S256x256 φ₂) (p : Fin 1024) (q : Fin 256) :
    matmul dot_S1024x256_S256x256_S1024x256_1_0_0_1_n_n none l r (constant (F := Ideal) S1024x256 .f32 0x00000000#32) (ix2 p q)
      = ∑ k : Fin 256, l (ix2 p k) * r (ix2 k q) := by
  simp only [matmul]
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p q) ((contrEquiv1 dot_S1024x256_S256x256_S1024x256_1_0_0_1_n_n 256 rfl rfl).symm k) = ix2 p k := funext fun a => Fin.ext (by
    match a with
    | ⟨0, _⟩ => exact lhsA_0 _ _
    | ⟨1, _⟩ => exact (lhsA_1 _ _).trans hk)
  have er : dot_S1024x256_S256x256_S1024x256_1_0_0_1_n_n.rhsIdx (ix2 p q) ((contrEquiv1 dot_S1024x256_S256x256_S1024x256_1_0_0_1_n_n 256 rfl rfl).symm k) = ix2 k q := funext fun a => Fin.ext (by
    match a with
    | ⟨0, _⟩ => exact (rhsA_0 _ _).trans hk
    | ⟨1, _⟩ => exact rhsA_1 _ _)
  rw [el, er]

/-! ### The product of a [4096, 256] by a [256, 256] matrix: which entries of the two factors an output entry multiplies -/

theorem lhsB_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhsB_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhsB_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhsB_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- Into a zero accumulator the product's entry (p, q) is the sum over k of l (p, k) · r (k, q). -/
theorem mmB_apply {φ₁ φ₂ : FTy} (l : FVec Ideal S4096x256 φ₁) (r : FVec Ideal S256x256 φ₂) (p : Fin 4096) (q : Fin 256) :
    matmul dot_S4096x256_S256x256_S4096x256_1_0_0_1_n_n none l r (constant (F := Ideal) S4096x256 .f32 0x00000000#32) (ix2 p q)
      = ∑ k : Fin 256, l (ix2 p k) * r (ix2 k q) := by
  simp only [matmul]
  rw [Ideal.matmul_constant_zero_apply, ← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 p q) ((contrEquiv1 dot_S4096x256_S256x256_S4096x256_1_0_0_1_n_n 256 rfl rfl).symm k) = ix2 p k := funext fun a => Fin.ext (by
    match a with
    | ⟨0, _⟩ => exact lhsB_0 _ _
    | ⟨1, _⟩ => exact (lhsB_1 _ _).trans hk)
  have er : dot_S4096x256_S256x256_S4096x256_1_0_0_1_n_n.rhsIdx (ix2 p q) ((contrEquiv1 dot_S4096x256_S256x256_S4096x256_1_0_0_1_n_n 256 rfl rfl).symm k) = ix2 k q := funext fun a => Fin.ext (by
    match a with
    | ⟨0, _⟩ => exact (rhsB_0 _ _).trans hk
    | ⟨1, _⟩ => exact rhsB_1 _ _)
  rw [el, er]

/-! ### The product of a [256, 1024] by a [1024, 4096] matrix: which entries of the two factors an output entry multiplies -/

theorem lhsC_0 (i : S256x4096.Idx) (q : dot_S256x1024_S1024x4096_S256x4096_1_0_0_1_n_n.contr.Idx) :
    (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
theorem lhsC_1 (i : S256x4096.Idx) (q : dot_S256x1024_S1024x4096_S256x4096_1_0_0_1_n_n.contr.Idx) :
    (dot_S256x1024_S1024x4096_S256x4096_1_0_0_1_n_n.lhsIdx i q 1).val = (q ⟨0, by decide⟩).val :=
  dot_S256x1024_S1024x4096_S256x4096_1_0_0_1_n_n.lhsIdx_val_of_single rfl i q
theorem rhsC_0 (i : S256x4096.Idx) (q : dot_S256x1024_S1024x4096_S256x4096_1_0_0_1_n_n.contr.Idx) :
    (dot_S256x1024_S1024x4096_S256x4096_1_0_0_1_n_n.rhsIdx i q 0).val = (q ⟨0, by decide⟩).val :=
  dot_S256x1024_S1024x4096_S256x4096_1_0_0_1_n_n.rhsIdx_val_of_single rfl i q
theorem rhsC_1 (i : S256x4096.Idx) (q : dot_S256x1024_S1024x4096_S256x4096_1_0_0_1_n_n.contr.Idx) :
    (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-- Into a zero accumulator the product's entry (p, q) is the sum over k of l (p, k) · r (k, q). -/
theorem mmC_apply {φ₁ φ₂ : FTy} (l : FVec Ideal S256x1024 φ₁) (r : FVec Ideal S1024x4096 φ₂) (p : Fin 256) (q : Fin 4096) :
    matmul dot_S256x1024_S1024x4096_S256x4096_1_0_0_1_n_n none l r (constant (F := Ideal) S256x4096 .f32 0x00000000#32) (ix2 p q)
      = ∑ k : Fin 1024, l (ix2 p k) * r (ix2 k q) := by
  simp only [matmul]
  rw [Ideal.matmul_constant_zero_apply, ← Equiv.sum_comp (contrEquiv1 dot_S256x1024_S1024x4096_S256x4096_1_0_0_1_n_n 1024 rfl rfl).symm]
  refine Finset.sum_congr rfl fun k _ => ?_
  have hk := contrEquiv1_symm_val dot_S256x1024_S1024x4096_S256x4096_1_0_0_1_n_n 1024 rfl rfl k
  have el : dot_S256x1024_S1024x4096_S256x4096_1_0_0_1_n_n.lhsIdx (ix2 p q) ((contrEquiv1 dot_S256x1024_S1024x4096_S256x4096_1_0_0_1_n_n 1024 rfl rfl).symm k) = ix2 p k := funext fun a => Fin.ext (by
    match a with
    | ⟨0, _⟩ => exact lhsC_0 _ _
    | ⟨1, _⟩ => exact (lhsC_1 _ _).trans hk)
  have er : dot_S256x1024_S1024x4096_S256x4096_1_0_0_1_n_n.rhsIdx (ix2 p q) ((contrEquiv1 dot_S256x1024_S1024x4096_S256x4096_1_0_0_1_n_n 1024 rfl rfl).symm k) = ix2 k q := funext fun a => Fin.ext (by
    match a with
    | ⟨0, _⟩ => exact (rhsC_0 _ _).trans hk
    | ⟨1, _⟩ => exact rhsC_1 _ _)
  rw [el, er]

/-! ### The product of a [1024, 4096] by a [4096, 256] matrix: which entries of the two factors an output entry multiplies -/

theorem lhsD_0 (i : S1024x256.Idx) (q : dot_S1024x4096_S4096x256_S1024x256_1_0_0_1_n_n.contr.Idx) :
    (dot_S1024x4096_S4096x256_S1024x256_1_0_0_1_n_n.lhsIdx i q 0).val = (i 0).val := by
  unfold DotDims.lhsIdx
  rw [dif_neg (show ¬(0 : Fin S1024x4096.rank) ∈ dot_S1024x4096_S4096x256_S1024x256_1_0_0_1_n_n.lhsBatch by decide), dif_pos (show (0 : Fin S1024x4096.rank) ∈ dot_S1024x4096_S4096x256_S1024x256_1_0_0_1_n_n.lhsNonContracting by decide)]
  rfl
theorem lhsD_1 (i : S1024x256.Idx) (q : dot_S1024x4096_S4096x256_S1024x256_1_0_0_1_n_n.contr.Idx) :
    (dot_S1024x4096_S4096x256_S1024x256_1_0_0_1_n_n.lhsIdx i q 1).val = (q ⟨0, by decide⟩).val :=
  dot_S1024x4096_S4096x256_S1024x256_1_0_0_1_n_n.lhsIdx_val_of_single rfl i q
theorem rhsD_0 (i : S1024x256.Idx) (q : dot_S1024x4096_S4096x256_S1024x256_1_0_0_1_n_n.contr.Idx) :
    (dot_S1024x4096_S4096x256_S1024x256_1_0_0_1_n_n.rhsIdx i q 0).val = (q ⟨0, by decide⟩).val :=
  dot_S1024x4096_S4096x256_S1024x256_1_0_0_1_n_n.rhsIdx_val_of_single rfl i q
theorem rhsD_1 (i : S1024x256.Idx) (q : dot_S1024x4096_S4096x256_S1024x256_1_0_0_1_n_n.contr.Idx) :
    (dot_S1024x4096_S4096x256_S1024x256_1_0_0_1_n_n.rhsIdx i q 1).val = (i 1).val := by
  unfold DotDims.rhsIdx
  rw [dif_neg (show ¬(1 : Fin S4096x256.rank) ∈ dot_S1024x4096_S4096x256_S1024x256_1_0_0_1_n_n.rhsBatch by decide), dif_pos (show (1 : Fin S4096x256.rank) ∈ dot_S1024x4096_S4096x256_S1024x256_1_0_0_1_n_n.rhsNonContracting by decide)]
  rfl

/-- Into a zero accumulator the product's entry (p, q) is the sum over k of l (p, k) · r (k, q). -/
theorem mmD_apply {φ₁ φ₂ : FTy} (l : FVec Ideal S1024x4096 φ₁) (r : FVec Ideal S4096x256 φ₂) (p : Fin 1024) (q : Fin 256) :
    matmul dot_S1024x4096_S4096x256_S1024x256_1_0_0_1_n_n none l r (constant (F := Ideal) S1024x256 .f32 0x00000000#32) (ix2 p q)
      = ∑ k : Fin 4096, l (ix2 p k) * r (ix2 k q) := by
  simp only [matmul]
  rw [Ideal.matmul_constant_zero_apply, ← Equiv.sum_comp (contrEquiv1 dot_S1024x4096_S4096x256_S1024x256_1_0_0_1_n_n 4096 rfl rfl).symm]
  refine Finset.sum_congr rfl fun k _ => ?_
  have hk := contrEquiv1_symm_val dot_S1024x4096_S4096x256_S1024x256_1_0_0_1_n_n 4096 rfl rfl k
  have el : dot_S1024x4096_S4096x256_S1024x256_1_0_0_1_n_n.lhsIdx (ix2 p q) ((contrEquiv1 dot_S1024x4096_S4096x256_S1024x256_1_0_0_1_n_n 4096 rfl rfl).symm k) = ix2 p k := funext fun a => Fin.ext (by
    match a with
    | ⟨0, _⟩ => exact lhsD_0 _ _
    | ⟨1, _⟩ => exact (lhsD_1 _ _).trans hk)
  have er : dot_S1024x4096_S4096x256_S1024x256_1_0_0_1_n_n.rhsIdx (ix2 p q) ((contrEquiv1 dot_S1024x4096_S4096x256_S1024x256_1_0_0_1_n_n 4096 rfl rfl).symm k) = ix2 k q := funext fun a => Fin.ext (by
    match a with
    | ⟨0, _⟩ => exact (rhsD_0 _ _).trans hk
    | ⟨1, _⟩ => exact rhsD_1 _ _)
  rw [el, er]

/-! ### Small facts used by every payload -/

/-- The float word of all zero bits is the real number zero. -/
theorem zero_word : (Scalar.ofBits (F := Ideal) .f32 0x00000000#32) = 0 := Ideal.ofBits_zero_f32

/-- The product whose left factor is the transpose of a [256, 1024] accumulator (its float format changed, which
    changes nothing here): entry (r, d) sums acc (k, r) · w (k, d) over k. -/
theorem mmA_transpose_apply {φ₂ : FTy} (acc : Vec Ideal S256x1024 .f32) (w : FVec Ideal S256x256 φ₂)
    (hb : FTy.bits .bf16 < FTy.bits .f32) (ht : S256x1024.Transposes [1, 0] S1024x256) (r : Fin 1024) (d : Fin 256) :
    matmul dot_S1024x256_S256x256_S1024x256_1_0_0_1_n_n none (transpose S1024x256 [1, 0] (truncf .bf16 acc hb) ht) w
        (constant (F := Ideal) S1024x256 .f32 0x00000000#32) (ix2 r d)
      = ∑ k : Fin 256, acc (ix2 k r) * w (ix2 k d) := by
  refine (mmA_apply _ _ r d).trans (Finset.sum_congr rfl fun k _ => ?_)
  exact congrArg (· * w (ix2 k d)) ((transpose_ix2_apply (truncf (F := Ideal) (φ := .f32) .bf16 acc hb) ht r k).trans
    (truncf_apply (φ := .f32) acc hb (ix2 k r)))

/-- The product whose left factor is the transpose of a [1024, 256] strip P and whose right factor is a strip of
    weights (its float format changed): entry (k, j) sums P (r, k) · v (r, j) over the strip's rows r. -/
theorem mmC_transpose_apply (P : FVec Ideal S1024x256 .bf16) (v : Vec Ideal S1024x4096 .f32)
    (hb : FTy.bits .bf16 < FTy.bits .f32) (ht : S1024x256.Transposes [1, 0] S256x1024) (k : Fin 256) (j : Fin 4096) :
    matmul dot_S256x1024_S1024x4096_S256x4096_1_0_0_1_n_n none (transpose S256x1024 [1, 0] P ht) (truncf .bf16 v hb)
        (constant (F := Ideal) S256x4096 .f32 0x00000000#32) (ix2 k j)
      = ∑ r : Fin 1024, P (ix2 r k) * v (ix2 r j) := by
  refine (mmC_apply _ _ k j).trans (Finset.sum_congr rfl fun r _ => ?_)
  exact congrArg (· * v (ix2 r j)) (transpose_ix2_apply P ht k r)

/-- The one-bit word "the grid coordinate is 0", for a coordinate below 8. -/
theorem first_word (n : Nat) (hn : n < 8) :
    Scalar.cmpi .eq (BitVec.ofNat 32 n) 0#32 = if n = 0 then 1#1 else 0#1 := by
  interval_cases n <;> rfl

/-! ### The payloads -/

/-- relu(x·W + b) of a strip of 1024 surface rows, entry (r, k). -/
theorem pay12_apply (v3 : Vec Ideal S1024x256 .f32) (v5 : Vec Ideal S256x256 .bf16) (v8 : Vec Ideal S1x256 .f32)
    (r : Fin 1024) (k : Fin 256) :
    k0_pay12 (F := Ideal) v3 v5 v8 (ix2 r k)
      = max ((∑ l : Fin 256, v3 (ix2 r l) * v5 (ix2 l k)) + v8 (ix2 (0 : Fin 1) k)) 0 := by
  unfold k0_pay12
  simp only [truncf_apply, maximumf_apply, addf_apply, broadcast_apply, shapeCast_self]
  exact congrArg₂ max (congrArg₂ (· + ·) (mmA_apply _ _ r k) (broadcastTo_1b_ab_apply _ _ r k)) zero_word

/-- relu(x·W + b) of all 4096 graph rows, entry (j, k). -/
theorem pay11_apply (v45 : Vec Ideal S4096x256 .f32) (v47 : Vec Ideal S256x256 .bf16) (v50 : Vec Ideal S1x256 .f32)
    (j : Fin 4096) (k : Fin 256) :
    k0_pay11 (F := Ideal) v45 v47 v50 (ix2 j k)
      = max ((∑ l : Fin 256, v45 (ix2 j l) * v47 (ix2 l k)) + v50 (ix2 (0 : Fin 1) k)) 0 := by
  unfold k0_pay11
  simp only [truncf_apply, maximumf_apply, addf_apply, broadcast_apply, shapeCast_self]
  exact congrArg₂ max (congrArg₂ (· + ·) (mmB_apply _ _ j k) (broadcastTo_1b_ab_apply _ _ j k)) zero_word

/-- The transposed message accumulator after a strip, entry (k, j): the strip's contribution alone at the first
    grid point, else added to what the accumulator held. -/
theorem pay14_apply (i : grid0.Coords) (v3 : Vec Ideal S1024x256 .f32) (v5 : Vec Ideal S256x256 .bf16)
    (v8 : Vec Ideal S1x256 .f32) (v16 : Vec Ideal S1024x4096 .f32) (v19 : Vec Ideal S256x4096 .f32)
    (k : Fin 256) (j : Fin 4096) :
    k0_pay14 (F := Ideal) i v3 v5 v8 v16 v19 (ix2 k j)
      = if (i 0).val = 0 then ∑ r : Fin 1024, k0_pay12 (F := Ideal) v3 v5 v8 (ix2 r k) * v16 (ix2 r j)
        else v19 (ix2 k j) + ∑ r : Fin 1024, k0_pay12 (F := Ideal) v3 v5 v8 (ix2 r k) * v16 (ix2 r j) := by
  unfold k0_pay14 k0_pay13
  simp only [shapeCast_self, first_word _ (i 0).isLt]
  by_cases h0 : (i 0).val = 0
  · rw [if_pos h0, if_pos h0, select_one]
    exact mmC_transpose_apply _ _ _ _ k j
  · rw [if_neg h0, if_neg h0, select_zero, addf_apply]
    exact congrArg (v19 (ix2 k j) + ·) (mmC_transpose_apply _ _ _ _ k j)

/-- At the first grid point what the accumulator held does not matter. -/
theorem pay14_first {F : FTy → Type} [FloatOps F] (i : grid0.Coords) (hi : (i 0).val = 0) (v3 : Vec F S1024x256 .f32)
    (v5 : Vec F S256x256 .bf16) (v8 : Vec F S1x256 .f32) (v16 : Vec F S1024x4096 .f32) (J J' : Vec F S256x4096 .f32) :
    k0_pay14 i v3 v5 v8 v16 J = k0_pay14 i v3 v5 v8 v16 J' := by
  have hw : Scalar.cmpi .eq (BitVec.ofNat 32 (i 0).val) 0#32 = 1#1 := by rw [hi]; rfl
  unfold k0_pay14
  simp only [hw, select_one]

/-- The strip's xs_pre against the upper half of the surface post weight, entry (r, d). -/
theorem pay15_apply (v3 : Vec Ideal S1024x256 .f32) (v5 : Vec Ideal S256x256 .bf16) (v8 : Vec Ideal S1x256 .f32)
    (v27 : Vec Ideal S256x256 .bf16) (r : Fin 1024) (d : Fin 256) :
    k0_pay15 (F := Ideal) v3 v5 v8 v27 (ix2 r d)
      = ∑ k : Fin 256, k0_pay12 (F := Ideal) v3 v5 v8 (ix2 r k) * v27 (ix2 k d) := by
  unfold k0_pay15
  simp only [shapeCast_self]
  exact mmA_apply _ _ r d

/-- The strip of weights against xg_pre, entry (r, k). -/
theorem pay16_apply (v16 : Vec Ideal S1024x4096 .f32) (v25 : Vec Ideal S4096x256 .bf16) (r : Fin 1024) (k : Fin 256) :
    k0_pay16 (F := Ideal) v16 v25 (ix2 r k) = ∑ j : Fin 4096, v16 (ix2 r j) * v25 (ix2 j k) := by
  unfold k0_pay16 k0_pay13
  simp only [truncf_apply]
  exact mmD_apply _ _ r k

/-- The surface result's strip, entry (r, d). -/
theorem pay1_apply (v29 : FVec Ideal S1024x256 .f32) (v30 : FVec Ideal S1024x256 .bf16) (v31 : Vec Ideal S256x256 .bf16)
    (v35 : Vec Ideal S1x256 .f32) (r : Fin 1024) (d : Fin 256) :
    k0_pay1 (F := Ideal) v29 v30 v31 v35 (ix2 r d)
      = max ((v29 (ix2 r d) + ∑ k : Fin 256, v30 (ix2 r k) * v31 (ix2 k d)) + v35 (ix2 (0 : Fin 1) d)) 0 := by
  unfold k0_pay1
  simp only [maximumf_apply, addf_apply, broadcast_apply, shapeCast_self]
  exact congrArg₂ max (congrArg₂ (· + ·) (congrArg (v29 (ix2 r d) + ·) (mmA_apply _ _ r d))
    (broadcastTo_1b_ab_apply _ _ r d)) zero_word

/-- One tile of 1024 graph rows of the graph result, entry (r, d), from the tile's columns of the transposed
    accumulator, the tile's rows of xg_pre, the two halves of the graph post weight and its bias. -/
def tile (acc : Vec Ideal S256x1024 .f32) (xgp : Vec Ideal S1024x256 .bf16) (wga wgb : Vec Ideal S256x256 .bf16)
    (b : Vec Ideal S1x256 .f32) (r : Fin 1024) (d : Fin 256) : EReal :=
  max (((∑ k : Fin 256, xgp (ix2 r k) * wga (ix2 k d)) + (∑ k : Fin 256, acc (ix2 k r) * wgb (ix2 k d)))
    + b (ix2 (0 : Fin 1) d)) 0

theorem pay3_apply (v45 : Vec Ideal S256x1024 .f32) (v48 : Vec Ideal S1024x256 .bf16) (v49 v52 : Vec Ideal S256x256 .bf16)
    (v56 : Vec Ideal S1x256 .f32) (r : Fin 1024) (d : Fin 256) :
    k0_pay3 (F := Ideal) v45 v48 v49 v52 v56 (ix2 r d) = tile v45 v48 v49 v52 v56 r d := by
  unfold k0_pay3 tile
  simp only [maximumf_apply, addf_apply, broadcast_apply, shapeCast_self]
  exact congrArg₂ max (congrArg₂ (· + ·) (congrArg₂ (· + ·) (mmA_apply _ _ r d) (mmA_transpose_apply _ _ _ _ r d))
    (broadcastTo_1b_ab_apply _ _ r d)) zero_word

theorem pay6_apply (v63 : Vec Ideal S256x1024 .f32) (v66 : Vec Ideal S1024x256 .bf16) (v67 v70 : Vec Ideal S256x256 .bf16)
    (v74 : Vec Ideal S1x256 .f32) (r : Fin 1024) (d : Fin 256) :
    k0_pay6 (F := Ideal) (k0_pay4 (F := Ideal) v63 v66 v67 v70) (k0_pay5 (F := Ideal) v74) (ix2 r d)
      = tile v63 v66 v67 v70 v74 r d := by
  unfold k0_pay6 k0_pay4 k0_pay5 tile
  simp only [maximumf_apply, addf_apply, broadcast_apply, shapeCast_self]
  exact congrArg₂ max (congrArg₂ (· + ·) (congrArg₂ (· + ·) (mmA_apply _ _ r d) (mmA_transpose_apply _ _ _ _ r d))
    (broadcastTo_1b_ab_apply _ _ r d)) zero_word

theorem pay7_apply (v81 : Vec Ideal S256x1024 .f32) (v84 : Vec Ideal S1024x256 .bf16) (v85 v88 : Vec Ideal S256x256 .bf16)
    (v92 : Vec Ideal S1x256 .f32) (r : Fin 1024) (d : Fin 256) :
    k0_pay7 (F := Ideal) v81 v84 v85 v88 v92 (ix2 r d) = tile v81 v84 v85 v88 v92 r d := by
  unfold k0_pay7 tile
  simp only [maximumf_apply, addf_apply, broadcast_apply, shapeCast_self]
  exact congrArg₂ max (congrArg₂ (· + ·) (congrArg₂ (· + ·) (mmA_apply _ _ r d) (mmA_transpose_apply _ _ _ _ r d))
    (broadcastTo_1b_ab_apply _ _ r d)) zero_word

theorem pay2_apply (v99 : Vec Ideal S256x1024 .f32) (v102 : Vec Ideal S1024x256 .bf16) (v103 v106 : Vec Ideal S256x256 .bf16)
    (v110 : Vec Ideal S1x256 .f32) (r : Fin 1024) (d : Fin 256) :
    k0_pay2 (F := Ideal) (k0_pay8 (F := Ideal) v99) (k0_pay9 (F := Ideal) v102 v103) (k0_pay10 (F := Ideal) v106) v110 (ix2 r d)
      = tile v99 v102 v103 v106 v110 r d := by
  unfold k0_pay2 k0_pay8 k0_pay9 k0_pay10 tile
  simp only [maximumf_apply, addf_apply, broadcast_apply, shapeCast_self]
  exact congrArg₂ max (congrArg₂ (· + ·) (congrArg₂ (· + ·) (mmA_apply _ _ r d) (mmA_transpose_apply _ _ _ _ r d))
    (broadcastTo_1b_ab_apply _ _ r d)) zero_word

end Cert.Proof.Pay

end
-- ==== Proof.KI.Accum.lean ====
/-
  What the two scratch buffers hold after each grid point, read one entry at a time on the extended reals.
  xg_pre, from the first point on, is relu(x1·x5 + x6). The transposed accumulator after point n holds, at (k, j),
  the sum over the rows i of strips 0..n of xs_pre[i, k]·x2[i, j] — each point adds its strip of 1024 rows to what
  the point before left, the first point's strip standing alone — so after the last point it is the sum over all
  8192 rows, the message x2ᵀ·xs_pre at (j, k), the products commuted and the sum over rows split into eight strips.
-/
import proofs.«118744_g87900800680619_cont_9to1_m_379_24_alg».proof.Proof.KI.Data
import proofs.«118744_g87900800680619_cont_9to1_m_379_24_alg».proof.Proof.KI.Blocks
import proofs.«118744_g87900800680619_cont_9to1_m_379_24_alg».proof.Proof.KI.Host
import proofs.«118744_g87900800680619_cont_9to1_m_379_24_alg».proof.Proof.KI.Args
import proofs.«118744_g87900800680619_cont_9to1_m_379_24_alg».proof.Proof.Pay
import proofs.«118744_g87900800680619_cont_9to1_m_379_24_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.Proof.KI.Accum

open Cert.KernelIdeal Cert.KernelIdeal.Gen Cert.Proof.KI
open Idealize.ShloMosaic Idealize.ShloMosaic.TcCoe Idealize.ShloMosaic.ValueIdx Idealize.SL.Sem
open Cert.Proof.KI.Blocks (rowOf lt8)

variable (m : (ℓ : Loc nD τ sig) → Buf (Elt Ideal) ℓ) (c : Dev nD)

/-! ### A sum over the 8192 rows, strip by strip -/

/-- The part of a sum over 8192 rows that strip s of 1024 rows contributes (nothing from the ninth strip on). -/
def stripSum (f : Fin 8192 → EReal) (s : ℕ) : EReal :=
  if h : s < 8 then ∑ r : Fin 1024, f ⟨1024 * s + r.val, by have := r.isLt; omega⟩ else 0

/-- A sum over 8192 rows is the sum over eight strips of 1024 rows: row 1024·s + r is row r of strip s. -/
theorem sum_strips (f : Fin 8192 → EReal) : ∑ i : Fin 8192, f i = ∑ s ∈ Finset.range 8, stripSum f s := by
  rw [← Fin.sum_univ_eq_sum_range (fun s => stripSum f s) 8]
  have e : ∑ i : Fin 8192, f i = ∑ x : Fin 8 × Fin 1024, f (finProdFinEquiv x) :=
    (Equiv.sum_comp (finProdFinEquiv (m := 8) (n := 1024)) f).symm
  rw [e, Fintype.sum_prod_type]
  refine Finset.sum_congr rfl fun a _ => ?_
  unfold stripSum
  rw [dif_pos a.isLt]
  refine Finset.sum_congr rfl fun r _ => congrArg f (Fin.ext ?_)
  show r.val + 1024 * a.val = 1024 * a.val + r.val
  omega

/-! ### The staged blocks at a point, as the arguments' entries -/

/-- The grid coordinate of point t is t. -/
theorem coord_val : ∀ t : Fin cfg0.N, ((grid0.coords t) 0).val = t.val :=
  (by decide +kernel : ∀ t : Fin grid0.N, _)

/-- xs_pre computed from strip t's staged blocks, entry (r, k): the specification's at row 1024·t + r. -/
theorem pay12_blk (t : Fin cfg0.N) (r : Fin 1024) (k : Fin 256) :
    k0_pay12 (F := Ideal) (iblk m c 1 t) (iblk m c 3 t) (iblk m c 4 t) (ix2 r k)
      = Cert.Proof.Spec.pre (Args.A0 m c) (Args.A3 m c) (Args.A4 m c) (rowOf t r) k := by
  rw [Cert.Proof.Pay.pay12_apply]
  unfold Cert.Proof.Spec.pre
  refine congrArg₂ max (congrArg₂ (· + ·) (Finset.sum_congr rfl fun l _ => congrArg₂ (· * ·) ?_ ?_) ?_) rfl
  · exact (Blocks.blk1_apply m c t r l).trans (congrFun (Gen.V_main_arg0 m c) _)
  · exact (congrFun (Blocks.blk3_eq m c t) (ix2 l k)).trans (Host.v0_apply m c l k)
  · exact (congrFun (Blocks.blk4_eq m c t) (ix2 (0 : Fin 1) k)).trans (Host.v10_apply m c k)

/-- xg_pre computed from the staged blocks at any point, entry (j, k): the specification's. -/
theorem pay11_blk (t : Fin cfg0.N) (j : Fin 4096) (k : Fin 256) :
    k0_pay11 (F := Ideal) (iblk m c 2 t) (iblk m c 5 t) (iblk m c 6 t) (ix2 j k)
      = Cert.Proof.Spec.pre (Args.A1 m c) (Args.A5 m c) (Args.A6 m c) j k := by
  rw [Cert.Proof.Pay.pay11_apply]
  unfold Cert.Proof.Spec.pre
  refine congrArg₂ max (congrArg₂ (· + ·) (Finset.sum_congr rfl fun l _ => congrArg₂ (· * ·) ?_ ?_) ?_) rfl
  · exact (congrFun (Blocks.blk2_eq m c t) (ix2 j l)).trans (congrFun (Gen.V_main_arg1 m c) _)
  · exact (congrFun (Blocks.blk5_eq m c t) (ix2 l k)).trans (Host.v1_apply m c l k)
  · exact (congrFun (Blocks.blk6_eq m c t) (ix2 (0 : Fin 1) k)).trans (Host.v11_apply m c k)

/-- One row's term of the message to graph node j, feature k. -/
def term (k : Fin 256) (j : Fin 4096) (i : Fin 8192) : EReal :=
  Cert.Proof.Spec.pre (Args.A0 m c) (Args.A3 m c) (Args.A4 m c) i k * (Args.A2 m c) (ix2 i j)

/-- What point t adds to the transposed accumulator at (k, j): strip t's part of the message. -/
theorem strip_blk (t : Fin cfg0.N) (k : Fin 256) (j : Fin 4096) :
    ∑ r : Fin 1024, k0_pay12 (F := Ideal) (iblk m c 1 t) (iblk m c 3 t) (iblk m c 4 t) (ix2 r k)
        * (iblk m c 0 t : S1024x4096.Idx → EReal) (ix2 r j)
      = stripSum (term m c k j) t.val := by
  unfold stripSum
  rw [dif_pos (lt8 t)]
  refine Finset.sum_congr rfl fun r _ => ?_
  show _ = term m c k j (rowOf t r)
  unfold term
  exact congrArg₂ (· * ·) (pay12_blk m c t r k)
    ((Blocks.blk0_apply m c t r j).trans (congrFun (Gen.V_main_arg2 m c) _))

/-! ### The recursion -/

/-- xg_pre's scratch is what the first point stored, at every later point. -/
theorem sc1_const : ∀ (n : ℕ) (h : n < cfg0.N) (h0 : 0 < cfg0.N), (SC m c n h).1 = (SC m c 0 h0).1
  | 0, _, _ => rfl
  | n + 1, h, h0 => sc1_const n (Nat.lt_of_succ_lt h) h0

/-- The transposed accumulator after point n, entry (k, j): the strips 0..n of the message. -/
theorem sc2_apply : ∀ (n : ℕ) (h : n < cfg0.N) (k : Fin 256) (j : Fin 4096),
    ((SC m c n h).2 : S256x4096.Idx → EReal) (ix2 k j) = ∑ s ∈ Finset.range (n + 1), stripSum (term m c k j) s
  | 0, h, k, j => by
    rw [SC_zero]
    refine (Cert.Proof.Pay.pay14_apply _ _ _ _ _ _ k j).trans ?_
    rw [if_pos (coord0 h), Finset.sum_range_one]
    exact strip_blk m c ⟨0, h⟩ k j
  | n + 1, h, k, j => by
    have hc : ¬ ((grid0.coords (⟨n + 1, h⟩ : Fin cfg0.N)) 0).val = 0 := by
      rw [coord_val ⟨n + 1, h⟩]; exact Nat.succ_ne_zero n
    show k0_pay14 (F := Ideal) (grid0.coords ⟨n + 1, h⟩) (iblk m c 1 ⟨n + 1, h⟩) (iblk m c 3 ⟨n + 1, h⟩) (iblk m c 4 ⟨n + 1, h⟩)
      (iblk m c 0 ⟨n + 1, h⟩) (SC m c n (Nat.lt_of_succ_lt h)).2 (ix2 k j) = _
    refine (Cert.Proof.Pay.pay14_apply _ _ _ _ _ _ k j).trans ?_
    rw [if_neg hc, Finset.sum_range_succ _ (n + 1)]
    exact congrArg₂ (· + ·) (sc2_apply n (Nat.lt_of_succ_lt h) k j) (strip_blk m c ⟨n + 1, h⟩ k j)

/-- xg_pre in its scratch, from the first point on. -/
theorem sc1_apply (n : ℕ) (h : n < cfg0.N) (j : Fin 4096) (k : Fin 256) :
    ((SC m c n h).1 : S4096x256.Idx → EReal) (ix2 j k)
      = Cert.Proof.Spec.pre (Args.A1 m c) (Args.A5 m c) (Args.A6 m c) j k := by
  have h0 : 0 < cfg0.N := Nat.lt_of_le_of_lt (Nat.zero_le n) h
  rw [sc1_const m c n h h0, SC_zero]
  exact pay11_blk m c ⟨0, h0⟩ j k

/-- The transposed accumulator after the last point: the message to graph node j, feature k. -/
theorem sc2_last (h : 7 < cfg0.N) (k : Fin 256) (j : Fin 4096) :
    ((SC m c 7 h).2 : S256x4096.Idx → EReal) (ix2 k j)
      = Cert.Proof.Spec.msgG (Args.A0 m c) (Args.A2 m c) (Args.A3 m c) (Args.A4 m c) j k := by
  rw [sc2_apply m c 7 h k j]
  unfold Cert.Proof.Spec.msgG
  rw [← sum_strips]
  exact Finset.sum_congr rfl fun i _ => mul_comm _ _

end Cert.Proof.KI.Accum

end
-- ==== Proof.KI.Final13.lean ====
/-
  The surface result. At grid point t the body leaves in the result's buffer, at (r, d), the specification's xs at
  row 1024·t + r: the strip's xs_pre against the upper half of the post weight, the strip of weights against xg_pre
  against the lower half, the bias, the positive part. Strip t is written back to rows [1024·t, 1024·t + 1024) of the
  result array, and the eight strips cover it.
-/
import proofs.«118744_g87900800680619_cont_9to1_m_379_24_alg».proof.Proof.KI.Data
import proofs.«118744_g87900800680619_cont_9to1_m_379_24_alg».proof.Proof.KI.Blocks
import proofs.«118744_g87900800680619_cont_9to1_m_379_24_alg».proof.Proof.KI.Host
import proofs.«118744_g87900800680619_cont_9to1_m_379_24_alg».proof.Proof.KI.Args
import proofs.«118744_g87900800680619_cont_9to1_m_379_24_alg».proof.Proof.KI.Accum
import proofs.«118744_g87900800680619_cont_9to1_m_379_24_alg».proof.Proof.Pay
import proofs.«118744_g87900800680619_cont_9to1_m_379_24_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.Proof.KI.Final13

open Cert.KernelIdeal Cert.KernelIdeal.Gen Cert.Proof.KI
open Idealize.ShloMosaic Idealize.ShloMosaic.TcCoe Idealize.ShloMosaic.ValueIdx Idealize.SL.Sem
open Cert.Proof.KI.Blocks (rowOf lt8)

variable (m : (ℓ : Loc nD τ sig) → Buf (Elt Ideal) ℓ) (c : Dev nD)

/-- The strip payload at (r, d), over any operands: the strip's xs_pre against the upper weight, plus the strip of
    weights against the scratch against the lower weight, plus the bias row, positive part. -/
theorem strip_apply (x1 : Vec Ideal S1024x4096 .f32) (x2 : Vec Ideal S1024x256 .f32) (x4 : Vec Ideal S256x256 .bf16)
    (x5 : Vec Ideal S1x256 .f32) (x8 x9 : Vec Ideal S256x256 .bf16) (x10 : Vec Ideal S1x256 .f32)
    (s0 : Vec Ideal S4096x256 .bf16) (r : Fin 1024) (d : Fin 256) :
    OUT13 (F := Ideal) x1 x2 x4 x5 x8 x9 x10 s0 (ix2 r d)
      = max (((∑ k : Fin 256, k0_pay12 (F := Ideal) x2 x4 x5 (ix2 r k) * x8 (ix2 k d))
          + ∑ k : Fin 256, (∑ j : Fin 4096, x1 (ix2 r j) * s0 (ix2 j k)) * x9 (ix2 k d)) + x10 (ix2 (0 : Fin 1) d)) 0 := by
  unfold OUT13
  rw [Cert.Proof.Pay.pay1_apply, Cert.Proof.Pay.pay15_apply]
  simp only [Cert.Proof.Pay.pay16_apply]

/-- What point t leaves in the surface result's buffer, entry (r, d). -/
theorem out13_apply (t : Fin cfg0.N) (r : Fin 1024) (d : Fin 256) :
    ((dats m 0 c).after 13 t : S1024x256.Idx → EReal) (ix2 r d)
      = Cert.Proof.Spec.xs (Args.A0 m c) (Args.A1 m c) (Args.A2 m c) (Args.A3 m c) (Args.A4 m c) (Args.A5 m c) (Args.A6 m c) (Args.A7 m c) (Args.A8 m c) (rowOf t r) d := by
  rw [after13]
  refine (strip_apply _ _ _ _ _ _ _ _ r d).trans ?_
  unfold Cert.Proof.Spec.xs Cert.Proof.Spec.msgS
  refine congrArg₂ max (congrArg₂ (· + ·) (congrArg₂ (· + ·)
      (Finset.sum_congr rfl fun k _ => congrArg₂ (· * ·) (Accum.pay12_blk m c t r k) ?_)
      (Finset.sum_congr rfl fun k _ => congrArg₂ (· * ·)
        (Finset.sum_congr rfl fun j _ => congrArg₂ (· * ·) ?_ ?_) ?_)) ?_) rfl
  · exact (congrFun (Blocks.blk7_eq m c t) (ix2 k d)).trans (Host.v3_apply m c k d)
  · exact (Blocks.blk0_apply m c t r j).trans (congrFun (Gen.V_main_arg2 m c) _)
  · exact Accum.sc1_apply m c t.val t.isLt j k
  · exact (congrFun (Blocks.blk8_eq m c t) (ix2 k d)).trans (Host.v5_apply m c k d)
  · exact (congrFun (Blocks.blk9_eq m c t) (ix2 (0 : Fin 1) d)).trans (Host.v12_apply m c d)

/-- The result window's block index at point t is (t, 0). -/
theorem out_index : ∀ t : Fin cfg0.N, win0_13.index t (0 : Fin 2) = t.val ∧ win0_13.index t (1 : Fin 2) = 0 :=
  (by decide +kernel : ∀ t : Fin grid0.N, _)

/-- What point t writes back is rows [1024·t, 1024·t + 1024) of the specification's array. -/
theorem flushed_eq (t : Fin cfg0.N) :
    (dats m 0 c).flushed 13 t = ((cfg0.win 13).blk t).view.read (Elt Ideal)
      (Cert.Proof.Spec.xsArr (Args.A0 m c) (Args.A1 m c) (Args.A2 m c) (Args.A3 m c) (Args.A4 m c) (Args.A5 m c) (Args.A6 m c) (Args.A7 m c) (Args.A8 m c)) := by
  show (cfg0.win 13).cut (grid0.coords t) ((dats m 0 c).after 13 t) = _
  funext j
  obtain ⟨r, d, rfl⟩ : ∃ (r : Fin 1024) (d : Fin 256), j = ix2 r d := ⟨j 0, j 1, eq_ix2 j⟩
  obtain ⟨e0, e1⟩ := out_index t
  have he : ((cfg0.win 13).blk t).view.emb (ix2 r d) = ix2 (rowOf t r) d := funext fun a => Fin.ext (by
    match a with
    | ⟨0, _⟩ => show win0_13.index t (0 : Fin 2) * 1024 + 1 * r.val = 1024 * t.val + r.val; omega
    | ⟨1, _⟩ => show win0_13.index t (1 : Fin 2) * 256 + 1 * d.val = d.val; omega)
  show ((dats m 0 c).after 13 t : S1024x256.Idx → EReal) (ix2 r d)
    = Cert.Proof.Spec.xsArr (Args.A0 m c) (Args.A1 m c) (Args.A2 m c) (Args.A3 m c) (Args.A4 m c) (Args.A5 m c) (Args.A6 m c) (Args.A7 m c) (Args.A8 m c) (((cfg0.win 13).blk t).view.emb (ix2 r d))
  rw [he, Cert.Proof.Spec.xsArr_apply]
  exact out13_apply m c t r d

/-- An index of the result array is in point t's block iff each coordinate is in the block's range on its axis. -/
theorem mem_blk (t : Fin cfg0.N) (i : S8192x256.Idx) :
    i ∈ ((cfg0.win 13).blk t).view.set ↔ ∀ a : Fin 2, win0_13.index t a * S1024x256.size a ≤ (i a).val
      ∧ (i a).val < win0_13.index t a * S1024x256.size a + S1024x256.size a := by
  show i ∈ ((View.whole main_v14_0).slice (win0_13.rect t)).set ↔ _
  rw [View.set_slice_whole, Rect.mem_set_unit]
  exact Iff.rfl

/-- Row i of the result lies in the strip of point i / 1024, which writes it back. -/
theorem cover (i : S8192x256.Idx) :
    ∃ t : Fin cfg0.N, (cfg0.win 13).flush t = true ∧ i ∈ ((cfg0.win 13).blk t).view.set := by
  have hi0 : (i 0).val < 8192 := (i 0).isLt
  have hi1 : (i 1).val < 256 := (i 1).isLt
  have hN : cfg0.N = 8 := N_0
  let t : Fin cfg0.N := ⟨(i 0).val / 1024, by omega⟩
  obtain ⟨e0, e1⟩ := out_index t
  have ht : t.val = (i 0).val / 1024 := rfl
  refine ⟨t, flush0_13 t, ?_⟩
  rw [mem_blk]
  intro a
  match a with
  | ⟨0, _⟩ => show win0_13.index t (0 : Fin 2) * 1024 ≤ (i 0).val ∧ (i 0).val < win0_13.index t (0 : Fin 2) * 1024 + 1024; omega
  | ⟨1, _⟩ => show win0_13.index t (1 : Fin 2) * 256 ≤ (i 1).val ∧ (i 1).val < win0_13.index t (1 : Fin 2) * 256 + 256; omega

/-- The surface result's array after the run is the specification's. -/
theorem xs_final : ((dats m 0 c).arrAt 13 cfg0.N : S8192x256.Idx → EReal)
      = Cert.Proof.Spec.xsArr (Args.A0 m c) (Args.A1 m c) (Args.A2 m c) (Args.A3 m c) (Args.A4 m c) (Args.A5 m c) (Args.A6 m c) (Args.A7 m c) (Args.A8 m c) := by
  exact (dats m 0 c).arrAt_eq_of_cover 13 _ (fun t _ => flushed_eq m c t) cover

end Cert.Proof.KI.Final13

end
-- ==== Proof.KI.Final14.lean ====
/-
  The graph result. The last grid point leaves in the result's buffer, tile by tile of 1024 rows, at (j, d): the
  rows' xg_pre against the upper half of the post weight, the finished transposed accumulator's column j — the
  message x2ᵀ·xs_pre at row j — against the lower half, the bias, the positive part: the specification's xg. That
  buffer is the whole result array, written back once, after the last point.
-/
import proofs.«118744_g87900800680619_cont_9to1_m_379_24_alg».proof.Proof.KI.Data
import proofs.«118744_g87900800680619_cont_9to1_m_379_24_alg».proof.Proof.KI.Blocks
import proofs.«118744_g87900800680619_cont_9to1_m_379_24_alg».proof.Proof.KI.Host
import proofs.«118744_g87900800680619_cont_9to1_m_379_24_alg».proof.Proof.KI.Args
import proofs.«118744_g87900800680619_cont_9to1_m_379_24_alg».proof.Proof.KI.Accum
import proofs.«118744_g87900800680619_cont_9to1_m_379_24_alg».proof.Proof.Pay
import proofs.«118744_g87900800680619_cont_9to1_m_379_24_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.Proof.KI.Final14

open Cert.KernelIdeal Cert.KernelIdeal.Gen Cert.Proof.KI
open Idealize.ShloMosaic Idealize.ShloMosaic.TcCoe Idealize.ShloMosaic.ValueIdx Idealize.SL.Sem
open Cert.Proof.KI.Blocks (rowOf lt8)

variable (m : (ℓ : Loc nD τ sig) → Buf (Elt Ideal) ℓ) (c : Dev nD)

/-- One tile of 1024 rows of the graph result at the last point, entry (r, d) of the tile at row offset o: the
    tile's rows of xg_pre against the upper half of the post weight, the finished accumulator's columns o + r against
    the lower half, the bias, the positive part — the specification's xg at row o + r. -/
theorem tile_xg (t : Fin cfg0.N) (ht : t.val = 7) (o : ℕ) (ho : o + 1024 ≤ 4096)
    (inbS : ∀ a, (![o, 0] : Fin 2 → ℕ) a + S1024x256.size a ≤ S4096x256.size a)
    (inbA : ∀ a, (![0, o] : Fin 2 → ℕ) a + S256x1024.size a ≤ S256x4096.size a)
    (r : Fin 1024) (d : Fin 256) :
    Pay.tile (View.ld (SC m c t.val t.isLt).2 (Rect.unit (s := S256x4096) ![0, o] S256x1024.size inbA))
        (View.ld (SC m c t.val t.isLt).1 (Rect.unit (s := S4096x256) ![o, 0] S1024x256.size inbS))
        (iblk m c 10 t) (iblk m c 11 t) (iblk m c 12 t) r d
      = Cert.Proof.Spec.xgArr (Args.A0 m c) (Args.A1 m c) (Args.A2 m c) (Args.A3 m c) (Args.A4 m c) (Args.A5 m c) (Args.A6 m c) (Args.A9 m c) (Args.A10 m c)
          ((Rect.unit (s := S4096x256) ![o, 0] S1024x256.size inbS).emb (ix2 r d)) := by
  have h1 : ∀ (j : Fin 4096) (k : Fin 256), ((SC m c t.val t.isLt).1 : S4096x256.Idx → EReal) (ix2 j k)
      = Cert.Proof.Spec.pre (Args.A1 m c) (Args.A5 m c) (Args.A6 m c) j k := fun j k => Accum.sc1_apply m c t.val t.isLt j k
  have h2 : ∀ (k : Fin 256) (j : Fin 4096), ((SC m c t.val t.isLt).2 : S256x4096.Idx → EReal) (ix2 k j)
      = Cert.Proof.Spec.msgG (Args.A0 m c) (Args.A2 m c) (Args.A3 m c) (Args.A4 m c) j k := by
    obtain ⟨n, hn⟩ := t
    obtain rfl : n = 7 := ht
    exact fun k j => Accum.sc2_last m c hn k j
  rw [Blocks.blk10_eq, Blocks.blk11_eq, Blocks.blk12_eq]
  generalize SC m c t.val t.isLt = sc at h1 h2 ⊢
  have hj : o + r.val < 4096 := by have := r.isLt; omega
  have hidx : (Rect.unit (s := S4096x256) ![o, 0] S1024x256.size inbS).emb (ix2 r d) = ix2 (⟨o + r.val, hj⟩ : Fin 4096) d := by
    funext a; apply Fin.ext
    match a with
    | ⟨0, _⟩ => show o + 1 * r.val = o + r.val; omega
    | ⟨1, _⟩ => show 0 + 1 * d.val = d.val; omega
  rw [hidx, Cert.Proof.Spec.xgArr_apply]
  unfold Pay.tile Cert.Proof.Spec.xg
  refine congrArg₂ max (congrArg₂ (· + ·) (congrArg₂ (· + ·) (Finset.sum_congr rfl fun k _ => ?_) (Finset.sum_congr rfl fun k _ => ?_)) ?_) rfl
  · refine congrArg₂ (· * ·) ?_ (Host.v7_apply m c k d)
    have e : (Rect.unit (s := S4096x256) ![o, 0] S1024x256.size inbS).idx (ix2 r k) = ix2 (⟨o + r.val, hj⟩ : Fin 4096) k := by
      funext a; apply Fin.ext
      match a with
      | ⟨0, _⟩ => show o + 1 * r.val = o + r.val; omega
      | ⟨1, _⟩ => show 0 + 1 * k.val = k.val; omega
    exact (congrArg sc.1 e).trans (h1 _ k)
  · refine congrArg₂ (· * ·) ?_ (Host.v9_apply m c k d)
    have e : (Rect.unit (s := S256x4096) ![0, o] S256x1024.size inbA).idx (ix2 k r) = ix2 k (⟨o + r.val, hj⟩ : Fin 4096) := by
      funext a; apply Fin.ext
      match a with
      | ⟨0, _⟩ => show 0 + 1 * k.val = k.val; omega
      | ⟨1, _⟩ => show o + 1 * r.val = o + r.val; omega
    exact (congrArg sc.2 e).trans (h2 k _)
  · exact Host.v13_apply m c d

/-- What the last point leaves in the graph result's buffer, entry (j, d). -/
theorem out14_apply (t : Fin cfg0.N) (ht : t.val = 7) (j : Fin 4096) (d : Fin 256) :
    ((dats m 0 c).after 14 t : S4096x256.Idx → EReal) (ix2 j d)
      = Cert.Proof.Spec.xg (Args.A0 m c) (Args.A1 m c) (Args.A2 m c) (Args.A3 m c) (Args.A4 m c) (Args.A5 m c) (Args.A6 m c) (Args.A9 m c) (Args.A10 m c) j d := by
  rw [after14]; unfold OUT14
  -- every one of the four tiles is a block of one function of the array index, the specification's array
  refine (View.canon_apply_of_pieces (Cert.Proof.Spec.xgArr (Args.A0 m c) (Args.A1 m c) (Args.A2 m c) (Args.A3 m c) (Args.A4 m c) (Args.A5 m c) (Args.A6 m c) (Args.A9 m c) (Args.A10 m c)) _ ?_ (ix2 j d) ?_).trans
    (Cert.Proof.Spec.xgArr_apply _ _ _ _ _ _ _ _ _ j d)
  swap
  · exact View.cover_of_tiled (s := S4096x256) _ S1024x256.size (by rfl) _
  intro p hp
  simp only [List.mem_cons, List.not_mem_nil, or_false] at hp
  rcases hp with rfl | rfl | rfl | rfl
  · intro x
    obtain ⟨r, d', rfl⟩ : ∃ (r : Fin 1024) (d' : Fin 256), x = ix2 r d' := ⟨x 0, x 1, eq_ix2 x⟩
    exact (Pay.pay2_apply _ _ _ _ _ r d').trans (tile_xg m c t ht 3072 (by omega) _ _ r d')
  · intro x
    obtain ⟨r, d', rfl⟩ : ∃ (r : Fin 1024) (d' : Fin 256), x = ix2 r d' := ⟨x 0, x 1, eq_ix2 x⟩
    exact (Pay.pay7_apply _ _ _ _ _ r d').trans (tile_xg m c t ht 2048 (by omega) _ _ r d')
  · intro x
    obtain ⟨r, d', rfl⟩ : ∃ (r : Fin 1024) (d' : Fin 256), x = ix2 r d' := ⟨x 0, x 1, eq_ix2 x⟩
    exact (Pay.pay6_apply _ _ _ _ _ r d').trans (tile_xg m c t ht 1024 (by omega) _ _ r d')
  · intro x
    obtain ⟨r, d', rfl⟩ : ∃ (r : Fin 1024) (d' : Fin 256), x = ix2 r d' := ⟨x 0, x 1, eq_ix2 x⟩
    exact (Pay.pay3_apply _ _ _ _ _ r d').trans (tile_xg m c t ht 0 (by omega) _ _ r d')

/-- The graph result's window is over its whole array: at the last point its block index is (0, 0). -/
theorem whole_index_14 : win0_14.index t0_7 (0 : Fin 2) = 0 ∧ win0_14.index t0_7 (1 : Fin 2) = 0 := by decide +kernel

/-- The graph result's array after the run is the specification's. -/
theorem xg_final : ((dats m 0 c).arrAt 14 cfg0.N : S4096x256.Idx → EReal)
      = Cert.Proof.Spec.xgArr (Args.A0 m c) (Args.A1 m c) (Args.A2 m c) (Args.A3 m c) (Args.A4 m c) (Args.A5 m c) (Args.A6 m c) (Args.A9 m c) (Args.A10 m c) := by
  -- the last of the eight points writes the whole array back, whatever it held before
  refine (congrArg ((dats m 0 c).arrAt 14) (show cfg0.N = t0_7.val + 1 from rfl)).trans ?_
  rw [(dats m 0 c).arrAt_succ 14 t0_7, if_pos ((flush0_14 t0_7).mpr rfl)]
  obtain ⟨e0, e1⟩ := whole_index_14
  have hz : (fun a => (win0_14.index t0_7) a * main_v14_1.ty.shape.size a) = fun _ => 0 := funext fun a => by
    match a with
    | ⟨0, _⟩ => show win0_14.index t0_7 (0 : Fin 2) * 4096 = 0; omega
    | ⟨1, _⟩ => show win0_14.index t0_7 (1 : Fin 2) * 256 = 0; omega
  refine (Memref.write_access_unit_zero_univ (Elt Ideal) main_v14_1 hz _ _ _).trans ?_
  funext y
  obtain ⟨j, d, rfl⟩ : ∃ (j : Fin 4096) (d : Fin 256), y = ix2 j d := ⟨y 0, y 1, eq_ix2 y⟩
  exact (out14_apply m c t0_7 rfl j d).trans (Cert.Proof.Spec.xgArr_apply _ _ _ _ _ _ _ _ _ j d).symm

end Cert.Proof.KI.Final14

end
-- ==== Proof.RefValue.lean ====
/-
  The reference's two results are the specification's two arrays: each stage of the reference read at an index
  (a matrix product a finite sum of products, a bias row broadcast down the rows, the positive part), and the
  contraction over the 512 columns of a concatenation split into the sums over its two halves of 256.
-/
import proofs.«118744_g87900800680619_cont_9to1_m_379_24_alg».proof.Proof.Gen.ReferenceIdeal.Read
import proofs.«118744_g87900800680619_cont_9to1_m_379_24_alg».proof.Proof.Spec

noncomputable section

open scoped BigOperators

namespace Cert.Proof.RefValue

open Cert.ReferenceIdeal Cert.ReferenceIdeal.Gen Cert.ReferenceIdeal.Read
open Idealize.ShloMosaic Idealize.ShloMosaic.ValueIdx

/-- The relu's zero word is the number zero. -/
theorem zero_word : (FloatOps.ofBits (F := Ideal) .f32 0x00000000#32) = (0 : EReal) := by
  rw [Ideal.ofBits_def, Ideal.ofBits_zero_f32]

/-- A sum over 512 rows is the sum over the upper 256 plus the sum over the lower 256. -/
theorem sum_halves (f : Fin 512 → EReal) :
    ∑ c : Fin 512, f c = (∑ k : Fin 256, f (Cert.Proof.Spec.lo k)) + ∑ k : Fin 256, f (Cert.Proof.Spec.hi k) :=
  Fin.sum_univ_add (a := 256) (b := 256) f

/-- xs_pre: entry (i, k) of relu(x0·x3 + x4). -/
theorem pre_surface (x0 : (⟨S8192x256, .f32⟩ : BufTy).Contents (Elt Ideal)) (x3 : (⟨S256x256, .f32⟩ : BufTy).Contents (Elt Ideal))
    (x4 : (⟨S256, .f32⟩ : BufTy).Contents (Elt Ideal)) (i : Fin 8192) (k : Fin 256) :
    val_main_v4 (F := Ideal) x0 x3 x4 (ix2 i k) = Cert.Proof.Spec.pre x0 x3 x4 i k := by
  rw [val_main_v4_apply, val_main_v3_apply, val_main_v0_apply, val_main_v2_apply, val_main_v1_apply,
    val_main_call0_v0_apply, val_main_call0_cst_apply]
  have el : ∀ l : Fin 256, lidx_main_v0 (ix2 i k) l = ix2 i l := fun l => funext fun a => Fin.ext (by
    match a with
    | ⟨0, _⟩ => rfl
    | ⟨1, _⟩ => rfl)
  have er : ∀ l : Fin 256, ridx_main_v0 (ix2 i k) l = ix2 l k := fun l => funext fun a => Fin.ext (by
    match a with
    | ⟨0, _⟩ => rfl
    | ⟨1, _⟩ => rfl)
  have eb : idx_main_v1 (idx_main_v2 (ix2 i k)) = ix1 k := funext fun a => Fin.ext (by
    match a with
    | ⟨0, _⟩ => rfl)
  simp only [el, er, eb, Ideal.maximumf_def, Ideal.addf_def, zero_word]
  rfl

/-- xg_pre: entry (j, k) of relu(x1·x5 + x6). -/
theorem pre_graph (x1 : (⟨S4096x256, .f32⟩ : BufTy).Contents (Elt Ideal)) (x5 : (⟨S256x256, .f32⟩ : BufTy).Contents (Elt Ideal))
    (x6 : (⟨S256, .f32⟩ : BufTy).Contents (Elt Ideal)) (j : Fin 4096) (k : Fin 256) :
    val_main_v9 (F := Ideal) x1 x5 x6 (ix2 j k) = Cert.Proof.Spec.pre x1 x5 x6 j k := by
  rw [val_main_v9_apply, val_main_v8_apply, val_main_v5_apply, val_main_v7_apply, val_main_v6_apply,
    val_main_call1_v0_apply, val_main_call1_cst_apply]
  have el : ∀ l : Fin 256, lidx_main_v5 (ix2 j k) l = ix2 j l := fun l => funext fun a => Fin.ext (by
    match a with
    | ⟨0, _⟩ => rfl
    | ⟨1, _⟩ => rfl)
  have er : ∀ l : Fin 256, ridx_main_v5 (ix2 j k) l = ix2 l k := fun l => funext fun a => Fin.ext (by
    match a with
    | ⟨0, _⟩ => rfl
    | ⟨1, _⟩ => rfl)
  have eb : idx_main_v6 (idx_main_v7 (ix2 j k)) = ix1 k := funext fun a => Fin.ext (by
    match a with
    | ⟨0, _⟩ => rfl)
  simp only [el, er, eb, Ideal.maximumf_def, Ideal.addf_def, zero_word]
  rfl

/-- x2·xg_pre: entry (i, k) is row i of the weights against column k of xg_pre. -/
theorem msg_surface (x1 : (⟨S4096x256, .f32⟩ : BufTy).Contents (Elt Ideal)) (x2 : (⟨S8192x4096, .f32⟩ : BufTy).Contents (Elt Ideal))
    (x5 : (⟨S256x256, .f32⟩ : BufTy).Contents (Elt Ideal)) (x6 : (⟨S256, .f32⟩ : BufTy).Contents (Elt Ideal))
    (i : Fin 8192) (k : Fin 256) :
    val_main_v10 (F := Ideal) x1 x2 x5 x6 (ix2 i k) = Cert.Proof.Spec.msgS x1 x2 x5 x6 i k := by
  rw [val_main_v10_apply]
  have el : ∀ j : Fin 4096, lidx_main_v10 (ix2 i k) j = ix2 i j := fun j => funext fun a => Fin.ext (by
    match a with
    | ⟨0, _⟩ => rfl
    | ⟨1, _⟩ => rfl)
  have er : ∀ j : Fin 4096, ridx_main_v10 (ix2 i k) j = ix2 j k := fun j => funext fun a => Fin.ext (by
    match a with
    | ⟨0, _⟩ => rfl
    | ⟨1, _⟩ => rfl)
  simp only [el, er, pre_graph]
  rfl

/-- x2ᵀ·xs_pre: entry (j, k) is column j of the weights against column k of xs_pre. -/
theorem msg_graph (x0 : (⟨S8192x256, .f32⟩ : BufTy).Contents (Elt Ideal)) (x2 : (⟨S8192x4096, .f32⟩ : BufTy).Contents (Elt Ideal))
    (x3 : (⟨S256x256, .f32⟩ : BufTy).Contents (Elt Ideal)) (x4 : (⟨S256, .f32⟩ : BufTy).Contents (Elt Ideal))
    (j : Fin 4096) (k : Fin 256) :
    val_main_v12 (F := Ideal) x0 x2 x3 x4 (ix2 j k) = Cert.Proof.Spec.msgG x0 x2 x3 x4 j k := by
  rw [val_main_v12_apply]
  have el : ∀ i : Fin 8192, idx_main_v11 (lidx_main_v12 (ix2 j k) i) = ix2 i j := fun i => funext fun a => Fin.ext (by
    match a with
    | ⟨0, _⟩ => rfl
    | ⟨1, _⟩ => rfl)
  have er : ∀ i : Fin 8192, ridx_main_v12 (ix2 j k) i = ix2 i k := fun i => funext fun a => Fin.ext (by
    match a with
    | ⟨0, _⟩ => rfl
    | ⟨1, _⟩ => rfl)
  simp only [val_main_v11_apply, el, er, pre_surface]
  rfl

/-- Column k of the upper half of the surface concatenation is column k of xs_pre. -/
theorem cat_surface_lo (x0 : (⟨S8192x256, .f32⟩ : BufTy).Contents (Elt Ideal)) (x1 : (⟨S4096x256, .f32⟩ : BufTy).Contents (Elt Ideal))
    (x2 : (⟨S8192x4096, .f32⟩ : BufTy).Contents (Elt Ideal)) (x3 : (⟨S256x256, .f32⟩ : BufTy).Contents (Elt Ideal))
    (x4 : (⟨S256, .f32⟩ : BufTy).Contents (Elt Ideal)) (x5 : (⟨S256x256, .f32⟩ : BufTy).Contents (Elt Ideal))
    (x6 : (⟨S256, .f32⟩ : BufTy).Contents (Elt Ideal)) (i : Fin 8192) (k : Fin 256) :
    val_main_v13 (F := Ideal) x0 x1 x2 x3 x4 x5 x6 (ix2 i (Cert.Proof.Spec.lo k))
      = val_main_v4 (F := Ideal) x0 x3 x4 (ix2 i k) := by
  unfold val_main_v13
  generalize val_main_v4 (F := Ideal) x0 x3 x4 = u
  generalize val_main_v10 (F := Ideal) x1 x2 x5 x6 = w
  exact concatenate_pair_apply_left 1 u w concatenates_S8192x256_S8192x256_S8192x512_d1 (ix2 i (Cert.Proof.Spec.lo k)) rfl
    (ix2 i k) (fun b => match b with
      | ⟨0, _⟩ => rfl
      | ⟨1, _⟩ => rfl)

/-- Column k of the lower half of the surface concatenation is column k of x2·xg_pre. -/
theorem cat_surface_hi (x0 : (⟨S8192x256, .f32⟩ : BufTy).Contents (Elt Ideal)) (x1 : (⟨S4096x256, .f32⟩ : BufTy).Contents (Elt Ideal))
    (x2 : (⟨S8192x4096, .f32⟩ : BufTy).Contents (Elt Ideal)) (x3 : (⟨S256x256, .f32⟩ : BufTy).Contents (Elt Ideal))
    (x4 : (⟨S256, .f32⟩ : BufTy).Contents (Elt Ideal)) (x5 : (⟨S256x256, .f32⟩ : BufTy).Contents (Elt Ideal))
    (x6 : (⟨S256, .f32⟩ : BufTy).Contents (Elt Ideal)) (i : Fin 8192) (k : Fin 256) :
    val_main_v13 (F := Ideal) x0 x1 x2 x3 x4 x5 x6 (ix2 i (Cert.Proof.Spec.hi k))
      = val_main_v10 (F := Ideal) x1 x2 x5 x6 (ix2 i k) := by
  unfold val_main_v13
  generalize val_main_v4 (F := Ideal) x0 x3 x4 = u
  generalize val_main_v10 (F := Ideal) x1 x2 x5 x6 = w
  exact concatenate_pair_apply_right 1 u w concatenates_S8192x256_S8192x256_S8192x512_d1 (ix2 i (Cert.Proof.Spec.hi k)) rfl rfl
    (ix2 i k) (fun b => match b with
      | ⟨0, _⟩ => fun _ => rfl
      | ⟨1, _⟩ => fun h => absurd rfl h)
    (by show k.val + 256 = 256 + k.val; omega)

/-- Column k of the upper half of the graph concatenation is column k of xg_pre. -/
theorem cat_graph_lo (x0 : (⟨S8192x256, .f32⟩ : BufTy).Contents (Elt Ideal)) (x1 : (⟨S4096x256, .f32⟩ : BufTy).Contents (Elt Ideal))
    (x2 : (⟨S8192x4096, .f32⟩ : BufTy).Contents (Elt Ideal)) (x3 : (⟨S256x256, .f32⟩ : BufTy).Contents (Elt Ideal))
    (x4 : (⟨S256, .f32⟩ : BufTy).Contents (Elt Ideal)) (x5 : (⟨S256x256, .f32⟩ : BufTy).Contents (Elt Ideal))
    (x6 : (⟨S256, .f32⟩ : BufTy).Contents (Elt Ideal)) (j : Fin 4096) (k : Fin 256) :
    val_main_v19 (F := Ideal) x0 x1 x2 x3 x4 x5 x6 (ix2 j (Cert.Proof.Spec.lo k))
      = val_main_v9 (F := Ideal) x1 x5 x6 (ix2 j k) := by
  unfold val_main_v19
  generalize val_main_v9 (F := Ideal) x1 x5 x6 = u
  generalize val_main_v12 (F := Ideal) x0 x2 x3 x4 = w
  exact concatenate_pair_apply_left 1 u w concatenates_S4096x256_S4096x256_S4096x512_d1 (ix2 j (Cert.Proof.Spec.lo k)) rfl
    (ix2 j k) (fun b => match b with
      | ⟨0, _⟩ => rfl
      | ⟨1, _⟩ => rfl)

/-- Column k of the lower half of the graph concatenation is column k of x2ᵀ·xs_pre. -/
theorem cat_graph_hi (x0 : (⟨S8192x256, .f32⟩ : BufTy).Contents (Elt Ideal)) (x1 : (⟨S4096x256, .f32⟩ : BufTy).Contents (Elt Ideal))
    (x2 : (⟨S8192x4096, .f32⟩ : BufTy).Contents (Elt Ideal)) (x3 : (⟨S256x256, .f32⟩ : BufTy).Contents (Elt Ideal))
    (x4 : (⟨S256, .f32⟩ : BufTy).Contents (Elt Ideal)) (x5 : (⟨S256x256, .f32⟩ : BufTy).Contents (Elt Ideal))
    (x6 : (⟨S256, .f32⟩ : BufTy).Contents (Elt Ideal)) (j : Fin 4096) (k : Fin 256) :
    val_main_v19 (F := Ideal) x0 x1 x2 x3 x4 x5 x6 (ix2 j (Cert.Proof.Spec.hi k))
      = val_main_v12 (F := Ideal) x0 x2 x3 x4 (ix2 j k) := by
  unfold val_main_v19
  generalize val_main_v9 (F := Ideal) x1 x5 x6 = u
  generalize val_main_v12 (F := Ideal) x0 x2 x3 x4 = w
  exact concatenate_pair_apply_right 1 u w concatenates_S4096x256_S4096x256_S4096x512_d1 (ix2 j (Cert.Proof.Spec.hi k)) rfl rfl
    (ix2 j k) (fun b => match b with
      | ⟨0, _⟩ => fun _ => rfl
      | ⟨1, _⟩ => fun h => absurd rfl h)
    (by show k.val + 256 = 256 + k.val; omega)

theorem ref_xs (x0 : (⟨S8192x256, .f32⟩ : BufTy).Contents (Elt Ideal)) (x1 : (⟨S4096x256, .f32⟩ : BufTy).Contents (Elt Ideal))
    (x2 : (⟨S8192x4096, .f32⟩ : BufTy).Contents (Elt Ideal)) (x3 : (⟨S256x256, .f32⟩ : BufTy).Contents (Elt Ideal))
    (x4 : (⟨S256, .f32⟩ : BufTy).Contents (Elt Ideal)) (x5 : (⟨S256x256, .f32⟩ : BufTy).Contents (Elt Ideal))
    (x6 : (⟨S256, .f32⟩ : BufTy).Contents (Elt Ideal)) (x7 : (⟨S512x256, .f32⟩ : BufTy).Contents (Elt Ideal))
    (x8 : (⟨S256, .f32⟩ : BufTy).Contents (Elt Ideal)) :
    val_main_v18 (F := Ideal) x0 x1 x2 x3 x4 x5 x6 x7 x8 = Cert.Proof.Spec.xsArr x0 x1 x2 x3 x4 x5 x6 x7 x8 := by
  funext idx
  obtain ⟨i, d, rfl⟩ : ∃ (i : Fin 8192) (d : Fin 256), idx = ix2 i d := ⟨idx 0, idx 1, eq_ix2 idx⟩
  rw [Cert.Proof.Spec.xsArr_apply, val_main_v18_apply, val_main_v17_apply, val_main_v14_apply, val_main_v16_apply,
    val_main_v15_apply, val_main_call2_v0_apply, val_main_call2_cst_apply]
  have el : ∀ c : Fin 512, lidx_main_v14 (ix2 i d) c = ix2 i c := fun c => funext fun a => Fin.ext (by
    match a with
    | ⟨0, _⟩ => rfl
    | ⟨1, _⟩ => rfl)
  have er : ∀ c : Fin 512, ridx_main_v14 (ix2 i d) c = ix2 c d := fun c => funext fun a => Fin.ext (by
    match a with
    | ⟨0, _⟩ => rfl
    | ⟨1, _⟩ => rfl)
  have eb : idx_main_v15 (idx_main_v16 (ix2 i d)) = ix1 d := funext fun a => Fin.ext (by
    match a with
    | ⟨0, _⟩ => rfl)
  simp only [el, er, eb, Ideal.maximumf_def, Ideal.addf_def, zero_word]
  rw [sum_halves]
  simp only [cat_surface_lo, cat_surface_hi, pre_surface, msg_surface]
  rfl

theorem ref_xg (x0 : (⟨S8192x256, .f32⟩ : BufTy).Contents (Elt Ideal)) (x1 : (⟨S4096x256, .f32⟩ : BufTy).Contents (Elt Ideal))
    (x2 : (⟨S8192x4096, .f32⟩ : BufTy).Contents (Elt Ideal)) (x3 : (⟨S256x256, .f32⟩ : BufTy).Contents (Elt Ideal))
    (x4 : (⟨S256, .f32⟩ : BufTy).Contents (Elt Ideal)) (x5 : (⟨S256x256, .f32⟩ : BufTy).Contents (Elt Ideal))
    (x6 : (⟨S256, .f32⟩ : BufTy).Contents (Elt Ideal)) (x9 : (⟨S512x256, .f32⟩ : BufTy).Contents (Elt Ideal))
    (x10 : (⟨S256, .f32⟩ : BufTy).Contents (Elt Ideal)) :
    val_main_v24 (F := Ideal) x0 x1 x2 x3 x4 x5 x6 x9 x10 = Cert.Proof.Spec.xgArr x0 x1 x2 x3 x4 x5 x6 x9 x10 := by
  funext idx
  obtain ⟨j, d, rfl⟩ : ∃ (j : Fin 4096) (d : Fin 256), idx = ix2 j d := ⟨idx 0, idx 1, eq_ix2 idx⟩
  rw [Cert.Proof.Spec.xgArr_apply, val_main_v24_apply, val_main_v23_apply, val_main_v20_apply, val_main_v22_apply,
    val_main_v21_apply, val_main_call3_v0_apply, val_main_call3_cst_apply]
  have el : ∀ c : Fin 512, lidx_main_v20 (ix2 j d) c = ix2 j c := fun c => funext fun a => Fin.ext (by
    match a with
    | ⟨0, _⟩ => rfl
    | ⟨1, _⟩ => rfl)
  have er : ∀ c : Fin 512, ridx_main_v20 (ix2 j d) c = ix2 c d := fun c => funext fun a => Fin.ext (by
    match a with
    | ⟨0, _⟩ => rfl
    | ⟨1, _⟩ => rfl)
  have eb : idx_main_v21 (idx_main_v22 (ix2 j d)) = ix1 d := funext fun a => Fin.ext (by
    match a with
    | ⟨0, _⟩ => rfl)
  simp only [el, er, eb, Ideal.maximumf_def, Ideal.addf_def, zero_word]
  rw [sum_halves]
  simp only [cat_graph_lo, cat_graph_hi, pre_graph, msg_graph]
  rfl

end Cert.Proof.RefValue

end
-- ==== Proof.lean ====
/-
  The claim: the word-level kernel, its idealization and the reference each run to the end without a fault and
  leave their arguments as they were; and at the ideal instance, from memories agreeing on the eleven arguments, the
  idealized kernel and the reference end with the same two result arrays, entry by entry on the extended reals:

    xs = relu(xs_pre·W_s[0:256] + (rbf·xg_pre)·W_s[256:512] + b_s),   xs_pre = relu(x_s·W + b),
    xg = relu(xg_pre·W_g[0:256] + (rbfᵀ·xs_pre)·W_g[256:512] + b_g),  xg_pre = relu(x_g·W' + b').

  The kernel computes xs a strip of 1024 surface rows at a time, and the message rbfᵀ·xs_pre transposed, adding each
  strip's contribution to an accumulator it keeps between grid points; the reference computes each matrix product
  whole and contracts the post layers over a concatenation. The two agree by commutativity and associativity of
  the sums and products alone — a sum over 8192 rows split into eight strips, a sum over 512 columns split into two
  halves, a product commuted —, so no finiteness of the inputs is used. The idealization rewrote nothing, so the
  fourth conjunct is the true proposition.
-/
import proofs.«118744_g87900800680619_cont_9to1_m_379_24_alg».proof.Defs
import proofs.«118744_g87900800680619_cont_9to1_m_379_24_alg».proof.Proof.Gen.Kernel
import proofs.«118744_g87900800680619_cont_9to1_m_379_24_alg».proof.Proof.Gen.KernelIdeal
import proofs.«118744_g87900800680619_cont_9to1_m_379_24_alg».proof.Proof.Gen.ReferenceIdeal
import proofs.«118744_g87900800680619_cont_9to1_m_379_24_alg».proof.Proof.Gen.Pre_finite_inputs
import proofs.«118744_g87900800680619_cont_9to1_m_379_24_alg».proof.Proof.Gen.ReferenceIdeal.Run
import proofs.«118744_g87900800680619_cont_9to1_m_379_24_alg».proof.Proof.Gen.ReferenceIdeal.Read
import proofs.«118744_g87900800680619_cont_9to1_m_379_24_alg».proof.Proof.K.Data
import proofs.«118744_g87900800680619_cont_9to1_m_379_24_alg».proof.Proof.KI.Data
import proofs.«118744_g87900800680619_cont_9to1_m_379_24_alg».proof.Proof.KI.Final13
import proofs.«118744_g87900800680619_cont_9to1_m_379_24_alg».proof.Proof.KI.Final14
import proofs.«118744_g87900800680619_cont_9to1_m_379_24_alg».proof.Proof.RefValue
import Idealize.ShloMosaic.Adequacy
import Idealize.ShloMosaic.Init

set_option maxRecDepth 16384

noncomputable section

namespace Cert.Proof

open Idealize.ShloMosaic Idealize.SL.Sem

theorem frame_k : @Cert.frame_Kernel Cert.Kernel.Gen.facts Cert.Pre_finite_inputs.Gen.facts :=
  fun m ρ _ => Cert.Proof.K.frame (F := Bits) m ρ

theorem frame_ki : @Cert.frame_KernelIdeal Cert.KernelIdeal.Gen.facts Cert.Pre_finite_inputs.Gen.facts :=
  fun m ρ _ => Cert.Proof.KI.frame (F := Ideal) m ρ

/-- The reference's run with its two results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

theorem preserves : Cert.preserves_Kernel_KernelIdeal := trivial

/-- Both runs end with the specification's two arrays of the arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Proof.Spec.xsArr (Cert.Proof.KI.Args.A0 m c) (Cert.Proof.KI.Args.A1 m c) (Cert.Proof.KI.Args.A2 m c) (Cert.Proof.KI.Args.A3 m c) (Cert.Proof.KI.Args.A4 m c) (Cert.Proof.KI.Args.A5 m c) (Cert.Proof.KI.Args.A6 m c) (Cert.Proof.KI.Args.A7 m c) (Cert.Proof.KI.Args.A8 m c),
    fun c => Cert.Proof.Spec.xgArr (Cert.Proof.KI.Args.A0 m c) (Cert.Proof.KI.Args.A1 m c) (Cert.Proof.KI.Args.A2 m c) (Cert.Proof.KI.Args.A3 m c) (Cert.Proof.KI.Args.A4 m c) (Cert.Proof.KI.Args.A5 m c) (Cert.Proof.KI.Args.A6 m c) (Cert.Proof.KI.Args.A9 m c) (Cert.Proof.KI.Args.A10 m c), ?_, ?_⟩
  · refine (θ_run Cert.KernelIdeal.defs _ _).mono (fun _ h c => ?_) (Cert.Proof.KI.run_main (F := Ideal) m ρ)
    exact ⟨((h c).1 13).trans (Cert.Proof.KI.Final13.xs_final m c), ((h c).1 14).trans (Cert.Proof.KI.Final14.xg_final m c),
      ((h c).1 1).trans (((Cert.Proof.KI.dats m 0 c).arrAt_in 1 rfl _).trans ((Cert.Proof.KI.A_eq m c 1).trans (Cert.KernelIdeal.Gen.V_main_arg0 m c))),
      ((h c).1 2).trans (((Cert.Proof.KI.dats m 0 c).arrAt_in 2 rfl _).trans ((Cert.Proof.KI.A_eq m c 2).trans (Cert.KernelIdeal.Gen.V_main_arg1 m c))),
      ((h c).1 0).trans (((Cert.Proof.KI.dats m 0 c).arrAt_in 0 rfl _).trans ((Cert.Proof.KI.A_eq m c 0).trans (Cert.KernelIdeal.Gen.V_main_arg2 m c))),
      ((h c).2 Cert.KernelIdeal.main_arg3 (Pipeline.mem_restRefs_of Cert.KernelIdeal.main_arg3 (by decide) (by decide))).trans (Cert.KernelIdeal.Gen.V_main_arg3 m c),
      ((h c).2 Cert.KernelIdeal.main_arg4 (Pipeline.mem_restRefs_of Cert.KernelIdeal.main_arg4 (by decide) (by decide))).trans (Cert.KernelIdeal.Gen.V_main_arg4 m c),
      ((h c).2 Cert.KernelIdeal.main_arg5 (Pipeline.mem_restRefs_of Cert.KernelIdeal.main_arg5 (by decide) (by decide))).trans (Cert.KernelIdeal.Gen.V_main_arg5 m c),
      ((h c).2 Cert.KernelIdeal.main_arg6 (Pipeline.mem_restRefs_of Cert.KernelIdeal.main_arg6 (by decide) (by decide))).trans (Cert.KernelIdeal.Gen.V_main_arg6 m c),
      ((h c).2 Cert.KernelIdeal.main_arg7 (Pipeline.mem_restRefs_of Cert.KernelIdeal.main_arg7 (by decide) (by decide))).trans (Cert.KernelIdeal.Gen.V_main_arg7 m c),
      ((h c).2 Cert.KernelIdeal.main_arg8 (Pipeline.mem_restRefs_of Cert.KernelIdeal.main_arg8 (by decide) (by decide))).trans (Cert.KernelIdeal.Gen.V_main_arg8 m c),
      ((h c).2 Cert.KernelIdeal.main_arg9 (Pipeline.mem_restRefs_of Cert.KernelIdeal.main_arg9 (by decide) (by decide))).trans (Cert.KernelIdeal.Gen.V_main_arg9 m c),
      ((h c).2 Cert.KernelIdeal.main_arg10 (Pipeline.mem_restRefs_of Cert.KernelIdeal.main_arg10 (by decide) (by decide))).trans (Cert.KernelIdeal.Gen.V_main_arg10 m c)⟩
  · refine (θ_run Cert.ReferenceIdeal.defs _ _).mono (fun _ h c => ?_) (Cert.ReferenceIdeal.Value.run (F := Ideal) m' ρ')
    obtain ⟨h18, h24, hargs⟩ := h c
    refine ⟨?_, ?_, hargs⟩
    · rw [h18, Cert.ReferenceIdeal.Read.val_main_v18_eq, Cert.Proof.RefValue.ref_xs,
        (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1]
    · rw [h24, Cert.ReferenceIdeal.Read.val_main_v24_eq, Cert.Proof.RefValue.ref_xg,
        (hagree c).1, (hagree c).2.1, (hagree c).2.2.1, (hagree c).2.2.2.1, (hagree c).2.2.2.2.1, (hagree c).2.2.2.2.2.1, (hagree c).2.2.2.2.2.2.1, (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
